-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v49)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v49) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v73) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x40 : S_.BroadcastsInDim S128x40 (![] : Fin 0 → Fin S128x40.rank)
  reducesTo_S128x40_S_d0_1 : S128x40.ReducesTo [0, 1] S_
  bcast_S_S40 : S_.BroadcastsInDim S40 (![] : Fin 0 → Fin S40.rank)
  reducesTo_S40_S_d0 : S40.ReducesTo [0] S_

variable [Facts]

def fn_part2 {F : FTy → Type} [FloatOps F] (main_arg8 : FVec F S128x40 .f32) (main_arg9 : FVec F S40 .f32) (main_v33 : IVec S_ 1) : IVec S_ 1 :=
  let main_v34 : FVec F S128x40 .f32 := Host.absf main_arg8
  let main_cst_12 : FVec F S_ .f32 := constant S_ .f32 0x7F800000#32
  let main_v35 : FVec F S128x40 .f32 := broadcastInDim S128x40 ![] bcast_S_S128x40 main_cst_12
  let main_v36 : IVec S128x40 1 := cmpf .olt main_v34 main_v35
  let main_c_13 : IVec S_ 1 := constantI S_ 1 1#1
  let main_v37 : IVec S_ 1 := (fun x v => Host.reduce IntOp.andi x v reducesTo_S128x40_S_d0_1 h_S_) main_v36 main_c_13
  let main_v38 : IVec S_ 1 := andi main_v33 main_v37
  let main_v39 : FVec F S40 .f32 := Host.absf main_arg9
  let main_cst_14 : FVec F S_ .f32 := constant S_ .f32 0x7F800000#32
  let main_v40 : FVec F S40 .f32 := broadcastInDim S40 ![] bcast_S_S40 main_cst_14
  let main_v41 : IVec S40 1 := cmpf .olt main_v39 main_v40
  let main_c_15 : IVec S_ 1 := constantI S_ 1 1#1
  let main_v42 : IVec S_ 1 := (fun x v => Host.reduce IntOp.andi x v reducesTo_S40_S_d0 h_S_) main_v41 main_c_15
  let main_v43 : IVec S_ 1 := andi main_v38 main_v42
  main_v43

def fn_part1 {F : FTy → Type} [FloatOps F] (main_arg5 : FVec F S128 .f32) (main_arg6 : FVec F S128 .f32) (main_arg7 : FVec F S128x40 .f32) (main_arg8 : FVec F S128x40 .f32) (main_arg9 : FVec F S40 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x40 .f32 := Host.absf main_arg7
  let main_cst_10 : FVec F S_ .f32 := constant S_ .f32 0x7F800000#32
  let main_v30 : FVec F S128x40 .f32 := broadcastInDim S128x40 ![] bcast_S_S128x40 main_cst_10
  let main_v31 : IVec S128x40 1 := cmpf .olt main_v29 main_v30
  let main_c_11 : IVec S_ 1 := constantI S_ 1 1#1
  let main_v32 : IVec S_ 1 := (fun x v => Host.reduce IntOp.andi x v reducesTo_S128x40_S_d0_1 h_S_) main_v31 main_c_11
  let main_v33 : IVec S_ 1 := andi main_v28 main_v32
  fn_part2 (F := F) main_arg8 main_arg9 main_v33

def fn {F : FTy → Type} [FloatOps F] (main_arg0 : FVec F S100000x128 .f32) (main_arg1 : IVec S2x1600000 32) (main_arg2 : FVec F S128x128 .f32) (main_arg3 : FVec F S128x128 .f32) (main_arg4 : FVec F S128 .f32) (main_arg5 : FVec F S128 .f32) (main_arg6 : FVec F S128 .f32) (main_arg7 : FVec F S128x40 .f32) (main_arg8 : FVec F S128x40 .f32) (main_arg9 : FVec F S40 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S1x128 : Shape := ⟨2, ![1, 128]⟩
abbrev S4000x128 : Shape := ⟨2, ![4000, 128]⟩
abbrev S1x40 : Shape := ⟨2, ![1, 40]⟩
abbrev S100000x40 : Shape := ⟨2, ![100000, 40]⟩
abbrev S4000x40 : Shape := ⟨2, ![4000, 40]⟩

abbrev nBuf : Space → Nat
  | .hbm => 74
  | .vmem => 28
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S128, .f32⟩
  | .hbm, ⟨6, _⟩ => ⟨S128, .f32⟩
  | .hbm, ⟨7, _⟩ => ⟨S128x40, .f32⟩
  | .hbm, ⟨8, _⟩ => ⟨S128x40, .f32⟩
  | .hbm, ⟨9, _⟩ => ⟨S40, .f32⟩
  | .hbm, ⟨10, _⟩ => ⟨S1x1600000, .i32⟩
  | .hbm, ⟨11, _⟩ => ⟨S1600000, .i32⟩
  | .hbm, ⟨12, _⟩ => ⟨S1x1600000, .i32⟩
  | .hbm, ⟨13, _⟩ => ⟨S1600000, .i32⟩
  | .hbm, ⟨14, _⟩ => ⟨S_, .f32⟩
  | .hbm, ⟨15, _⟩ => ⟨S1600000, .f32⟩
  | .hbm, ⟨16, _⟩ => ⟨S_, .f32⟩
  | .hbm, ⟨17, _⟩ => ⟨S100000, .f32⟩
  | .hbm, ⟨18, _⟩ => ⟨S1600000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S100000x1, .f32⟩
  | .hbm, ⟨27, _⟩ => ⟨S_, .i32⟩
  | .hbm, ⟨28, _⟩ => ⟨S1600000, .i32⟩
  | .hbm, ⟨29, _⟩ => ⟨S1600000, .i1⟩
  | .hbm, ⟨30, _⟩ => ⟨S_, .i32⟩
  | .hbm, ⟨31, _⟩ => ⟨S1600000, .i32⟩
  | .hbm, ⟨32, _⟩ => ⟨S1600000, .i32⟩
  | .hbm, ⟨33, _⟩ => ⟨S1600000, .i32⟩
  | .hbm, ⟨34, _⟩ => ⟨S1600000x1, .i32⟩
  | .hbm, ⟨35, _⟩ => ⟨S1600000x128, .f32⟩
  | .hbm, ⟨36, _⟩ => ⟨S_, .f32⟩
  | .hbm, ⟨37, _⟩ => ⟨S100000x128, .f32⟩
  | .hbm, ⟨38, _⟩ => ⟨S1600000x1, .i32⟩
  | .hbm, ⟨39, _⟩ => ⟨S100000x128, .f32⟩
  | .hbm, ⟨40, _⟩ => ⟨S100000x128, .f32⟩
  | .hbm, ⟨41, _⟩ => ⟨S100000x128, .f32⟩
  | .hbm, ⟨42, _⟩ => ⟨S1x128, .f32⟩
  | .hbm, ⟨43, _⟩ => ⟨S100000x128, .f32⟩
  | .hbm, ⟨44, _⟩ => ⟨S1x128, .f32⟩
  | .hbm, ⟨45, _⟩ => ⟨S1x128, .f32⟩
  | .hbm, ⟨46, _⟩ => ⟨S_, .f32⟩
  | .hbm, ⟨47, _⟩ => ⟨S1x128, .f32⟩
  | .hbm, ⟨48, _⟩ => ⟨S1x128, .f32⟩
  | .hbm, ⟨49, _⟩ => ⟨S_, .f32⟩
  | .hbm, ⟨50, _⟩ => ⟨S1x128, .f32⟩
  | .hbm, ⟨51, _⟩ => ⟨S1x128, .f32⟩
  | .hbm, ⟨52, _⟩ => ⟨S1x128, .f32⟩
  | .hbm, ⟨53, _⟩ => ⟨S1x128, .f32⟩
  | .hbm, ⟨54, _⟩ => ⟨S1x128, .f32⟩
  | .hbm, ⟨55, _⟩ => ⟨S1x128, .f32⟩
  | .hbm, ⟨56, _⟩ => ⟨S100000x128, .f32⟩
  | .hbm, ⟨57, _⟩ => ⟨S_, .i32⟩
  | .hbm, ⟨58, _⟩ => ⟨S1600000, .i32⟩
  | .hbm, ⟨59, _⟩ => ⟨S1600000, .i1⟩
  | .hbm, ⟨60, _⟩ => ⟨S_, .i32⟩
  | .hbm, ⟨61, _⟩ => ⟨S1600000, .i32⟩
  | .hbm, ⟨62, _⟩ => ⟨S1600000, .i32⟩
  | .hbm, ⟨63, _⟩ => ⟨S1600000, .i32⟩
  | .hbm, ⟨64, _⟩ => ⟨S1600000x1, .i32⟩
  | .hbm, ⟨65, _⟩ => ⟨S1600000x128, .f32⟩
  | .hbm, ⟨66, _⟩ => ⟨S_, .f32⟩
  | .hbm, ⟨67, _⟩ => ⟨S100000x128, .f32⟩
  | .hbm, ⟨68, _⟩ => ⟨S1600000x1, .i32⟩
  | .hbm, ⟨69, _⟩ => ⟨S100000x128, .f32⟩
  | .hbm, ⟨70, _⟩ => ⟨S100000x128, .f32⟩
  | .hbm, ⟨71, _⟩ => ⟨S100000x128, .f32⟩
  | .hbm, ⟨72, _⟩ => ⟨S1x40, .f32⟩
  | .hbm, ⟨73, _⟩ => ⟨S100000x40, .f32⟩
  | .local _ .vmem, ⟨0, _⟩ => ⟨S4000x128, .f32⟩
  | .local _ .vmem, ⟨1, _⟩ => ⟨S4000x128, .f32⟩
  | .local _ .vmem, ⟨2, _⟩ => ⟨S4000x128, .f32⟩
  | .local _ .vmem, ⟨3, _⟩ => ⟨S4000x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S4000x128, .f32⟩
  | .local _ .vmem, ⟨8, _⟩ => ⟨S4000x128, .f32⟩
  | .local _ .vmem, ⟨9, _⟩ => ⟨S1x128, .f32⟩
  | .local _ .vmem, ⟨10, _⟩ => ⟨S1x128, .f32⟩
  | .local _ .vmem, ⟨11, _⟩ => ⟨S4000x128, .f32⟩
  | .local _ .vmem, ⟨12, _⟩ => ⟨S4000x128, .f32⟩
  | .local _ .vmem, ⟨13, _⟩ => ⟨S1x128, .f32⟩
  | .local _ .vmem, ⟨14, _⟩ => ⟨S1x128, .f32⟩
  | .local _ .vmem, ⟨15, _⟩ => ⟨S1x128, .f32⟩
  | .local _ .vmem, ⟨16, _⟩ => ⟨S1x128, .f32⟩
  | .local _ .vmem, ⟨17, _⟩ => ⟨S4000x128, .f32⟩
  | .local _ .vmem, ⟨18, _⟩ => ⟨S4000x128, .f32⟩
  | .local _ .vmem, ⟨19, _⟩ => ⟨S4000x128, .f32⟩
  | .local _ .vmem, ⟨20, _⟩ => ⟨S4000x128, .f32⟩
  | .local _ .vmem, ⟨21, _⟩ => ⟨S4000x128, .f32⟩
  | .local _ .vmem, ⟨22, _⟩ => ⟨S4000x128, .f32⟩
  | .local _ .vmem, ⟨23, _⟩ => ⟨S128x40, .f32⟩
  | .local _ .vmem, ⟨24, _⟩ => ⟨S128x40, .f32⟩
  | .local _ .vmem, ⟨25, _⟩ => ⟨S1x40, .f32⟩
  | .local _ .vmem, ⟨26, _⟩ => ⟨S4000x40, .f32⟩
  | .local _ .vmem, ⟨27, _⟩ => ⟨S4000x40, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_cst_2 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_c : Ref sig .tc := ⟨.hbm, 27, rfl⟩
abbrev main_v13 : Ref sig .tc := ⟨.hbm, 28, rfl⟩
abbrev main_v14 : Ref sig .tc := ⟨.hbm, 29, rfl⟩
abbrev main_c_3 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst_4 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26_0 : Ref sig .tc := ⟨.hbm, 43, rfl⟩
abbrev main_v26_1 : Ref sig .tc := ⟨.hbm, 44, rfl⟩
abbrev main_v26_2 : Ref sig .tc := ⟨.hbm, 45, rfl⟩
abbrev main_cst_5 : Ref sig .tc := ⟨.hbm, 46, rfl⟩
abbrev main_v27 : Ref sig .tc := ⟨.hbm, 47, rfl⟩
abbrev main_v28 : Ref sig .tc := ⟨.hbm, 48, rfl⟩
abbrev main_cst_6 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_c_7 : Ref sig .tc := ⟨.hbm, 57, rfl⟩
abbrev main_v36 : Ref sig .tc := ⟨.hbm, 58, rfl⟩
abbrev main_v37 : Ref sig .tc := ⟨.hbm, 59, rfl⟩
abbrev main_c_8 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_cst_9 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg5_1 : Ref sig .tc := ⟨.vmem, 18, rfl⟩
abbrev cc2_stg0_0 : Ref sig .tc := ⟨.vmem, 19, rfl⟩
abbrev cc2_stg0_1 : Ref sig .tc := ⟨.vmem, 20, rfl⟩
abbrev cc2_stg1_0 : Ref sig .tc := ⟨.vmem, 21, rfl⟩
abbrev cc2_stg1_1 : Ref sig .tc := ⟨.vmem, 22, rfl⟩
abbrev cc2_stg2_0 : Ref sig .tc := ⟨.vmem, 23, rfl⟩
abbrev cc2_stg3_0 : Ref sig .tc := ⟨.vmem, 24, rfl⟩
abbrev cc2_stg4_0 : Ref sig .tc := ⟨.vmem, 25, rfl⟩
abbrev cc2_stg5_0 : Ref sig .tc := ⟨.vmem, 26, rfl⟩
abbrev cc2_stg5_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem7_0 : DmaSem sig := 10
abbrev cc1_sem0_0 : DmaSem sig := 11
abbrev cc1_sem0_1 : DmaSem sig := 12
abbrev cc1_sem1_0 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem5_1 : DmaSem sig := 18
abbrev cc2_sem0_0 : DmaSem sig := 19
abbrev cc2_sem0_1 : DmaSem sig := 20
abbrev cc2_sem1_0 : DmaSem sig := 21
abbrev cc2_sem1_1 : DmaSem sig := 22
abbrev cc2_sem2_0 : DmaSem sig := 23
abbrev cc2_sem3_0 : DmaSem sig := 24
abbrev cc2_sem4_0 : DmaSem sig := 25
abbrev cc2_sem5_0 : DmaSem sig := 26
abbrev cc2_sem5_1 : DmaSem sig := 27

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S4000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x40 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x40 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x40 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S4000x40 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  shapeCasts_S128_S1x128 : S128.ShapeCasts S1x128
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  reduces_S4000x128_S128 : S4000x128.Reduces [0] S128
  bcast_S_S1x128 : S_.BroadcastsInDim S1x128 (![] : Fin 0 → Fin S1x128.rank)
  shapeCasts_S40_S1x40 : S40.ShapeCasts S1x40
  inb_S128x40_S128x40_0_0 : ∀ a, (![0, 0] : Fin 2 → Nat) a + S128x40.size a ≤ S128x40.size a
  h_S128x40 : 0 < S128x40.numel
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S4000x40 : S1x40.Broadcasts S4000x40
  inb_S4000x40_S4000x40_0_0 : ∀ a, (![0, 0] : Fin 2 → Nat) a + S4000x40.size a ≤ S4000x40.size a
  h_S4000x40 : 0 < S4000x40.numel
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S4000x128_S128x128_S4000x128_1_0_0_1_n_n_wf : DotDims.WF S4000x128 S128x128 S4000x128 [1] [0] [0] [1] [] []
  dot_S4000x128_S128x40_S4000x40_1_0_0_1_n_n_wf : DotDims.WF S4000x128 S128x40 S4000x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x128.size a ≤ S100000x128.size a
  hwx0_1 : ∀ i : grid0.Coords, EltTy.bits .f32 = 32 ∨ (Rect.block (s := S100000x128) S4000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4000x128.size a ≤ S100000x128.size a
  hwx0_5 : ∀ i : grid0.Coords, EltTy.bits .f32 = 32 ∨ (Rect.block (s := S100000x128) S4000x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S100000x128.size a
  hwx1_0 : ∀ i : grid1.Coords, EltTy.bits .f32 = 32 ∨ (Rect.block (s := S100000x128) S4000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S4000x128.size a ≤ S100000x128.size a
  hwx1_5 : ∀ i : grid1.Coords, EltTy.bits .f32 = 32 ∨ (Rect.block (s := S100000x128) S4000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x128.size a ≤ S100000x128.size a
  hwx2_0 : ∀ i : grid2.Coords, EltTy.bits .f32 = 32 ∨ (Rect.block (s := S100000x128) S4000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4000x128.size a ≤ S100000x128.size a
  hwx2_1 : ∀ i : grid2.Coords, EltTy.bits .f32 = 32 ∨ (Rect.block (s := S100000x128) S4000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x40.size a ≤ S128x40.size a
  hwx2_2 : ∀ i : grid2.Coords, EltTy.bits .f32 = 32 ∨ (Rect.block (s := S128x40) S128x40.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x40.size a ≤ S128x40.size a
  hwx2_3 : ∀ i : grid2.Coords, EltTy.bits .f32 = 32 ∨ (Rect.block (s := S128x40) S128x40.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x40.size a ≤ S1x40.size a
  hwx2_4 : ∀ i : grid2.Coords, EltTy.bits .f32 = 32 ∨ (Rect.block (s := S1x40) S1x40.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S4000x40.size a ≤ S100000x40.size a
  hwx2_5 : ∀ i : grid2.Coords, EltTy.bits .f32 = 32 ∨ (Rect.block (s := S100000x40) S4000x40.size (cc2_transform_5 i) (hinb2_5 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def dot_S4000x128_S128x40_S4000x40_1_0_0_1_n_n : DotDims S4000x128 S128x40 S4000x40 where
  lhsContracting := [1]
  rhsContracting := [0]
  lhsNonContracting := [0]
  rhsNonContracting := [1]
  lhsBatch := []
  rhsBatch := []
  wf := dot_S4000x128_S128x40_S4000x40_1_0_0_1_n_n_wf

abbrev win0_0 : Pipeline.Window sig grid0 :=
  Pipeline.Window.ofSpec (Memref.whole main_v24) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S4000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v25) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v26_0) S4000x128.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v26_1) S1x128.size cc0_transform_6 reads0_6 true true 1 stage0_6 sem0_6
    hrank0 hreads0_6 hinb0_6 nbuf0_6 (Memref.isWhole_whole _) hwx0_6 hstage0_6

abbrev win0_7 : Pipeline.Window sig grid0 :=
  Pipeline.Window.ofSpec (Memref.whole main_v26_2) S1x128.size cc0_transform_7 reads0_7 true true 1 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v26_0) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v28) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v32) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v33) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v34) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v35) S4000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v47) S4000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v35) S4000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg7) S128x40.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg8) S128x40.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v48) S1x40.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v49) S4000x40.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S1x128 : Shape := ⟨2, ![1, 128]⟩
abbrev S100000x40 : Shape := ⟨2, ![100000, 40]⟩
abbrev S1x40 : Shape := ⟨2, ![1, 40]⟩

abbrev nBuf : Space → Nat
  | .hbm => 123
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S128, .f32⟩
  | .hbm, ⟨6, _⟩ => ⟨S128, .f32⟩
  | .hbm, ⟨7, _⟩ => ⟨S128x40, .f32⟩
  | .hbm, ⟨8, _⟩ => ⟨S128x40, .f32⟩
  | .hbm, ⟨9, _⟩ => ⟨S40, .f32⟩
  | .hbm, ⟨10, _⟩ => ⟨S1x1600000, .i32⟩
  | .hbm, ⟨11, _⟩ => ⟨S1600000, .i32⟩
  | .hbm, ⟨12, _⟩ => ⟨S1x1600000, .i32⟩
  | .hbm, ⟨13, _⟩ => ⟨S1600000, .i32⟩
  | .hbm, ⟨14, _⟩ => ⟨S_, .i32⟩
  | .hbm, ⟨15, _⟩ => ⟨S1600000, .i32⟩
  | .hbm, ⟨16, _⟩ => ⟨S1600000, .i1⟩
  | .hbm, ⟨17, _⟩ => ⟨S_, .i32⟩
  | .hbm, ⟨18, _⟩ => ⟨S1600000, .i32⟩
  | .hbm, ⟨19, _⟩ => ⟨S1600000, .i32⟩
  | .hbm, ⟨20, _⟩ => ⟨S1600000, .i32⟩
  | .hbm, ⟨21, _⟩ => ⟨S1600000x1, .i32⟩
  | .hbm, ⟨22, _⟩ => ⟨S1600000x128, .f32⟩
  | .hbm, ⟨23, _⟩ => ⟨S_, .f32⟩
  | .hbm, ⟨24, _⟩ => ⟨S100000x128, .f32⟩
  | .hbm, ⟨25, _⟩ => ⟨S1600000x1, .i32⟩
  | .hbm, ⟨26, _⟩ => ⟨S100000x128, .f32⟩
  | .hbm, ⟨27, _⟩ => ⟨S_, .f32⟩
  | .hbm, ⟨28, _⟩ => ⟨S1600000, .f32⟩
  | .hbm, ⟨29, _⟩ => ⟨S_, .f32⟩
  | .hbm, ⟨30, _⟩ => ⟨S100000, .f32⟩
  | .hbm, ⟨31, _⟩ => ⟨S1600000x1, .i32⟩
  | .hbm, ⟨32, _⟩ => ⟨S100000, .f32⟩
  | .hbm, ⟨33, _⟩ => ⟨S_, .f32⟩
  | .hbm, ⟨34, _⟩ => ⟨S100000, .f32⟩
  | .hbm, ⟨35, _⟩ => ⟨S100000, .f32⟩
  | .hbm, ⟨36, _⟩ => ⟨S100000x1, .f32⟩
  | .hbm, ⟨37, _⟩ => ⟨S100000x128, .f32⟩
  | .hbm, ⟨38, _⟩ => ⟨S100000x128, .f32⟩
  | .hbm, ⟨39, _⟩ => ⟨S100000x128, .f32⟩
  | .hbm, ⟨40, _⟩ => ⟨S100000x128, .f32⟩
  | .hbm, ⟨41, _⟩ => ⟨S100000x128, .f32⟩
  | .hbm, ⟨42, _⟩ => ⟨S1x128, .f32⟩
  | .hbm, ⟨43, _⟩ => ⟨S100000x128, .f32⟩
  | .hbm, ⟨44, _⟩ => ⟨S100000x128, .f32⟩
  | .hbm, ⟨45, _⟩ => ⟨S_, .f32⟩
  | .hbm, ⟨46, _⟩ => ⟨S128, .f32⟩
  | .hbm, ⟨47, _⟩ => ⟨S_, .f32⟩
  | .hbm, ⟨48, _⟩ => ⟨S128, .f32⟩
  | .hbm, ⟨49, _⟩ => ⟨S128, .f32⟩
  | .hbm, ⟨50, _⟩ => ⟨S_, .i32⟩
  | .hbm, ⟨51, _⟩ => ⟨S_, .f32⟩
  | .hbm, ⟨52, _⟩ => ⟨S128, .f32⟩
  | .hbm, ⟨53, _⟩ => ⟨S1x128, .f32⟩
  | .hbm, ⟨54, _⟩ => ⟨S_, .f32⟩
  | .hbm, ⟨55, _⟩ => ⟨S1x128, .f32⟩
  | .hbm, ⟨56, _⟩ => ⟨S1x128, .f32⟩
  | .hbm, ⟨57, _⟩ => ⟨S100000x128, .f32⟩
  | .hbm, ⟨58, _⟩ => ⟨S100000x128, .f32⟩
  | .hbm, ⟨59, _⟩ => ⟨S100000x128, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S128, .f32⟩
  | .hbm, ⟨65, _⟩ => ⟨S128, .f32⟩
  | .hbm, ⟨66, _⟩ => ⟨S128, .f32⟩
  | .hbm, ⟨67, _⟩ => ⟨S_, .f32⟩
  | .hbm, ⟨68, _⟩ => ⟨S_, .i1⟩
  | .hbm, ⟨69, _⟩ => ⟨S_, .f32⟩
  | .hbm, ⟨70, _⟩ => ⟨S_, .f32⟩
  | .hbm, ⟨71, _⟩ => ⟨S128, .f32⟩
  | .hbm, ⟨72, _⟩ => ⟨S128, .f32⟩
  | .hbm, ⟨73, _⟩ => ⟨S1x128, .f32⟩
  | .hbm, ⟨74, _⟩ => ⟨S100000x128, .f32⟩
  | .hbm, ⟨75, _⟩ => ⟨S100000x128, .f32⟩
  | .hbm, ⟨76, _⟩ => ⟨S1x128, .f32⟩
  | .hbm, ⟨77, _⟩ => ⟨S100000x128, .f32⟩
  | .hbm, ⟨78, _⟩ => ⟨S100000x128, .f32⟩
  | .hbm, ⟨79, _⟩ => ⟨S_, .f32⟩
  | .hbm, ⟨80, _⟩ => ⟨S128, .f32⟩
  | .hbm, ⟨81, _⟩ => ⟨S128, .f32⟩
  | .hbm, ⟨82, _⟩ => ⟨S128, .f32⟩
  | .hbm, ⟨83, _⟩ => ⟨S1x128, .f32⟩
  | .hbm, ⟨84, _⟩ => ⟨S100000x128, .f32⟩
  | .hbm, ⟨85, _⟩ => ⟨S100000x128, .f32⟩
  | .hbm, ⟨86, _⟩ => ⟨S1x128, .f32⟩
  | .hbm, ⟨87, _⟩ => ⟨S100000x128, .f32⟩
  | .hbm, ⟨88, _⟩ => ⟨S100000x128, .f32⟩
  | .hbm, ⟨89, _⟩ => ⟨S_, .f32⟩
  | .hbm, ⟨90, _⟩ => ⟨S100000x128, .f32⟩
  | .hbm, ⟨91, _⟩ => ⟨S100000x128, .f32⟩
  | .hbm, ⟨92, _⟩ => ⟨S_, .i32⟩
  | .hbm, ⟨93, _⟩ => ⟨S1600000, .i32⟩
  | .hbm, ⟨94, _⟩ => ⟨S1600000, .i1⟩
  | .hbm, ⟨95, _⟩ => ⟨S_, .i32⟩
  | .hbm, ⟨96, _⟩ => ⟨S1600000, .i32⟩
  | .hbm, ⟨97, _⟩ => ⟨S1600000, .i32⟩
  | .hbm, ⟨98, _⟩ => ⟨S1600000, .i32⟩
  | .hbm, ⟨99, _⟩ => ⟨S1600000x1, .i32⟩
  | .hbm, ⟨100, _⟩ => ⟨S1600000x128, .f32⟩
  | .hbm, ⟨101, _⟩ => ⟨S_, .f32⟩
  | .hbm, ⟨102, _⟩ => ⟨S100000x128, .f32⟩
  | .hbm, ⟨103, _⟩ => ⟨S1600000x1, .i32⟩
  | .hbm, ⟨104, _⟩ => ⟨S100000x128, .f32⟩
  | .hbm, ⟨105, _⟩ => ⟨S_, .f32⟩
  | .hbm, ⟨106, _⟩ => ⟨S1600000, .f32⟩
  | .hbm, ⟨107, _⟩ => ⟨S_, .f32⟩
  | .hbm, ⟨108, _⟩ => ⟨S100000, .f32⟩
  | .hbm, ⟨109, _⟩ => ⟨S1600000x1, .i32⟩
  | .hbm, ⟨110, _⟩ => ⟨S100000, .f32⟩
  | .hbm, ⟨111, _⟩ => ⟨S_, .f32⟩
  | .hbm, ⟨112, _⟩ => ⟨S100000, .f32⟩
  | .hbm, ⟨113, _⟩ => ⟨S100000, .f32⟩
  | .hbm, ⟨114, _⟩ => ⟨S100000x1, .f32⟩
  | .hbm, ⟨115, _⟩ => ⟨S100000x128, .f32⟩
  | .hbm, ⟨116, _⟩ => ⟨S100000x128, .f32⟩
  | .hbm, ⟨117, _⟩ => ⟨S100000x40, .f32⟩
  | .hbm, ⟨118, _⟩ => ⟨S100000x40, .f32⟩
  | .hbm, ⟨119, _⟩ => ⟨S100000x40, .f32⟩
  | .hbm, ⟨120, _⟩ => ⟨S1x40, .f32⟩
  | .hbm, ⟨121, _⟩ => ⟨S100000x40, .f32⟩
  | .hbm, ⟨122, _⟩ => ⟨S100000x40, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_1 : Ref sig .tc := ⟨.hbm, 27, rfl⟩
abbrev main_v14 : Ref sig .tc := ⟨.hbm, 28, rfl⟩
abbrev main_cst_2 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_4 : Ref sig .tc := ⟨.hbm, 45, rfl⟩
abbrev main_v29 : Ref sig .tc := ⟨.hbm, 46, rfl⟩
abbrev main_cst_5 : Ref sig .tc := ⟨.hbm, 47, rfl⟩
abbrev main_v30 : Ref sig .tc := ⟨.hbm, 48, rfl⟩
abbrev main_v31 : Ref sig .tc := ⟨.hbm, 49, rfl⟩
abbrev main_c_6 : Ref sig .tc := ⟨.hbm, 50, rfl⟩
abbrev main_call0_cst : Ref sig .tc := ⟨.hbm, 51, rfl⟩
abbrev main_call0_v0 : Ref sig .tc := ⟨.hbm, 52, rfl⟩
abbrev main_call0_v1 : Ref sig .tc := ⟨.hbm, 53, rfl⟩
abbrev main_call0_cst_0 : Ref sig .tc := ⟨.hbm, 54, rfl⟩
abbrev main_call0_v2 : Ref sig .tc := ⟨.hbm, 55, rfl⟩
abbrev main_call0_v3 : Ref sig .tc := ⟨.hbm, 56, rfl⟩
abbrev main_call0_v4 : Ref sig .tc := ⟨.hbm, 57, rfl⟩
abbrev main_call0_v5 : Ref sig .tc := ⟨.hbm, 58, rfl⟩
abbrev main_call0_v6 : Ref sig .tc := ⟨.hbm, 59, rfl⟩
abbrev main_call0_v7 : Ref sig .tc := ⟨.hbm, 60, rfl⟩
abbrev main_call0_cst_1 : Ref sig .tc := ⟨.hbm, 61, rfl⟩
abbrev main_call0_v8 : Ref sig .tc := ⟨.hbm, 62, rfl⟩
abbrev main_call0_cst_2 : Ref sig .tc := ⟨.hbm, 63, rfl⟩
abbrev main_call0_v9 : Ref sig .tc := ⟨.hbm, 64, rfl⟩
abbrev main_call0_v10 : Ref sig .tc := ⟨.hbm, 65, rfl⟩
abbrev main_call0_v11 : Ref sig .tc := ⟨.hbm, 66, rfl⟩
abbrev main_call0_cst_3 : Ref sig .tc := ⟨.hbm, 67, rfl⟩
abbrev main_call0_v12 : Ref sig .tc := ⟨.hbm, 68, rfl⟩
abbrev main_call0_cst_4 : Ref sig .tc := ⟨.hbm, 69, rfl⟩
abbrev main_call0_call0_v0 : Ref sig .tc := ⟨.hbm, 70, rfl⟩
abbrev main_call0_call0_v1 : Ref sig .tc := ⟨.hbm, 71, rfl⟩
abbrev main_v32 : Ref sig .tc := ⟨.hbm, 72, rfl⟩
abbrev main_v33 : Ref sig .tc := ⟨.hbm, 73, rfl⟩
abbrev main_v34 : Ref sig .tc := ⟨.hbm, 74, rfl⟩
abbrev main_v35 : Ref sig .tc := ⟨.hbm, 75, rfl⟩
abbrev main_v36 : Ref sig .tc := ⟨.hbm, 76, rfl⟩
abbrev main_v37 : Ref sig .tc := ⟨.hbm, 77, rfl⟩
abbrev main_v38 : Ref sig .tc := ⟨.hbm, 78, rfl⟩
abbrev main_cst_7 : Ref sig .tc := ⟨.hbm, 79, rfl⟩
abbrev main_v39 : Ref sig .tc := ⟨.hbm, 80, rfl⟩
abbrev main_v40 : Ref sig .tc := ⟨.hbm, 81, rfl⟩
abbrev main_v41 : Ref sig .tc := ⟨.hbm, 82, rfl⟩
abbrev main_v42 : Ref sig .tc := ⟨.hbm, 83, rfl⟩
abbrev main_v43 : Ref sig .tc := ⟨.hbm, 84, rfl⟩
abbrev main_v44 : Ref sig .tc := ⟨.hbm, 85, rfl⟩
abbrev main_v45 : Ref sig .tc := ⟨.hbm, 86, rfl⟩
abbrev main_v46 : Ref sig .tc := ⟨.hbm, 87, rfl⟩
abbrev main_v47 : Ref sig .tc := ⟨.hbm, 88, rfl⟩
abbrev main_call1_cst : Ref sig .tc := ⟨.hbm, 89, rfl⟩
abbrev main_call1_v0 : Ref sig .tc := ⟨.hbm, 90, rfl⟩
abbrev main_v48 : Ref sig .tc := ⟨.hbm, 91, rfl⟩
abbrev main_c_8 : Ref sig .tc := ⟨.hbm, 92, rfl⟩
abbrev main_v49 : Ref sig .tc := ⟨.hbm, 93, rfl⟩
abbrev main_v50 : Ref sig .tc := ⟨.hbm, 94, rfl⟩
abbrev main_c_9 : Ref sig .tc := ⟨.hbm, 95, rfl⟩
abbrev main_v51 : Ref sig .tc := ⟨.hbm, 96, rfl⟩
abbrev main_v52 : Ref sig .tc := ⟨.hbm, 97, rfl⟩
abbrev main_v53 : Ref sig .tc := ⟨.hbm, 98, rfl⟩
abbrev main_v54 : Ref sig .tc := ⟨.hbm, 99, rfl⟩
abbrev main_v55 : Ref sig .tc := ⟨.hbm, 100, rfl⟩
abbrev main_cst_10 : Ref sig .tc := ⟨.hbm, 101, rfl⟩
abbrev main_v56 : Ref sig .tc := ⟨.hbm, 102, rfl⟩
abbrev main_v57 : Ref sig .tc := ⟨.hbm, 103, rfl⟩
abbrev main_v58 : Ref sig .tc := ⟨.hbm, 104, rfl⟩
abbrev main_cst_11 : Ref sig .tc := ⟨.hbm, 105, rfl⟩
abbrev main_v59 : Ref sig .tc := ⟨.hbm, 106, rfl⟩
abbrev main_cst_12 : Ref sig .tc := ⟨.hbm, 107, rfl⟩
abbrev main_v60 : Ref sig .tc := ⟨.hbm, 108, rfl⟩
abbrev main_v61 : Ref sig .tc := ⟨.hbm, 109, rfl⟩
abbrev main_v62 : Ref sig .tc := ⟨.hbm, 110, rfl⟩
abbrev main_cst_13 : Ref sig .tc := ⟨.hbm, 111, rfl⟩
abbrev main_v63 : Ref sig .tc := ⟨.hbm, 112, rfl⟩
abbrev main_v64 : Ref sig .tc := ⟨.hbm, 113, rfl⟩
abbrev main_v65 : Ref sig .tc := ⟨.hbm, 114, rfl⟩
abbrev main_v66 : Ref sig .tc := ⟨.hbm, 115, rfl⟩
abbrev main_v67 : Ref sig .tc := ⟨.hbm, 116, rfl⟩
abbrev main_v68 : Ref sig .tc := ⟨.hbm, 117, rfl⟩
abbrev main_v69 : Ref sig .tc := ⟨.hbm, 118, rfl⟩
abbrev main_v70 : Ref sig .tc := ⟨.hbm, 119, rfl⟩
abbrev main_v71 : Ref sig .tc := ⟨.hbm, 120, rfl⟩
abbrev main_v72 : Ref sig .tc := ⟨.hbm, 121, rfl⟩
abbrev main_v73 : Ref sig .tc := ⟨.hbm, 122, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S128_d0 : S100000x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []
  dot_S100000x128_S128x40_S100000x40_1_0_0_1_n_n_wf : DotDims.WF S100000x128 S128x40 S100000x40 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x40_S100000x40_1_0_0_1_n_n : DotDims S100000x128 S128x40 S100000x40 where
  lhsContracting := [1]
  rhsContracting := [0]
  lhsNonContracting := [0]
  rhsNonContracting := [1]
  lhsBatch := []
  rhsBatch := []
  wf := dot_S100000x128_S128x40_S100000x40_1_0_0_1_n_n_wf

class Facts : Prop extends Facts₀ where

variable [Facts]
-- ==== Proof.SageSpec.lean ====
/-
  A two-layer mean-aggregation graph network with batch normalisation between the layers, written as functions of
  the argument arrays over the extended reals.

  One layer: at node i and output feature j, the neighbour mean's product with the first weight matrix plus the node's
  own features' product with the second plus the bias (`lin`). The neighbour mean of feature k at node i is the
  neighbour sum S(i, k) over the node's denominator den(i); it is written in two ways, as the product with the
  reciprocal 1 / den(i) (`aggMul`) and as the quotient (`aggDiv`). Batch statistics of a hidden array h over the
  100000 nodes: the column mean, and the variance written in two ways, as mean of squares minus squared mean
  (`varOfSquares`) and as mean of centred squares (`varCentered`). The normalised, rectified hidden array is
  max(γ (h - μ) rsqrt(v + ε) + β, 0) (`bnRelu`).

  `outK` composes the layers with the product form and the variance of squares, `outR` with the quotient form and
  the centred variance; the neighbour sum `gs` (one function of a feature array) and the denominators `den` are
  parameters, the same on both sides.
-/
import Idealize.ShloMosaic.PureOps.Ideal
import Idealize.ShloMosaic.Lib.ValueIdx

noncomputable section

namespace Cert.Sage

open Idealize.ShloMosaic Idealize.ShloMosaic.ValueIdx

/-- An a x b array of extended reals, and a vector of a of them. -/
abbrev Arr2 (a b : Nat) : Type := (⟨2, ![a, b]⟩ : Shape).Idx → EReal
abbrev Arr1 (a : Nat) : Type := (⟨1, ![a]⟩ : Shape).Idx → EReal

/-- The array whose entry at (i, j) is `f i j`. -/
def ofFn2 {a b : Nat} (f : Fin a → Fin b → EReal) : Arr2 a b := fun p => f (p 0) (p 1)

theorem ofFn2_ix2 {a b : Nat} (f : Fin a → Fin b → EReal) (i : Fin a) (j : Fin b) : ofFn2 f (ix2 i j) = f i j := rfl

/-- A 1 x D array read as a vector, and a vector laid out as a 1 x D array. -/
def rowOf {D : Nat} (b : Arr2 1 D) : Arr1 D := fun q => b (ix2 (0 : Fin 1) (q 0))
def asRow {D : Nat} (v : Fin D → EReal) : Arr2 1 D := ofFn2 fun _ j => v j

theorem asRow_ix2 {D : Nat} (v : Fin D → EReal) (z : Fin 1) (j : Fin D) : asRow v (ix2 z j) = v j := rfl

/-- The float constants the programs spell: 1, the node count 100000, and the variance's ε. -/
abbrev litOne : EReal := Ideal.ofBits .f32 0x3F800000#32
abbrev litN : EReal := Ideal.ofBits .f32 0x47C35000#32
abbrev litEps : EReal := Ideal.ofBits .f32 0x3727C5AC#32

/-- An extended real that is a real number. -/
def IsReal (a : EReal) : Prop := ∃ r : ℝ, a = (r : EReal)

/-- One layer's linear part at node i, output feature j. -/
def lin {D : Nat} (agg x : Arr2 100000 128) (Wl Wr : Arr2 128 D) (b : Arr1 D) (i : Fin 100000) (j : Fin D) : EReal :=
  (∑ k : Fin 128, agg (ix2 i k) * Wl (ix2 k j)) + (∑ k : Fin 128, x (ix2 i k) * Wr (ix2 k j)) + b (ix1 j)

/-- The neighbour mean as the neighbour sum times the reciprocal of the denominator. -/
def aggMul (S : Arr2 100000 128) (den : Arr1 100000) : Arr2 100000 128 :=
  ofFn2 fun i k => S (ix2 i k) * Ideal.div litOne (den (ix1 i))

/-- The neighbour mean as the neighbour sum over the denominator. -/
def aggDiv (S : Arr2 100000 128) (den : Arr1 100000) : Arr2 100000 128 :=
  ofFn2 fun i k => Ideal.div (S (ix2 i k)) (den (ix1 i))

/-- The sum of column j over the 100000 nodes. -/
def colSum (h : Arr2 100000 128) (j : Fin 128) : EReal := ∑ i : Fin 100000, h (ix2 i j)

/-- The mean of column j. -/
def mean (h : Arr2 100000 128) (j : Fin 128) : EReal := Ideal.div (colSum h j) litN

/-- The variance of column j as the mean of squares minus the squared mean. -/
def varOfSquares (h : Arr2 100000 128) (j : Fin 128) : EReal :=
  Ideal.div (colSum (fun p => h p * h p) j) litN - mean h j * mean h j

/-- The variance of column j as the mean of the centred squares. -/
def varCentered (h : Arr2 100000 128) (j : Fin 128) : EReal :=
  Ideal.div (∑ i : Fin 100000, (h (ix2 i j) - mean h j) * (h (ix2 i j) - mean h j)) litN

/-- Batch normalisation with given statistics, then rectification, at node i, feature j. -/
def bnRelu (h : Arr2 100000 128) (mu var : Fin 128 → EReal) (gamma beta : Arr1 128) (i : Fin 100000) (j : Fin 128) : EReal :=
  max (gamma (ix1 j) * (h (ix2 i j) - mu j) * Ideal.rsqrt (var j + litEps) + beta (ix1 j)) 0

section Network

variable (gs : Arr2 100000 128 → Arr2 100000 128) (den : Arr1 100000)

/-- One layer with the neighbour mean in product form. -/
def layerK {D : Nat} (feat : Arr2 100000 128) (Wl Wr : Arr2 128 D) (b : Arr1 D) : Arr2 100000 D :=
  ofFn2 (lin (aggMul (gs feat) den) feat Wl Wr b)

/-- One layer with the neighbour mean in quotient form. -/
def layerR {D : Nat} (feat : Arr2 100000 128) (Wl Wr : Arr2 128 D) (b : Arr1 D) : Arr2 100000 D :=
  ofFn2 (lin (aggDiv (gs feat) den) feat Wl Wr b)

/-- The normalised, rectified hidden array, the variance taken as mean of squares minus squared mean. -/
def hiddenK (h : Arr2 100000 128) (gamma beta : Arr1 128) : Arr2 100000 128 :=
  ofFn2 (bnRelu h (mean h) (varOfSquares h) gamma beta)

/-- The normalised, rectified hidden array, the variance taken as mean of centred squares. -/
def hiddenR (h : Arr2 100000 128) (gamma beta : Arr1 128) : Arr2 100000 128 :=
  ofFn2 (bnRelu h (mean h) (varCentered h) gamma beta)

/-- The network in the first arrangement. -/
def outK (x : Arr2 100000 128) (W1l W1r : Arr2 128 128) (b1 gamma beta : Arr1 128) (W2l W2r : Arr2 128 40) (b2 : Arr1 40) :
    Arr2 100000 40 :=
  layerK gs den (hiddenK (layerK gs den x W1l W1r b1) gamma beta) W2l W2r b2

/-- The network in the second arrangement. -/
def outR (x : Arr2 100000 128) (W1l W1r : Arr2 128 128) (b1 gamma beta : Arr1 128) (W2l W2r : Arr2 128 40) (b2 : Arr1 40) :
    Arr2 100000 40 :=
  layerR gs den (hiddenR (layerR gs den x W1l W1r b1) gamma beta) W2l W2r b2

end Network

end Cert.Sage

end
-- ==== Proof.SageGraph.lean ====
/-
  The graph part both programs share, as functions of the edge list (a 2 x 1600000 array of node numbers: row 0 the
  source of each edge, row 1 its target).

  `colIdx`: the targets, one start index per edge. `rowIdx`: the sources, a negative number counted from the end
  (100000 added to it), one start index per edge. `gs feat`: the neighbour sum of a feature array, namely the rows of
  `feat` gathered at the sources and added into the zero array at the targets. `den`: the number of edges arriving at
  each node (ones added into the zero vector at the targets), at least one.
-/
import proofs.«149974_j25357486915627_1_alg».proof.KernelIdeal
import proofs.«149974_j25357486915627_1_alg».proof.Proof.SageSpec

noncomputable section

namespace Cert.Sage.Graph

open Idealize.ShloMosaic Cert.KernelIdeal

variable [Cert.KernelIdeal.Facts]
open Cert.KernelIdeal.Facts₀ Cert.KernelIdeal.Facts

/-- The edge targets as a column of start indices. -/
def colIdx (ei : IVec S2x1600000 32) : IVec S1600000x1 32 :=
  broadcastInDim S1600000x1 ![0] bcast_S1600000_S1600000x1_0
    (shapeCast S1600000 (extractStridedSlice S1x1600000 ![1, 0] ei slices_S2x1600000_S1x1600000_1_0) shapeCasts_S1x1600000_S1600000)

/-- The edge sources as given. -/
def rowRaw (ei : IVec S2x1600000 32) : IVec S1600000 32 :=
  shapeCast S1600000 (extractStridedSlice S1x1600000 ![0, 0] ei slices_S2x1600000_S1x1600000_0_0) shapeCasts_S1x1600000_S1600000

/-- The edge sources, a negative one counted from the end, as a column of start indices. -/
def rowIdx (ei : IVec S2x1600000 32) : IVec S1600000x1 32 :=
  broadcastInDim S1600000x1 ![0] bcast_S1600000_S1600000x1_0
    (select (cmpi .slt (rowRaw ei) (broadcastInDim S1600000 ![] bcast_S_S1600000 (constantI S_ 32 0#32)))
      (addi (rowRaw ei) (broadcastInDim S1600000 ![] bcast_S_S1600000 (constantI S_ 32 100000#32)))
      (rowRaw ei))

/-- The neighbour sum of a feature array. -/
def gs (ei : IVec S2x1600000 32) (feat : FVec Ideal S100000x128 .f32) : FVec Ideal S100000x128 .f32 :=
  Host.scatterAdd scatter_S100000x128_S1600000x1_S1600000x128_1_0_0_1
    (broadcastInDim S100000x128 ![] bcast_S_S100000x128 (constant S_ .f32 0x00000000#32))
    (colIdx ei)
    (Host.gather gather_S100000x128_S1600000x1_S1600000x128_1_0_n_n_0_1_1128 feat (rowIdx ei))

/-- The number of edges arriving at each node, at least one. -/
def den (ei : IVec S2x1600000 32) : FVec Ideal S100000 .f32 :=
  maximumf
    (Host.scatterAdd scatter_S100000_S1600000x1_S1600000_n_0_0_1
      (broadcastInDim S100000 ![] bcast_S_S100000 (constant S_ .f32 0x00000000#32))
      (colIdx ei)
      (broadcastInDim S1600000 ![] bcast_S_S1600000 (constant S_ .f32 0x3F800000#32)))
    (broadcastInDim S100000 ![] bcast_S_S100000 (constant S_ .f32 0x3F800000#32))

end Cert.Sage.Graph

end
-- ==== Proof.SageConsts.lean ====
/-
  The float constants the two programs spell, as the extended reals their bit patterns denote: 1.0 is 1, 100000.0 is
  100000 (the number of nodes), and the convert of the integer 0 is 0. One module evaluates them all.
-/
import proofs.«149974_j25357486915627_1_alg».proof.Proof.SageSpec

noncomputable section

namespace Cert.Sage

open Idealize.ShloMosaic

/-- The pattern of 1.0 denotes 1. -/
theorem litOne_eq : litOne = 1 := by
  simp [litOne, Ideal.ofBits, Ideal.ieee, -EReal.coe_mul]; norm_num

/-- The pattern of 100000.0 denotes the real 100000. -/
theorem litN_eq : litN = ((100000 : ℝ) : EReal) := by
  simp [litN, Ideal.ofBits, Ideal.ieee, -EReal.coe_mul]; norm_num

/-- The pattern of +0.0 denotes 0. -/
theorem litZero_eq : Ideal.ofBits .f32 0x00000000#32 = 0 := by
  simp [Ideal.ofBits, Ideal.ieee]

end Cert.Sage

end
-- ==== Proof.SageAlgebra.lean ====
/-
  The two arrangements of the network are one function of the arguments, when the first layer's inputs are real
  numbers. The quotient by a nonzero denominator is the product with the reciprocal; a layer of real arrays is real;
  and for a real hidden array the mean of squares minus the squared mean is the mean of the centred squares, an
  identity of real numbers that holds because the divisor 100000 is the number of summands.
-/
import proofs.«149974_j25357486915627_1_alg».proof.Proof.SageSpec
import proofs.«149974_j25357486915627_1_alg».proof.Proof.SageConsts
import Mathlib.Logic.Equiv.Fin.Basic
import Mathlib.Data.Fintype.BigOperators
import Mathlib.Algebra.BigOperators.Ring.Finset
import Mathlib.Data.EReal.Inv
import Mathlib.Tactic.Ring
import Mathlib.Tactic.NormNum

noncomputable section

namespace Cert.Sage

open Idealize.ShloMosaic Idealize.ShloMosaic.ValueIdx

/-! ### Sums block by block -/

/-- A sum over the 100000 nodes taken block by block: 25 blocks of 4000 consecutive nodes. -/
theorem sum_blocks (f : Fin 100000 → EReal) :
    ∑ t : Fin 25, ∑ r : Fin 4000, f ⟨4000 * t.val + r.val, by have := t.isLt; have := r.isLt; omega⟩ = ∑ i : Fin 100000, f i := by
  -- the pairs (block, offset) are in bijection with the nodes by (t, r) ↦ 4000 t + r
  rw [← Fintype.sum_prod_type' (f := fun (t : Fin 25) (r : Fin 4000) =>
    f ⟨4000 * t.val + r.val, by have := t.isLt; have := r.isLt; omega⟩)]
  refine Fintype.sum_equiv (finProdFinEquiv (m := 25) (n := 4000)) _ _ (fun p => ?_)
  congr 1
  apply Fin.ext
  simp only [finProdFinEquiv_apply_val]
  omega

/-! ### Real entries -/

/-- The coercion of the reals commutes with finite sums. -/
theorem coe_sum {ι : Type} (s : Finset ι) (g : ι → ℝ) :
    ∑ i ∈ s, ((g i : ℝ) : EReal) = ((∑ i ∈ s, g i : ℝ) : EReal) := by
  classical
  induction s using Finset.induction_on with
  | empty => simp
  | insert a s ha ih => rw [Finset.sum_insert ha, Finset.sum_insert ha, ih, EReal.coe_add]

theorem IsReal.add {a b : EReal} (ha : IsReal a) (hb : IsReal b) : IsReal (a + b) := by
  obtain ⟨r, rfl⟩ := ha; obtain ⟨s, rfl⟩ := hb; exact ⟨r + s, (EReal.coe_add r s).symm⟩

theorem IsReal.mul {a b : EReal} (ha : IsReal a) (hb : IsReal b) : IsReal (a * b) := by
  obtain ⟨r, rfl⟩ := ha; obtain ⟨s, rfl⟩ := hb; exact ⟨r * s, (EReal.coe_mul r s).symm⟩

/-- A finite sum of reals is real. -/
theorem IsReal.sum {ι : Type} [Fintype ι] {f : ι → EReal} (h : ∀ i, IsReal (f i)) : IsReal (∑ i, f i) := by
  choose g hg using h
  exact ⟨∑ i, g i, by rw [← coe_sum]; exact Finset.sum_congr rfl (fun i _ => hg i)⟩

/-- The reciprocal of a nonzero extended real is real: the reciprocal of either infinity is 0. -/
theorem isReal_recip {d : EReal} (hd : d ≠ 0) : IsReal (Ideal.div litOne d) := by
  rw [litOne_eq]
  induction d using EReal.rec with
  | bot => exact ⟨0, by simp [Ideal.div]⟩
  | top => exact ⟨0, by simp [Ideal.div]⟩
  | coe r =>
    have hr : r ≠ 0 := fun h => hd (by rw [h]; rfl)
    rw [Ideal.div_coe hr, one_mul]; exact ⟨_, rfl⟩

/-! ### The neighbour mean: quotient and product with the reciprocal -/

/-- Off zero the quotient is the product with the reciprocal. -/
theorem div_eq_mul_recip {d : EReal} (hd : d ≠ 0) (s : EReal) : Ideal.div s d = s * Ideal.div litOne d := by
  simp only [Ideal.div, if_neg hd, litOne_eq, one_mul]

theorem aggDiv_eq_aggMul (S : Arr2 100000 128) (den : Arr1 100000) (hden : ∀ q, den q ≠ 0) :
    aggDiv S den = aggMul S den := by
  funext p
  simp only [aggDiv, aggMul, ofFn2]
  exact div_eq_mul_recip (hden _) _

/-- One layer is the same in both forms, for every feature array. -/
theorem layerR_eq_layerK (gs : Arr2 100000 128 → Arr2 100000 128) (den : Arr1 100000) (hden : ∀ q, den q ≠ 0)
    {D : Nat} (feat : Arr2 100000 128) (Wl Wr : Arr2 128 D) (b : Arr1 D) :
    layerR gs den feat Wl Wr b = layerK gs den feat Wl Wr b := by
  simp only [layerR, layerK, aggDiv_eq_aggMul _ _ hden]

/-- A layer of real arrays is real. -/
theorem layerK_isReal (gs : Arr2 100000 128 → Arr2 100000 128) (den : Arr1 100000)
    (hgs : ∀ feat : Arr2 100000 128, (∀ p, IsReal (feat p)) → ∀ p, IsReal (gs feat p))
    (hden : ∀ q, den q ≠ 0) {D : Nat}
    (feat : Arr2 100000 128) (Wl Wr : Arr2 128 D) (b : Arr1 D)
    (hfeat : ∀ p, IsReal (feat p)) (hWl : ∀ p, IsReal (Wl p)) (hWr : ∀ p, IsReal (Wr p)) (hb : ∀ q, IsReal (b q)) :
    ∀ p, IsReal (layerK gs den feat Wl Wr b p) := by
  intro p
  simp only [layerK, ofFn2, lin, aggMul]
  refine IsReal.add (IsReal.add (IsReal.sum fun k => ?_) (IsReal.sum fun k => ?_)) (hb _)
  · exact IsReal.mul (IsReal.mul (hgs feat hfeat _) (isReal_recip (hden _))) (hWl _)
  · exact IsReal.mul (hfeat _) (hWr _)

/-! ### The variance of a real column -/

/-- For 100000 real numbers with mean μ, the mean of the centred squares is the mean of the squares minus μ². -/
theorem real_variance (a : Fin 100000 → ℝ) (μ : ℝ) (hμ : μ = (∑ i, a i) * (1 / 100000)) :
    (∑ i, (a i - μ) * (a i - μ)) * (1 / 100000) = (∑ i, a i * a i) * (1 / 100000) - μ * μ := by
  have hs : ∑ i, a i = 100000 * μ := by rw [hμ]; ring
  have h1 : ∀ i, (a i - μ) * (a i - μ) = a i * a i - (2 * μ) * a i + μ * μ := fun i => by ring
  simp only [h1]
  rw [Finset.sum_add_distrib, Finset.sum_sub_distrib, ← Finset.mul_sum, Finset.sum_const, Finset.card_univ,
    Fintype.card_fin, nsmul_eq_mul, hs]
  push_cast
  ring

/-- The two forms of the variance agree on a real array. -/
theorem varOfSquares_eq_varCentered (h : Arr2 100000 128) (hh : ∀ p, IsReal (h p)) (j : Fin 128) :
    varOfSquares h j = varCentered h j := by
  choose hr hhr using hh
  have hN : (100000 : ℝ) ≠ 0 := by norm_num
  have hcol : colSum h j = ((∑ i : Fin 100000, hr (ix2 i j) : ℝ) : EReal) := by
    unfold colSum; rw [← coe_sum]; exact Finset.sum_congr rfl (fun i _ => hhr _)
  have hmean : mean h j = (((∑ i : Fin 100000, hr (ix2 i j)) * (1 / 100000) : ℝ) : EReal) := by
    unfold mean; rw [hcol, litN_eq, Ideal.div_coe hN, ← EReal.coe_mul]
  have hsq : colSum (fun p => h p * h p) j = ((∑ i : Fin 100000, hr (ix2 i j) * hr (ix2 i j) : ℝ) : EReal) := by
    unfold colSum; rw [← coe_sum]
    exact Finset.sum_congr rfl (fun i _ => by show h (ix2 i j) * h (ix2 i j) = _; rw [hhr, EReal.coe_mul])
  have hcen : (∑ i : Fin 100000, (h (ix2 i j) - mean h j) * (h (ix2 i j) - mean h j))
      = ((∑ i : Fin 100000, (hr (ix2 i j) - (∑ i : Fin 100000, hr (ix2 i j)) * (1 / 100000))
          * (hr (ix2 i j) - (∑ i : Fin 100000, hr (ix2 i j)) * (1 / 100000)) : ℝ) : EReal) := by
    rw [← coe_sum]
    exact Finset.sum_congr rfl (fun i _ => by rw [hhr, hmean, ← EReal.coe_sub, ← EReal.coe_mul])
  unfold varOfSquares varCentered
  rw [hcen, hsq, hmean, litN_eq, Ideal.div_coe hN, Ideal.div_coe hN, ← EReal.coe_mul, ← EReal.coe_mul,
    ← EReal.coe_mul, ← EReal.coe_sub, EReal.coe_eq_coe_iff]
  exact (real_variance _ _ rfl).symm

/-- The normalised hidden array is the same with either variance, on a real array. -/
theorem hiddenR_eq_hiddenK (h : Arr2 100000 128) (hh : ∀ p, IsReal (h p)) (gamma beta : Arr1 128) :
    hiddenR h gamma beta = hiddenK h gamma beta := by
  have hv : varCentered h = varOfSquares h := funext fun j => (varOfSquares_eq_varCentered h hh j).symm
  simp only [hiddenR, hiddenK, hv]

/-! ### The network -/

/-- The two arrangements agree: the quotient by a nonzero denominator is the product with its reciprocal, and for a
    real hidden array the mean of squares minus the squared mean is the mean of the centred squares. -/
theorem outK_eq_outR (gs : Arr2 100000 128 → Arr2 100000 128) (den : Arr1 100000)
    (hgs : ∀ feat : Arr2 100000 128, (∀ p, IsReal (feat p)) → ∀ p, IsReal (gs feat p))
    (hden : ∀ q, den q ≠ 0)
    (x : Arr2 100000 128) (W1l W1r : Arr2 128 128) (b1 gamma beta : Arr1 128) (W2l W2r : Arr2 128 40) (b2 : Arr1 40)
    (hx : ∀ p, IsReal (x p)) (hW1l : ∀ p, IsReal (W1l p)) (hW1r : ∀ p, IsReal (W1r p)) (hb1 : ∀ q, IsReal (b1 q)) :
    outK gs den x W1l W1r b1 gamma beta W2l W2r b2 = outR gs den x W1l W1r b1 gamma beta W2l W2r b2 := by
  unfold outK outR
  rw [layerR_eq_layerK gs den hden, layerR_eq_layerK gs den hden,
    hiddenR_eq_hiddenK _ (layerK_isReal gs den hgs hden x W1l W1r b1 hx hW1l hW1r hb1)]

end Cert.Sage

end
-- ==== Proof.KReg0.lean ====
/-
  The first call of the network, read as values over the extended reals.

  The call walks the 100000 nodes in 25 blocks of 4000 rows. At block t it forms the block of the hidden array
  h = mean-aggregate · W_l + x · W_r + b (rows 4000 t … 4000 t + 3999) and writes it back, and it adds the block's
  column sums of h and of h · h into two one-row accumulators that are zeroed at the first block and written back
  after the last. So the three result arrays are h itself, the column sums of h over all nodes, and the column sums
  of h · h: a sum over the nodes taken block by block is the sum over the nodes.
-/
import proofs.«149974_j25357486915627_1_alg».proof.Proof.KernelIdealFrame
import proofs.«149974_j25357486915627_1_alg».proof.Proof.SageSpec
import proofs.«149974_j25357486915627_1_alg».proof.Proof.SageAlgebra
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

namespace Cert.KernelIdeal.Reg0

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.GenP Cert.Sage

/-! ## What one grid point leaves in the three staging buffers

At every point the body stores the block of the hidden array into window 5's buffer and adds the block's column sums
(of the entries, and of their squares) into the two one-row buffers of windows 6 and 7; at the first point it stores
the zero row into both before adding. -/

section Pieces
variable {F : FTy → Type} [FloatOps F]

theorem hz : (![0, 0] : Fin 2 → Nat) = fun _ => 0 := funext fun a => by fin_cases a <;> rfl

/-- First point: the hidden block is the linear payload of the five loaded blocks. -/
theorem out5_A (c : Dev nD) (i : grid0.Coords) (a1 : Memref sig .tc .vmem S4000x128 .f32) (h1 : a1.IsWhole) (a2 : Memref sig .tc .vmem S4000x128 .f32) (h2 : a2.IsWhole) (a3 : Memref sig .tc .vmem S128x128 .f32) (h3 : a3.IsWhole) (a4 : Memref sig .tc .vmem S128x128 .f32) (h4 : a4.IsWhole) (a5 : Memref sig .tc .vmem S1x128 .f32) (h5 : a5.IsWhole) (a6 : Memref sig .tc .vmem S4000x128 .f32) (h6 : a6.IsWhole) (a7 : Memref sig .tc .vmem S1x128 .f32) (h7 : a7.IsWhole) (a8 : Memref sig .tc .vmem S1x128 .f32) (h8 : a8.IsWhole) (hc : cond0_0 i) (x0 x1 : Vec F S4000x128 .f32) (x2 x3 : Vec F S128x128 .f32) (x4 : Vec F S1x128 .f32) :
    out0_A_5 c i a1 h1 a2 h2 a3 h3 a4 h4 a5 h5 a6 h6 a7 h7 a8 h8 hc x0 x1 x2 x3 x4 = k0_pay1 x0 x1 x2 x3 x4 := by
  unfold out0_A_5
  rw [View.read_writes_eq_canon _ _ _ (cover0_A_5 c i a1 h1 a2 h2 a3 h3 a4 h4 a5 h5 a6 h6 a7 h7 a8 h8 hc x0 x1 x2 x3 x4)]
  unfold kernelRun0_A
  dsimp only
  sl_unfold_words
  rw [View.canon_unit_zero hz]
  simp only [View.readAt_eq_ld, h1.read_unread, h2.read_unread, h3.read_unread, h4.read_unread, h5.read_unread, View.ld_unit_zero (S := S4000x128) hz, View.ld_unit_zero (S := S128x128) hz, View.ld_unit_zero (S := S1x128) hz]

/-- First point: the row of sums is the zero row plus the block's column sums. -/
theorem out6_A (c : Dev nD) (i : grid0.Coords) (a1 : Memref sig .tc .vmem S4000x128 .f32) (h1 : a1.IsWhole) (a2 : Memref sig .tc .vmem S4000x128 .f32) (h2 : a2.IsWhole) (a3 : Memref sig .tc .vmem S128x128 .f32) (h3 : a3.IsWhole) (a4 : Memref sig .tc .vmem S128x128 .f32) (h4 : a4.IsWhole) (a5 : Memref sig .tc .vmem S1x128 .f32) (h5 : a5.IsWhole) (a6 : Memref sig .tc .vmem S4000x128 .f32) (h6 : a6.IsWhole) (a7 : Memref sig .tc .vmem S1x128 .f32) (h7 : a7.IsWhole) (a8 : Memref sig .tc .vmem S1x128 .f32) (h8 : a8.IsWhole) (hc : cond0_0 i) (x0 x1 : Vec F S4000x128 .f32) (x2 x3 : Vec F S128x128 .f32) (x4 : Vec F S1x128 .f32) :
    out0_A_6 c i a1 h1 a2 h2 a3 h3 a4 h4 a5 h5 a6 h6 a7 h7 a8 h8 hc x0 x1 x2 x3 x4 = k0_pay4 x0 x1 x2 x3 x4 (k0_pay2 (F := F)) := by
  unfold out0_A_6
  rw [View.read_writes_eq_canon _ _ _ (cover0_A_6 c i a1 h1 a2 h2 a3 h3 a4 h4 a5 h5 a6 h6 a7 h7 a8 h8 hc x0 x1 x2 x3 x4)]
  unfold kernelRun0_A
  dsimp only
  sl_unfold_words
  rw [View.canon_cons_unit_zero (S := S1x128) hz]
  simp only [View.readAt_eq_ld, h1.read_unread, h2.read_unread, h3.read_unread, h4.read_unread, h5.read_unread, View.ld_unit_zero (S := S4000x128) hz, View.ld_unit_zero (S := S128x128) hz, View.ld_unit_zero (S := S1x128) hz, View.readCov_unit_zero (S := S1x128) _ hz]

/-- First point: the row of sums of squares is the zero row plus the block's column sums of squares. -/
theorem out7_A (c : Dev nD) (i : grid0.Coords) (a1 : Memref sig .tc .vmem S4000x128 .f32) (h1 : a1.IsWhole) (a2 : Memref sig .tc .vmem S4000x128 .f32) (h2 : a2.IsWhole) (a3 : Memref sig .tc .vmem S128x128 .f32) (h3 : a3.IsWhole) (a4 : Memref sig .tc .vmem S128x128 .f32) (h4 : a4.IsWhole) (a5 : Memref sig .tc .vmem S1x128 .f32) (h5 : a5.IsWhole) (a6 : Memref sig .tc .vmem S4000x128 .f32) (h6 : a6.IsWhole) (a7 : Memref sig .tc .vmem S1x128 .f32) (h7 : a7.IsWhole) (a8 : Memref sig .tc .vmem S1x128 .f32) (h8 : a8.IsWhole) (hc : cond0_0 i) (x0 x1 : Vec F S4000x128 .f32) (x2 x3 : Vec F S128x128 .f32) (x4 : Vec F S1x128 .f32) :
    out0_A_7 c i a1 h1 a2 h2 a3 h3 a4 h4 a5 h5 a6 h6 a7 h7 a8 h8 hc x0 x1 x2 x3 x4 = k0_pay5 x0 x1 x2 x3 x4 (k0_pay3 (F := F)) := by
  unfold out0_A_7
  rw [View.read_writes_eq_canon _ _ _ (cover0_A_7 c i a1 h1 a2 h2 a3 h3 a4 h4 a5 h5 a6 h6 a7 h7 a8 h8 hc x0 x1 x2 x3 x4)]
  unfold kernelRun0_A
  dsimp only
  sl_unfold_words
  rw [View.canon_cons_unit_zero (S := S1x128) hz]
  simp only [View.readAt_eq_ld, h1.read_unread, h2.read_unread, h3.read_unread, h4.read_unread, h5.read_unread, View.ld_unit_zero (S := S4000x128) hz, View.ld_unit_zero (S := S128x128) hz, View.ld_unit_zero (S := S1x128) hz, View.readCov_unit_zero (S := S1x128) _ hz]

/-- A later point: the hidden block is the same payload of that point's blocks. -/
theorem out5_B (c : Dev nD) (i : grid0.Coords) (a1 : Memref sig .tc .vmem S4000x128 .f32) (h1 : a1.IsWhole) (a2 : Memref sig .tc .vmem S4000x128 .f32) (h2 : a2.IsWhole) (a3 : Memref sig .tc .vmem S128x128 .f32) (h3 : a3.IsWhole) (a4 : Memref sig .tc .vmem S128x128 .f32) (h4 : a4.IsWhole) (a5 : Memref sig .tc .vmem S1x128 .f32) (h5 : a5.IsWhole) (a6 : Memref sig .tc .vmem S4000x128 .f32) (h6 : a6.IsWhole) (a7 : Memref sig .tc .vmem S1x128 .f32) (h7 : a7.IsWhole) (a8 : Memref sig .tc .vmem S1x128 .f32) (h8 : a8.IsWhole) (hc : ¬cond0_0 i) (x0 x1 : Vec F S4000x128 .f32) (x2 x3 : Vec F S128x128 .f32) (x4 : Vec F S1x128 .f32) (xo6 xo7 : Vec F S1x128 .f32) :
    out0_B_5 c i a1 h1 a2 h2 a3 h3 a4 h4 a5 h5 a6 h6 a7 h7 a8 h8 hc x0 x1 x2 x3 x4 xo6 xo7 = k0_pay1 x0 x1 x2 x3 x4 := by
  unfold out0_B_5
  rw [View.read_writes_eq_canon _ _ _ (cover0_B_5 c i a1 h1 a2 h2 a3 h3 a4 h4 a5 h5 a6 h6 a7 h7 a8 h8 hc x0 x1 x2 x3 x4 xo6 xo7)]
  unfold kernelRun0_B
  dsimp only
  sl_unfold_words
  rw [View.canon_unit_zero hz]
  simp only [View.readAt_eq_ld, h1.read_unread, h2.read_unread, h3.read_unread, h4.read_unread, h5.read_unread, View.ld_unit_zero (S := S4000x128) hz, View.ld_unit_zero (S := S128x128) hz, View.ld_unit_zero (S := S1x128) hz]

/-- A later point: the row of sums is what the point before left plus the block's column sums. -/
theorem out6_B (c : Dev nD) (i : grid0.Coords) (a1 : Memref sig .tc .vmem S4000x128 .f32) (h1 : a1.IsWhole) (a2 : Memref sig .tc .vmem S4000x128 .f32) (h2 : a2.IsWhole) (a3 : Memref sig .tc .vmem S128x128 .f32) (h3 : a3.IsWhole) (a4 : Memref sig .tc .vmem S128x128 .f32) (h4 : a4.IsWhole) (a5 : Memref sig .tc .vmem S1x128 .f32) (h5 : a5.IsWhole) (a6 : Memref sig .tc .vmem S4000x128 .f32) (h6 : a6.IsWhole) (a7 : Memref sig .tc .vmem S1x128 .f32) (h7 : a7.IsWhole) (a8 : Memref sig .tc .vmem S1x128 .f32) (h8 : a8.IsWhole) (hc : ¬cond0_0 i) (x0 x1 : Vec F S4000x128 .f32) (x2 x3 : Vec F S128x128 .f32) (x4 : Vec F S1x128 .f32) (xo6 xo7 : Vec F S1x128 .f32) :
    out0_B_6 c i a1 h1 a2 h2 a3 h3 a4 h4 a5 h5 a6 h6 a7 h7 a8 h8 hc x0 x1 x2 x3 x4 xo6 xo7 = k0_pay4 x0 x1 x2 x3 x4 xo6 := by
  unfold out0_B_6
  rw [View.read_writes_eq_canon _ _ _ (cover0_B_6 c i a1 h1 a2 h2 a3 h3 a4 h4 a5 h5 a6 h6 a7 h7 a8 h8 hc x0 x1 x2 x3 x4 xo6 xo7)]
  unfold kernelRun0_B
  dsimp only
  sl_unfold_words
  rw [View.canon_unit_zero hz]
  simp only [View.readAt_eq_ld, h1.read_unread, h2.read_unread, h3.read_unread, h4.read_unread, h5.read_unread, View.ld_unit_zero (S := S4000x128) hz, View.ld_unit_zero (S := S128x128) hz, View.ld_unit_zero (S := S1x128) hz, h7.read_unread, h8.read_unread]

/-- A later point: the row of sums of squares is what the point before left plus the block's column sums of squares. -/
theorem out7_B (c : Dev nD) (i : grid0.Coords) (a1 : Memref sig .tc .vmem S4000x128 .f32) (h1 : a1.IsWhole) (a2 : Memref sig .tc .vmem S4000x128 .f32) (h2 : a2.IsWhole) (a3 : Memref sig .tc .vmem S128x128 .f32) (h3 : a3.IsWhole) (a4 : Memref sig .tc .vmem S128x128 .f32) (h4 : a4.IsWhole) (a5 : Memref sig .tc .vmem S1x128 .f32) (h5 : a5.IsWhole) (a6 : Memref sig .tc .vmem S4000x128 .f32) (h6 : a6.IsWhole) (a7 : Memref sig .tc .vmem S1x128 .f32) (h7 : a7.IsWhole) (a8 : Memref sig .tc .vmem S1x128 .f32) (h8 : a8.IsWhole) (hc : ¬cond0_0 i) (x0 x1 : Vec F S4000x128 .f32) (x2 x3 : Vec F S128x128 .f32) (x4 : Vec F S1x128 .f32) (xo6 xo7 : Vec F S1x128 .f32) :
    out0_B_7 c i a1 h1 a2 h2 a3 h3 a4 h4 a5 h5 a6 h6 a7 h7 a8 h8 hc x0 x1 x2 x3 x4 xo6 xo7 = k0_pay5 x0 x1 x2 x3 x4 xo7 := by
  unfold out0_B_7
  rw [View.read_writes_eq_canon _ _ _ (cover0_B_7 c i a1 h1 a2 h2 a3 h3 a4 h4 a5 h5 a6 h6 a7 h7 a8 h8 hc x0 x1 x2 x3 x4 xo6 xo7)]
  unfold kernelRun0_B
  dsimp only
  sl_unfold_words
  rw [View.canon_unit_zero hz]
  simp only [View.readAt_eq_ld, h1.read_unread, h2.read_unread, h3.read_unread, h4.read_unread, h5.read_unread, View.ld_unit_zero (S := S4000x128) hz, View.ld_unit_zero (S := S128x128) hz, View.ld_unit_zero (S := S1x128) hz, h7.read_unread, h8.read_unread]

end Pieces

/-! ## The three payloads at an entry, over the extended reals

There every format change is the identity, a product onto the zero accumulator is the plain sum over the contracted
axis, and a reduction along the rows is the sum over the block's 4000 rows. -/

section AtIdeal

/-- The left factor of the product at (r, j), contraction position k, is entry (r, k): row coordinate … -/
theorem lhs_row (j : S4000x128.Idx) (k : dot_S4000x128_S128x128_S4000x128_1_0_0_1_n_n.contr.Idx) :
    (dot_S4000x128_S128x128_S4000x128_1_0_0_1_n_n.lhsIdx j k 0 : ℕ) = j 0 := by
  simp [DotDims.lhsIdx, dot_S4000x128_S128x128_S4000x128_1_0_0_1_n_n]; rfl
/-- … and column coordinate. -/
theorem lhs_col (j : S4000x128.Idx) (k : dot_S4000x128_S128x128_S4000x128_1_0_0_1_n_n.contr.Idx) :
    (dot_S4000x128_S128x128_S4000x128_1_0_0_1_n_n.lhsIdx j k 1 : ℕ) = k ⟨0, by decide⟩ :=
  dot_S4000x128_S128x128_S4000x128_1_0_0_1_n_n.lhsIdx_val_of_single rfl j k
/-- The right factor is entry (k, j): row coordinate … -/
theorem rhs_row (j : S4000x128.Idx) (k : dot_S4000x128_S128x128_S4000x128_1_0_0_1_n_n.contr.Idx) :
    (dot_S4000x128_S128x128_S4000x128_1_0_0_1_n_n.rhsIdx j k 0 : ℕ) = k ⟨0, by decide⟩ :=
  dot_S4000x128_S128x128_S4000x128_1_0_0_1_n_n.rhsIdx_val_of_single rfl j k
/-- … and column coordinate. -/
theorem rhs_col (j : S4000x128.Idx) (k : dot_S4000x128_S128x128_S4000x128_1_0_0_1_n_n.contr.Idx) :
    (dot_S4000x128_S128x128_S4000x128_1_0_0_1_n_n.rhsIdx j k 1 : ℕ) = j 1 := by
  simp [DotDims.rhsIdx, dot_S4000x128_S128x128_S4000x128_1_0_0_1_n_n]; rfl

/-- A 4000x128 by 128x128 product onto the zero accumulator, at (r, j): the sum over k of a(r, k) w(k, j). -/
theorem matmul_at (a : FVec Ideal S4000x128 .bf16) (w : FVec Ideal S128x128 .bf16) (r : Fin 4000) (j : Fin 128) :
    matmul dot_S4000x128_S128x128_S4000x128_1_0_0_1_n_n none a w (constant (F := Ideal) S4000x128 .f32 0x00000000#32) (ix2 r j)
      = ∑ k : Fin 128, a (ix2 r k) * w (ix2 k j) := by
  refine (Ideal.matmul_constant_zero_apply dot_S4000x128_S128x128_S4000x128_1_0_0_1_n_n none a w (ix2 r j)).trans ?_
  rw [← Equiv.sum_comp (contrEquiv1 dot_S4000x128_S128x128_S4000x128_1_0_0_1_n_n 128 rfl rfl).symm]
  refine Finset.sum_congr rfl fun k _ => ?_
  have hl : dot_S4000x128_S128x128_S4000x128_1_0_0_1_n_n.lhsIdx (ix2 r j) ((contrEquiv1 dot_S4000x128_S128x128_S4000x128_1_0_0_1_n_n 128 rfl rfl).symm k) = ix2 r k := by
    funext ax; apply Fin.ext
    match ax with
    | ⟨0, _⟩ => exact lhs_row _ _
    | ⟨1, _⟩ => exact (lhs_col _ _).trans (contrEquiv1_symm_val dot_S4000x128_S128x128_S4000x128_1_0_0_1_n_n 128 rfl rfl k)
  have hr : dot_S4000x128_S128x128_S4000x128_1_0_0_1_n_n.rhsIdx (ix2 r j) ((contrEquiv1 dot_S4000x128_S128x128_S4000x128_1_0_0_1_n_n 128 rfl rfl).symm k) = ix2 k j := by
    funext ax; apply Fin.ext
    match ax with
    | ⟨0, _⟩ => exact (rhs_row _ _).trans (contrEquiv1_symm_val dot_S4000x128_S128x128_S4000x128_1_0_0_1_n_n 128 rfl rfl k)
    | ⟨1, _⟩ => exact rhs_col _ _
  rw [hl, hr]

/-- The hidden block at (r, j): the neighbour-mean row times the first weight matrix, plus the feature row times the
    second, plus the bias. -/
theorem pay1_at (v0 v3 : FVec Ideal S4000x128 .f32) (v5 v7 : FVec Ideal S128x128 .f32) (v12 : FVec Ideal S1x128 .f32)
    (r : Fin 4000) (j : Fin 128) :
    k0_pay1 (F := Ideal) v0 v3 v5 v7 v12 (ix2 r j)
      = (∑ k : Fin 128, v0 (ix2 r k) * v5 (ix2 k j)) + (∑ k : Fin 128, v3 (ix2 r k) * v7 (ix2 k j))
        + v12 (ix2 (0 : Fin 1) j) := by
  unfold k0_pay1
  have e1 : shapeCast S4000x128 v0 shapeCasts_S4000x128_S4000x128 = v0 := shapeCast_self _ _
  have e2 : shapeCast S1x128 v12 shapeCasts_S1x128_S1x128 = v12 := shapeCast_self _ _
  refine congrArg₂ (· + ·) (congrArg₂ (· + ·) ?_ ?_) ?_
  · refine (matmul_at _ _ r j).trans ?_
    exact Finset.sum_congr rfl fun k _ => congrArg (· * v5 (ix2 k j)) (congrFun e1 (ix2 r k))
  · exact matmul_at _ _ r j
  · exact (broadcastTo_1b_ab_apply _ _ r j).trans (congrFun e2 _)

/-- A reduction of a 4000x128 block along its rows, at lane j: the sum over the rows. -/
theorem colsum_at (src : FVec Ideal S4000x128 .f32) (hφ : FKind.Formats .f32)
    (hacc : (0x00000000#32 : BitVec 32) = 0x00000000#32) (j : Fin 128) :
    multiReduction (F := Ideal) .add [0] S128 src 0x00000000#32 reduces_S4000x128_S128 hφ hacc (ix1 j)
      = ∑ r : Fin 4000, src (ix2 r j) := by
  refine (Ideal.multiReduction_add_single src 0x00000000#32 reduces_S4000x128_S128 hφ hacc (ix1 j)).trans ?_
  refine Finset.sum_congr rfl fun r _ => congrArg src ?_
  funext ax; apply Fin.ext
  match ax with
  | ⟨0, _⟩ => rfl
  | ⟨1, _⟩ => rfl

/-- The row of sums after a point, at lane j: what it held plus the block's column sum. -/
theorem pay4_at (v0 v3 : FVec Ideal S4000x128 .f32) (v5 v7 : FVec Ideal S128x128 .f32) (v12 v20 : FVec Ideal S1x128 .f32)
    (z : Fin 1) (j : Fin 128) :
    k0_pay4 (F := Ideal) v0 v3 v5 v7 v12 v20 (ix2 z j)
      = v20 (ix2 (0 : Fin 1) j) + ∑ r : Fin 4000, k0_pay1 (F := Ideal) v0 v3 v5 v7 v12 (ix2 r j) := by
  unfold k0_pay4
  obtain rfl : z = 0 := Subsingleton.elim _ _
  have e2 : shapeCast S1x128 v20 shapeCasts_S1x128_S1x128 = v20 := shapeCast_self _ _
  refine congrArg₂ (· + ·) (congrFun e2 _) ?_
  refine (shapeCast_a_1a_apply _ _ 0 j).trans ?_
  exact colsum_at _ _ _ j

/-- The row of sums of squares after a point, at lane j: what it held plus the block's column sum of squares. -/
theorem pay5_at (v0 v3 : FVec Ideal S4000x128 .f32) (v5 v7 : FVec Ideal S128x128 .f32) (v12 v26 : FVec Ideal S1x128 .f32)
    (z : Fin 1) (j : Fin 128) :
    k0_pay5 (F := Ideal) v0 v3 v5 v7 v12 v26 (ix2 z j)
      = v26 (ix2 (0 : Fin 1) j)
        + ∑ r : Fin 4000, k0_pay1 (F := Ideal) v0 v3 v5 v7 v12 (ix2 r j) * k0_pay1 (F := Ideal) v0 v3 v5 v7 v12 (ix2 r j) := by
  unfold k0_pay5
  obtain rfl : z = 0 := Subsingleton.elim _ _
  have e2 : shapeCast S1x128 v26 shapeCasts_S1x128_S1x128 = v26 := shapeCast_self _ _
  refine congrArg₂ (· + ·) (congrFun e2 _) ?_
  refine (shapeCast_a_1a_apply _ _ 0 j).trans ?_
  exact colsum_at _ _ _ j

/-- The zero row the first point stores, at any lane. -/
theorem pay2_at (p : S1x128.Idx) : k0_pay2 (F := Ideal) p = 0 := Ideal.ofBits_zero_f32
theorem pay3_at (p : S1x128.Idx) : k0_pay3 (F := Ideal) p = 0 := Ideal.ofBits_zero_f32

end AtIdeal

/-! ## The blocks a point reads, and the hidden array on a block -/

variable (V : (c : Dev nD) → (b : Ref sig .tc) → Buf (Elt Ideal) ((c : Thread nD τ).loc b))

/-- The hidden array the first call computes from the arrays it is entered with. -/
def hid (c : Dev nD) : Arr2 100000 128 :=
  ofFn2 (lin (V c main_v24) (V c main_arg0) (V c main_arg2) (V c main_arg3) (rowOf (V c main_v25)))

theorem lt25 {n : ℕ} (h : n < cfg0.N) : n < 25 := lt_of_lt_of_eq h N_0

/-- The printed index maps over the grid: the three row-blocked windows sit at block row t, the whole-array windows at
    block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0 :=
  (by decide +kernel : ∀ t : Fin grid0.N, _)

/-- The neighbour-mean block of point t at (r, k) is the array's entry at row 4000 t + r. -/
theorem aBlk_at (c : Dev nD) (t : Fin cfg0.N) (r : Fin 4000) (k : Fin 128) (h : 4000 * t.val + r.val < 100000) :
    (iblk0 V c 0 t : Vec Ideal S4000x128 .f32) (ix2 r k)
      = (V c main_v24 : Vec Ideal S100000x128 .f32) (ix2 ⟨4000 * t.val + r.val, h⟩ k) := by
  obtain ⟨e0, e1, -⟩ := idx_facts t
  show V c main_v24 (((cfg0.win 0).blk t).view.emb (ix2 r k)) = _
  refine congrArg (V c main_v24) ?_
  funext a; apply Fin.ext
  match a with
  | ⟨0, _⟩ => show win0_0.index t (0 : Fin 2) * 4000 + 1 * r.val = 4000 * t.val + r.val; rw [e0]; omega
  | ⟨1, _⟩ => show win0_0.index t (1 : Fin 2) * 128 + 1 * k.val = k.val; rw [e1]; omega

/-- The feature block of point t at (r, k) is the array's entry at row 4000 t + r. -/
theorem xBlk_at (c : Dev nD) (t : Fin cfg0.N) (r : Fin 4000) (k : Fin 128) (h : 4000 * t.val + r.val < 100000) :
    (iblk0 V c 1 t : Vec Ideal S4000x128 .f32) (ix2 r k)
      = (V c main_arg0 : Vec Ideal S100000x128 .f32) (ix2 ⟨4000 * t.val + r.val, h⟩ k) := by
  obtain ⟨-, -, e0, e1, -⟩ := idx_facts t
  show V c main_arg0 (((cfg0.win 1).blk t).view.emb (ix2 r k)) = _
  refine congrArg (V c main_arg0) ?_
  funext a; apply Fin.ext
  match a with
  | ⟨0, _⟩ => show win0_1.index t (0 : Fin 2) * 4000 + 1 * r.val = 4000 * t.val + r.val; rw [e0]; omega
  | ⟨1, _⟩ => show win0_1.index t (1 : Fin 2) * 128 + 1 * k.val = k.val; rw [e1]; omega

/-- The two weight windows and the bias window are their whole arrays at every point. -/
theorem wlBlk_at (c : Dev nD) (t : Fin cfg0.N) (k j : Fin 128) :
    (iblk0 V c 2 t : Vec Ideal S128x128 .f32) (ix2 k j) = (V c main_arg2 : Vec Ideal S128x128 .f32) (ix2 k j) := by
  obtain ⟨-, -, -, -, e0, e1, -⟩ := idx_facts t
  show V c main_arg2 (((cfg0.win 2).blk t).view.emb (ix2 k j)) = _
  refine congrArg (V c main_arg2) ?_
  funext a; apply Fin.ext
  match a with
  | ⟨0, _⟩ => show win0_2.index t (0 : Fin 2) * 128 + 1 * k.val = k.val; rw [e0]; omega
  | ⟨1, _⟩ => show win0_2.index t (1 : Fin 2) * 128 + 1 * j.val = j.val; rw [e1]; omega

theorem wrBlk_at (c : Dev nD) (t : Fin cfg0.N) (k j : Fin 128) :
    (iblk0 V c 3 t : Vec Ideal S128x128 .f32) (ix2 k j) = (V c main_arg3 : Vec Ideal S128x128 .f32) (ix2 k j) := by
  obtain ⟨-, -, -, -, -, -, e0, e1, -⟩ := idx_facts t
  show V c main_arg3 (((cfg0.win 3).blk t).view.emb (ix2 k j)) = _
  refine congrArg (V c main_arg3) ?_
  funext a; apply Fin.ext
  match a with
  | ⟨0, _⟩ => show win0_3.index t (0 : Fin 2) * 128 + 1 * k.val = k.val; rw [e0]; omega
  | ⟨1, _⟩ => show win0_3.index t (1 : Fin 2) * 128 + 1 * j.val = j.val; rw [e1]; omega

theorem bBlk_at (c : Dev nD) (t : Fin cfg0.N) (j : Fin 128) :
    (iblk0 V c 4 t : Vec Ideal S1x128 .f32) (ix2 (0 : Fin 1) j) = (V c main_v25 : Vec Ideal S1x128 .f32) (ix2 (0 : Fin 1) j) := by
  obtain ⟨-, -, -, -, -, -, -, -, e0, e1, -⟩ := idx_facts t
  show V c main_v25 (((cfg0.win 4).blk t).view.emb (ix2 (0 : Fin 1) j)) = _
  refine congrArg (V c main_v25) ?_
  funext a; apply Fin.ext
  match a with
  | ⟨0, _⟩ => show win0_4.index t (0 : Fin 2) * 1 + 1 * 0 = 0; rw [e0]
  | ⟨1, _⟩ => show win0_4.index t (1 : Fin 2) * 128 + 1 * j.val = j.val; rw [e1]; omega

/-- The linear payload of point t's blocks at (r, j) is the hidden array at row 4000 t + r. -/
theorem hblock_at (c : Dev nD) (t : Fin cfg0.N) (r : Fin 4000) (j : Fin 128) (h : 4000 * t.val + r.val < 100000) :
    k0_pay1 (F := Ideal) (iblk0 V c 0 t) (iblk0 V c 1 t) (iblk0 V c 2 t) (iblk0 V c 3 t) (iblk0 V c 4 t) (ix2 r j) = hid V c (ix2 ⟨4000 * t.val + r.val, h⟩ j) := by
  refine (pay1_at _ _ _ _ _ r j).trans ?_
  show _ = lin (V c main_v24) (V c main_arg0) (V c main_arg2) (V c main_arg3) (rowOf (V c main_v25)) ⟨4000 * t.val + r.val, h⟩ j
  unfold lin
  refine congrArg₂ (· + ·) (congrArg₂ (· + ·) (Finset.sum_congr rfl fun k _ => ?_) (Finset.sum_congr rfl fun k _ => ?_)) ?_
  · rw [aBlk_at V c t r k h, wlBlk_at V c t k j]
  · rw [xBlk_at V c t r k h, wrBlk_at V c t k j]
  · exact bBlk_at V c t j

/-! ## Window 5: every point writes its block of the hidden array back -/

/-- Whatever the case, the block a point leaves in window 5's buffer is the linear payload of its blocks. -/
theorem outs5_eq (c : Dev nD) (t : Fin cfg0.N) :
    (outsAt0 V c t.val t.isLt).1 = k0_pay1 (F := Ideal) (iblk0 V c 0 t) (iblk0 V c 1 t) (iblk0 V c 2 t) (iblk0 V c 3 t) (iblk0 V c 4 t) := by
  by_cases h0 : t.val % 25 = 0
  · rw [outsAt0_A V c t h0]; dsimp only
    exact out5_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) ((hcond0_0 t).mpr h0) (iblk0 V c 0 t) (iblk0 V c 1 t) (iblk0 V c 2 t) (iblk0 V c 3 t) (iblk0 V c 4 t)
  · rw [outsAt0_B V c t h0]; dsimp only
    exact out5_B (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (fun h => h0 ((hcond0_0 t).mp h)) (iblk0 V c 0 t) (iblk0 V c 1 t) (iblk0 V c 2 t) (iblk0 V c 3 t) (iblk0 V c 4 t) (outsAt0 V c (t.val - 1) (Nat.lt_of_le_of_lt (Nat.sub_le _ _) t.isLt)).2.1 (outsAt0 V c (t.val - 1) (Nat.lt_of_le_of_lt (Nat.sub_le _ _) t.isLt)).2.2

/-- What point t writes back is block t of the hidden array. -/
theorem flushed5_eq (c : Dev nD) (t : Fin cfg0.N) (hf : (cfg0.win 5).flush t = true) :
    (dat0 V c).flushed 5 t = ((cfg0.win 5).blk t).view.read (Elt Ideal) (hid V c) := by
  obtain ⟨-, -, -, -, -, -, -, -, -, -, e0, e1, -⟩ := idx_facts t
  have ht := lt25 t.isLt
  show (cfg0.win 5).cut (grid0.coords t) ((dat0 V c).after 5 t) = _
  rw [after0_5, outs5_eq]
  funext y
  obtain ⟨r, j, rfl⟩ : ∃ (r : Fin 4000) (j : Fin 128), y = ix2 r j := ⟨y 0, y 1, eq_ix2 y⟩
  have hr := r.isLt
  show k0_pay1 (F := Ideal) (iblk0 V c 0 t) (iblk0 V c 1 t) (iblk0 V c 2 t) (iblk0 V c 3 t) (iblk0 V c 4 t) (ix2 r j) = hid V c (((cfg0.win 5).blk t).view.emb (ix2 r j))
  refine (hblock_at V c t r j (by omega)).trans (congrArg (hid V c) ?_)
  funext a; apply Fin.ext
  match a with
  | ⟨0, _⟩ => show 4000 * t.val + r.val = win0_5.index t (0 : Fin 2) * 4000 + 1 * r.val; rw [e0]; omega
  | ⟨1, _⟩ => show j.val = win0_5.index t (1 : Fin 2) * 128 + 1 * j.val; rw [e1]; omega

/-- An entry of the hidden array is in point t's block iff each coordinate is in the block's range. -/
theorem mem_blk5 (t : Fin cfg0.N) (i : S100000x128.Idx) :
    i ∈ ((cfg0.win 5).blk t).view.set ↔ ∀ a : Fin 2, win0_5.index t a * S4000x128.size a ≤ (i a).val ∧ (i a).val < win0_5.index t a * S4000x128.size a + S4000x128.size a := by
  show i ∈ ((View.whole main_v26_0).slice (win0_5.rect t)).set ↔ _
  rw [View.set_slice_whole, Rect.mem_set_unit]
  exact Iff.rfl

theorem final_h (c : Dev nD) : (dat0 (F := Ideal) V c).arrAt 5 cfg0.N = hid V c :=
  (dat0 V c).arrAt_eq_of_cover 5 (hid V c) (flushed5_eq V c) fun i => by
    have hi0 : (i 0).val < 100000 := (i 0).isLt
    have hi1 : (i 1).val < 128 := (i 1).isLt
    have hN : cfg0.N = 25 := N_0
    refine ⟨⟨(i 0).val / 4000, by rw [hN]; omega⟩, flush0_5 _, ?_⟩
    obtain ⟨-, -, -, -, -, -, -, -, -, -, e0, e1, -⟩ := idx_facts ⟨(i 0).val / 4000, by rw [hN]; omega⟩
    rw [mem_blk5]
    intro a
    match a with
    | ⟨0, _⟩ =>
      show win0_5.index _ (0 : Fin 2) * 4000 ≤ (i 0).val ∧ (i 0).val < win0_5.index _ (0 : Fin 2) * 4000 + 4000
      rw [e0]; dsimp only; omega
    | ⟨1, _⟩ =>
      show win0_5.index _ (1 : Fin 2) * 128 ≤ (i 1).val ∧ (i 1).val < win0_5.index _ (1 : Fin 2) * 128 + 128
      rw [e1]; omega

/-! ## Windows 6 and 7: the column sums carried from point to point

After point n the row of sums holds, at lane j, the sum over the blocks 0 … n of the block's column sum of the hidden
array (the first point adds to the zero row); the row of sums of squares likewise. Both are written back once, after
the last point, when the blocks are all 25 and the sum is over every node. -/

/-- The sum of column j of g over the 4000 rows of block t. -/
def blockSum (g : Arr2 100000 128) (t : ℕ) (ht : t < 25) (j : Fin 128) : EReal :=
  ∑ r : Fin 4000, g (ix2 ⟨4000 * t + r.val, by have := r.isLt; omega⟩ j)

/-- The sum of column j of g over the blocks 0 … n. -/
def partSum (g : Arr2 100000 128) (n : ℕ) (hn : n < 25) (j : Fin 128) : EReal :=
  ∑ t : Fin (n + 1), blockSum g t.val (by have := t.isLt; omega) j

theorem partSum_zero (g : Arr2 100000 128) (h : 0 < 25) (j : Fin 128) : partSum g 0 h j = blockSum g 0 h j := by
  unfold partSum
  rw [Fin.sum_univ_one]
  rfl

theorem partSum_succ (g : Arr2 100000 128) (n : ℕ) (h : n + 1 < 25) (j : Fin 128) :
    partSum g (n + 1) h j = partSum g n (Nat.lt_of_succ_lt h) j + blockSum g (n + 1) h j := by
  unfold partSum
  rw [Fin.sum_univ_castSucc]
  rfl

/-- Over all 25 blocks it is the column's sum over the 100000 nodes. -/
theorem partSum_last (g : Arr2 100000 128) (h : 24 < 25) (j : Fin 128) : partSum g 24 h j = colSum g j :=
  sum_blocks fun i => g (ix2 i j)

/-- The column sum of point t's block of the hidden array. -/
theorem blockSum_hid (c : Dev nD) (t : Fin cfg0.N) (j : Fin 128) :
    ∑ r : Fin 4000, k0_pay1 (F := Ideal) (iblk0 V c 0 t) (iblk0 V c 1 t) (iblk0 V c 2 t) (iblk0 V c 3 t) (iblk0 V c 4 t) (ix2 r j) = blockSum (hid V c) t.val (lt25 t.isLt) j := by
  have ht := lt25 t.isLt
  exact Finset.sum_congr rfl fun r _ => hblock_at V c t r j (by have := r.isLt; omega)

/-- The column sum of squares of point t's block. -/
theorem blockSum_hidsq (c : Dev nD) (t : Fin cfg0.N) (j : Fin 128) :
    ∑ r : Fin 4000, k0_pay1 (F := Ideal) (iblk0 V c 0 t) (iblk0 V c 1 t) (iblk0 V c 2 t) (iblk0 V c 3 t) (iblk0 V c 4 t) (ix2 r j) * k0_pay1 (F := Ideal) (iblk0 V c 0 t) (iblk0 V c 1 t) (iblk0 V c 2 t) (iblk0 V c 3 t) (iblk0 V c 4 t) (ix2 r j)
      = blockSum (fun p => hid V c p * hid V c p) t.val (lt25 t.isLt) j := by
  have ht := lt25 t.isLt
  refine Finset.sum_congr rfl fun r _ => ?_
  rw [hblock_at V c t r j (by have := r.isLt; omega)]

/-- The first point leaves block 0's column sum in the row of sums. -/
theorem sum6_first (c : Dev nD) (t : Fin cfg0.N) (h0 : t.val % 25 = 0) (j : Fin 128) :
    ((outsAt0 V c t.val t.isLt).2.1 : Vec Ideal S1x128 .f32) (ix2 (0 : Fin 1) j) = blockSum (hid V c) t.val (lt25 t.isLt) j := by
  rw [outsAt0_A V c t h0]; dsimp only
  refine (congrFun (out6_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) ((hcond0_0 t).mpr h0) (iblk0 V c 0 t) (iblk0 V c 1 t) (iblk0 V c 2 t) (iblk0 V c 3 t) (iblk0 V c 4 t)) (ix2 (0 : Fin 1) j)).trans ?_
  refine (pay4_at _ _ _ _ _ _ 0 j).trans ?_
  rw [pay2_at, zero_add]
  exact blockSum_hid V c t j

/-- A later point adds its block's column sum to what the point before left. -/
theorem sum6_step (c : Dev nD) (t : Fin cfg0.N) (h0 : ¬t.val % 25 = 0) (j : Fin 128) :
    ((outsAt0 V c t.val t.isLt).2.1 : Vec Ideal S1x128 .f32) (ix2 (0 : Fin 1) j)
      = ((outsAt0 V c (t.val - 1) (Nat.lt_of_le_of_lt (Nat.sub_le _ _) t.isLt)).2.1 : Vec Ideal S1x128 .f32) (ix2 (0 : Fin 1) j) + blockSum (hid V c) t.val (lt25 t.isLt) j := by
  rw [outsAt0_B V c t h0]; dsimp only
  refine (congrFun (out6_B (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (fun h => h0 ((hcond0_0 t).mp h)) (iblk0 V c 0 t) (iblk0 V c 1 t) (iblk0 V c 2 t) (iblk0 V c 3 t) (iblk0 V c 4 t) (outsAt0 V c (t.val - 1) (Nat.lt_of_le_of_lt (Nat.sub_le _ _) t.isLt)).2.1 (outsAt0 V c (t.val - 1) (Nat.lt_of_le_of_lt (Nat.sub_le _ _) t.isLt)).2.2) (ix2 (0 : Fin 1) j)).trans ?_
  refine (pay4_at _ _ _ _ _ _ 0 j).trans ?_
  exact congrArg (_ + ·) (blockSum_hid V c t j)

/-- So after point n the row of sums holds the column sums over the blocks 0 … n. -/
theorem sum6_eq (c : Dev nD) : ∀ (n : ℕ) (h : n < cfg0.N) (j : Fin 128),
    ((outsAt0 V c n h).2.1 : Vec Ideal S1x128 .f32) (ix2 (0 : Fin 1) j) = partSum (hid V c) n (lt25 h) j
  | 0, h, j => (sum6_first V c ⟨0, h⟩ rfl j).trans (partSum_zero _ _ j).symm
  | n + 1, h, j => by
    have hn := lt25 h
    have hB : ¬(⟨n + 1, h⟩ : Fin cfg0.N).val % 25 = 0 := by dsimp only; omega
    refine (sum6_step V c ⟨n + 1, h⟩ hB j).trans ?_
    rw [partSum_succ]
    exact congrArg (· + _) (sum6_eq c n (Nat.lt_of_succ_lt h) j)

/-- The same three steps for the row of sums of squares. -/
theorem sum7_first (c : Dev nD) (t : Fin cfg0.N) (h0 : t.val % 25 = 0) (j : Fin 128) :
    ((outsAt0 V c t.val t.isLt).2.2 : Vec Ideal S1x128 .f32) (ix2 (0 : Fin 1) j)
      = blockSum (fun p => hid V c p * hid V c p) t.val (lt25 t.isLt) j := by
  rw [outsAt0_A V c t h0]; dsimp only
  refine (congrFun (out7_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) ((hcond0_0 t).mpr h0) (iblk0 V c 0 t) (iblk0 V c 1 t) (iblk0 V c 2 t) (iblk0 V c 3 t) (iblk0 V c 4 t)) (ix2 (0 : Fin 1) j)).trans ?_
  refine (pay5_at _ _ _ _ _ _ 0 j).trans ?_
  rw [pay3_at, zero_add]
  exact blockSum_hidsq V c t j

theorem sum7_step (c : Dev nD) (t : Fin cfg0.N) (h0 : ¬t.val % 25 = 0) (j : Fin 128) :
    ((outsAt0 V c t.val t.isLt).2.2 : Vec Ideal S1x128 .f32) (ix2 (0 : Fin 1) j)
      = ((outsAt0 V c (t.val - 1) (Nat.lt_of_le_of_lt (Nat.sub_le _ _) t.isLt)).2.2 : Vec Ideal S1x128 .f32) (ix2 (0 : Fin 1) j)
        + blockSum (fun p => hid V c p * hid V c p) t.val (lt25 t.isLt) j := by
  rw [outsAt0_B V c t h0]; dsimp only
  refine (congrFun (out7_B (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (fun h => h0 ((hcond0_0 t).mp h)) (iblk0 V c 0 t) (iblk0 V c 1 t) (iblk0 V c 2 t) (iblk0 V c 3 t) (iblk0 V c 4 t) (outsAt0 V c (t.val - 1) (Nat.lt_of_le_of_lt (Nat.sub_le _ _) t.isLt)).2.1 (outsAt0 V c (t.val - 1) (Nat.lt_of_le_of_lt (Nat.sub_le _ _) t.isLt)).2.2) (ix2 (0 : Fin 1) j)).trans ?_
  refine (pay5_at _ _ _ _ _ _ 0 j).trans ?_
  exact congrArg (_ + ·) (blockSum_hidsq V c t j)

theorem sum7_eq (c : Dev nD) : ∀ (n : ℕ) (h : n < cfg0.N) (j : Fin 128),
    ((outsAt0 V c n h).2.2 : Vec Ideal S1x128 .f32) (ix2 (0 : Fin 1) j)
      = partSum (fun p => hid V c p * hid V c p) n (lt25 h) j
  | 0, h, j => (sum7_first V c ⟨0, h⟩ rfl j).trans (partSum_zero _ _ j).symm
  | n + 1, h, j => by
    have hn := lt25 h
    have hB : ¬(⟨n + 1, h⟩ : Fin cfg0.N).val % 25 = 0 := by dsimp only; omega
    refine (sum7_step V c ⟨n + 1, h⟩ hB j).trans ?_
    rw [partSum_succ]
    exact congrArg (· + _) (sum7_eq c n (Nat.lt_of_succ_lt h) j)

/-- A one-row buffer whose lanes agree with a one-row array is that array read through window 6's block: the block is
    the whole array at every point. -/
theorem cut6_eq_read (t : Fin cfg0.N) (X : Vec Ideal S1x128 .f32) (G : Arr2 1 128)
    (h : ∀ j : Fin 128, X (ix2 (0 : Fin 1) j) = G (ix2 (0 : Fin 1) j)) :
    (cfg0.win 6).cut (grid0.coords t) X = ((cfg0.win 6).blk t).view.read (Elt Ideal) G := by
  obtain ⟨-, -, -, -, -, -, -, -, -, -, -, -, e0, e1, -⟩ := idx_facts t
  funext y
  obtain ⟨z, j, rfl⟩ : ∃ (z : Fin 1) (j : Fin 128), y = ix2 z j := ⟨y 0, y 1, eq_ix2 y⟩
  obtain rfl : z = 0 := Subsingleton.elim _ _
  show X (ix2 (0 : Fin 1) j) = G (((cfg0.win 6).blk t).view.emb (ix2 (0 : Fin 1) j))
  have e : ((cfg0.win 6).blk t).view.emb (ix2 (0 : Fin 1) j) = ix2 (0 : Fin 1) j := by
    funext a; apply Fin.ext
    match a with
    | ⟨0, _⟩ => show win0_6.index t (0 : Fin 2) * 1 + 1 * 0 = 0; rw [e0]
    | ⟨1, _⟩ => show win0_6.index t (1 : Fin 2) * 128 + 1 * j.val = j.val; rw [e1]; omega
  rw [e]
  exact h j

/-- The last point writes the row of sums back: the whole one-row array, holding every column's sum. -/
theorem flushed6_eq (c : Dev nD) (t : Fin cfg0.N) (hf : (cfg0.win 6).flush t = true) :
    (dat0 V c).flushed 6 t = ((cfg0.win 6).blk t).view.read (Elt Ideal) (asRow (colSum (hid V c))) := by
  have ht := lt25 t.isLt
  have h24 : t.val = 24 := by have := (flush0_6 t).mp hf; omega
  show (cfg0.win 6).cut (grid0.coords t) ((dat0 V c).after 6 t) = _
  rw [after0_6]
  refine cut6_eq_read t _ _ fun j => ?_
  rw [asRow_ix2, sum6_eq V c t.val t.isLt j]
  obtain ⟨tv, htv⟩ := t
  obtain rfl : tv = 24 := h24
  exact partSum_last (hid V c) _ j

theorem mem_blk6 (t : Fin cfg0.N) (i : S1x128.Idx) :
    i ∈ ((cfg0.win 6).blk t).view.set ↔ ∀ a : Fin 2, win0_6.index t a * S1x128.size a ≤ (i a).val ∧ (i a).val < win0_6.index t a * S1x128.size a + S1x128.size a := by
  show i ∈ ((View.whole main_v26_1).slice (win0_6.rect t)).set ↔ _
  rw [View.set_slice_whole, Rect.mem_set_unit]
  exact Iff.rfl

theorem final_sum (c : Dev nD) : (dat0 (F := Ideal) V c).arrAt 6 cfg0.N = asRow (colSum (hid V c)) :=
  (dat0 V c).arrAt_eq_of_cover 6 (asRow (colSum (hid V c))) (flushed6_eq V c) fun i => by
    have hi0 : (i 0).val < 1 := (i 0).isLt
    have hi1 : (i 1).val < 128 := (i 1).isLt
    have hN : cfg0.N = 25 := N_0
    refine ⟨⟨24, by rw [hN]; decide⟩, (flush0_6 _).mpr rfl, ?_⟩
    obtain ⟨-, -, -, -, -, -, -, -, -, -, -, -, e0, e1, -⟩ := idx_facts ⟨24, by rw [hN]; decide⟩
    rw [mem_blk6]
    intro a
    match a with
    | ⟨0, _⟩ =>
      show win0_6.index _ (0 : Fin 2) * 1 ≤ (i 0).val ∧ (i 0).val < win0_6.index _ (0 : Fin 2) * 1 + 1
      rw [e0]; omega
    | ⟨1, _⟩ =>
      show win0_6.index _ (1 : Fin 2) * 128 ≤ (i 1).val ∧ (i 1).val < win0_6.index _ (1 : Fin 2) * 128 + 128
      rw [e1]; omega

/-- A one-row buffer whose lanes agree with a one-row array is that array read through window 7's block: the block is
    the whole array at every point. -/
theorem cut7_eq_read (t : Fin cfg0.N) (X : Vec Ideal S1x128 .f32) (G : Arr2 1 128)
    (h : ∀ j : Fin 128, X (ix2 (0 : Fin 1) j) = G (ix2 (0 : Fin 1) j)) :
    (cfg0.win 7).cut (grid0.coords t) X = ((cfg0.win 7).blk t).view.read (Elt Ideal) G := by
  obtain ⟨-, -, -, -, -, -, -, -, -, -, -, -, -, -, e0, e1⟩ := idx_facts t
  funext y
  obtain ⟨z, j, rfl⟩ : ∃ (z : Fin 1) (j : Fin 128), y = ix2 z j := ⟨y 0, y 1, eq_ix2 y⟩
  obtain rfl : z = 0 := Subsingleton.elim _ _
  show X (ix2 (0 : Fin 1) j) = G (((cfg0.win 7).blk t).view.emb (ix2 (0 : Fin 1) j))
  have e : ((cfg0.win 7).blk t).view.emb (ix2 (0 : Fin 1) j) = ix2 (0 : Fin 1) j := by
    funext a; apply Fin.ext
    match a with
    | ⟨0, _⟩ => show win0_7.index t (0 : Fin 2) * 1 + 1 * 0 = 0; rw [e0]
    | ⟨1, _⟩ => show win0_7.index t (1 : Fin 2) * 128 + 1 * j.val = j.val; rw [e1]; omega
  rw [e]
  exact h j

/-- And the row of sums of squares. -/
theorem flushed7_eq (c : Dev nD) (t : Fin cfg0.N) (hf : (cfg0.win 7).flush t = true) :
    (dat0 V c).flushed 7 t
      = ((cfg0.win 7).blk t).view.read (Elt Ideal) (asRow (colSum (fun p => hid V c p * hid V c p))) := by
  have ht := lt25 t.isLt
  have h24 : t.val = 24 := by have := (flush0_7 t).mp hf; omega
  show (cfg0.win 7).cut (grid0.coords t) ((dat0 V c).after 7 t) = _
  rw [after0_7]
  refine cut7_eq_read t _ _ fun j => ?_
  rw [asRow_ix2, sum7_eq V c t.val t.isLt j]
  obtain ⟨tv, htv⟩ := t
  obtain rfl : tv = 24 := h24
  exact partSum_last (fun p => hid V c p * hid V c p) _ j

theorem mem_blk7 (t : Fin cfg0.N) (i : S1x128.Idx) :
    i ∈ ((cfg0.win 7).blk t).view.set ↔ ∀ a : Fin 2, win0_7.index t a * S1x128.size a ≤ (i a).val ∧ (i a).val < win0_7.index t a * S1x128.size a + S1x128.size a := by
  show i ∈ ((View.whole main_v26_2).slice (win0_7.rect t)).set ↔ _
  rw [View.set_slice_whole, Rect.mem_set_unit]
  exact Iff.rfl

theorem final_sumsq (c : Dev nD) :
    (dat0 (F := Ideal) V c).arrAt 7 cfg0.N = asRow (colSum (fun p => hid V c p * hid V c p)) :=
  (dat0 V c).arrAt_eq_of_cover 7 (asRow (colSum (fun p => hid V c p * hid V c p))) (flushed7_eq V c) fun i => by
    have hi0 : (i 0).val < 1 := (i 0).isLt
    have hi1 : (i 1).val < 128 := (i 1).isLt
    have hN : cfg0.N = 25 := N_0
    refine ⟨⟨24, by rw [hN]; decide⟩, (flush0_7 _).mpr rfl, ?_⟩
    obtain ⟨-, -, -, -, -, -, -, -, -, -, -, -, -, -, e0, e1⟩ := idx_facts ⟨24, by rw [hN]; decide⟩
    rw [mem_blk7]
    intro a
    match a with
    | ⟨0, _⟩ =>
      show win0_7.index _ (0 : Fin 2) * 1 ≤ (i 0).val ∧ (i 0).val < win0_7.index _ (0 : Fin 2) * 1 + 1
      rw [e0]; omega
    | ⟨1, _⟩ =>
      show win0_7.index _ (1 : Fin 2) * 128 ≤ (i 1).val ∧ (i 1).val < win0_7.index _ (1 : Fin 2) * 128 + 128
      rw [e1]; omega

end Cert.KernelIdeal.Reg0

end
-- ==== Proof.MatmulAt.lean ====
/-
  The matrix product read at an index, over the extended reals. Each of the four products the two programs take
  contracts axis 1 of an m x 128 left operand with axis 0 of a 128 x n right operand, with no batch axis: its entry at
  (r, j) is the sum over k of left (r, k) times right (k, j). The matrix unit's product into the zero accumulator and
  the host's product are the same sum over the contraction index, and the dimension numbers the programs spell are
  those of the plain product, for which that sum is re-indexed by the one contracted coordinate.
-/
import proofs.«149974_j25357486915627_1_alg».proof.KernelIdeal
import proofs.«149974_j25357486915627_1_alg».proof.ReferenceIdeal
import proofs.«149974_j25357486915627_1_alg».proof.Proof.Gen.KernelIdeal
import proofs.«149974_j25357486915627_1_alg».proof.Proof.Gen.ReferenceIdeal
import Idealize.ShloMosaic.PureOps.Ideal.Laws
import Idealize.ShloMosaic.Lib.ValueIdx
import Idealize.ShloMosaic.Lib.StackMember

noncomputable section

namespace Cert.Sage.MatmulAt

open Idealize.ShloMosaic Idealize.ShloMosaic.ValueIdx

/-- Into the zero accumulator the matrix unit's product is the host's product: at every index both are the sum of the
    products of the operands' entries over the contraction index. -/
theorem matmul_zero_eq_dotGeneral {sl sr so : Shape} {φ₁ φ₂ : FTy} (d : DotDims sl sr so) (prec : Option ContractPrecision)
    (A : FVec Ideal sl φ₁) (B : FVec Ideal sr φ₂) :
    matmul (F := Ideal) d prec A B (constant so .f32 0x00000000#32) = Host.dotGeneral (F := Ideal) d prec A B := by
  funext j
  show FloatOps.matmul d prec A B _ j = FloatOps.dotGeneral d prec _ A B j
  rw [Ideal.matmul_constant_zero_apply, Ideal.dotGeneral_apply]

/-- The first layer's block product: 4000 x 128 by 128 x 128. -/
theorem k_mm128 (a : FVec Ideal Cert.KernelIdeal.S4000x128 .bf16) (w : FVec Ideal Cert.KernelIdeal.S128x128 .bf16)
    (r : Fin 4000) (j : Fin 128) :
    matmul (F := Ideal) Cert.KernelIdeal.dot_S4000x128_S128x128_S4000x128_1_0_0_1_n_n none a w
        (constant Cert.KernelIdeal.S4000x128 .f32 0x00000000#32) (ValueIdx.ix2 r j)
      = ∑ k : Fin 128, a (ValueIdx.ix2 r k) * w (ValueIdx.ix2 k j) := by
  rw [matmul_zero_eq_dotGeneral]
  exact StackMember.dotGeneral_plain_apply (m := 4000) (k := 128) (n := 128) none a w r j

/-- The second layer's block product: 4000 x 128 by 128 x 40. -/
theorem k_mm40 (a : FVec Ideal Cert.KernelIdeal.S4000x128 .bf16) (w : FVec Ideal Cert.KernelIdeal.S128x40 .bf16)
    (r : Fin 4000) (j : Fin 40) :
    matmul (F := Ideal) Cert.KernelIdeal.dot_S4000x128_S128x40_S4000x40_1_0_0_1_n_n none a w
        (constant Cert.KernelIdeal.S4000x40 .f32 0x00000000#32) (ValueIdx.ix2 r j)
      = ∑ k : Fin 128, a (ValueIdx.ix2 r k) * w (ValueIdx.ix2 k j) := by
  rw [matmul_zero_eq_dotGeneral]
  exact StackMember.dotGeneral_plain_apply (m := 4000) (k := 128) (n := 40) none a w r j

/-- The first layer's whole product on the host: 100000 x 128 by 128 x 128. -/
theorem r_dot128 (a : FVec Ideal Cert.ReferenceIdeal.S100000x128 .f32) (w : FVec Ideal Cert.ReferenceIdeal.S128x128 .f32)
    (i : Fin 100000) (j : Fin 128) :
    Host.dotGeneral (F := Ideal) Cert.ReferenceIdeal.dot_S100000x128_S128x128_S100000x128_1_0_0_1_n_n none a w (ValueIdx.ix2 i j)
      = ∑ k : Fin 128, a (ValueIdx.ix2 i k) * w (ValueIdx.ix2 k j) :=
  StackMember.dotGeneral_plain_apply (m := 100000) (k := 128) (n := 128) none a w i j

/-- The second layer's whole product on the host: 100000 x 128 by 128 x 40. -/
theorem r_dot40 (a : FVec Ideal Cert.ReferenceIdeal.S100000x128 .f32) (w : FVec Ideal Cert.ReferenceIdeal.S128x40 .f32)
    (i : Fin 100000) (j : Fin 40) :
    Host.dotGeneral (F := Ideal) Cert.ReferenceIdeal.dot_S100000x128_S128x40_S100000x40_1_0_0_1_n_n none a w (ValueIdx.ix2 i j)
      = ∑ k : Fin 128, a (ValueIdx.ix2 i k) * w (ValueIdx.ix2 k j) :=
  StackMember.dotGeneral_plain_apply (m := 100000) (k := 128) (n := 40) none a w i j

/-! ### The same four, stated at the instance's own operations

`matmul` and `Host.dotGeneral` abbreviate the float instance's `FloatOps.matmul` and `FloatOps.dotGeneral` (the latter at the
one-device schedule); a goal in which the abbreviation has been unfolded reads through these. -/

theorem k_mm128_ops (a : FVec Ideal Cert.KernelIdeal.S4000x128 .bf16) (w : FVec Ideal Cert.KernelIdeal.S128x128 .bf16)
    (r : Fin 4000) (j : Fin 128) :
    FloatOps.matmul (F := Ideal) Cert.KernelIdeal.dot_S4000x128_S128x128_S4000x128_1_0_0_1_n_n none a w
        (constant Cert.KernelIdeal.S4000x128 .f32 0x00000000#32) (ValueIdx.ix2 r j)
      = ∑ k : Fin 128, a (ValueIdx.ix2 r k) * w (ValueIdx.ix2 k j) :=
  k_mm128 a w r j

theorem k_mm40_ops (a : FVec Ideal Cert.KernelIdeal.S4000x128 .bf16) (w : FVec Ideal Cert.KernelIdeal.S128x40 .bf16)
    (r : Fin 4000) (j : Fin 40) :
    FloatOps.matmul (F := Ideal) Cert.KernelIdeal.dot_S4000x128_S128x40_S4000x40_1_0_0_1_n_n none a w
        (constant Cert.KernelIdeal.S4000x40 .f32 0x00000000#32) (ValueIdx.ix2 r j)
      = ∑ k : Fin 128, a (ValueIdx.ix2 r k) * w (ValueIdx.ix2 k j) :=
  k_mm40 a w r j

theorem r_dot128_ops (a : FVec Ideal Cert.ReferenceIdeal.S100000x128 .f32) (w : FVec Ideal Cert.ReferenceIdeal.S128x128 .f32)
    (i : Fin 100000) (j : Fin 128) :
    FloatOps.dotGeneral (F := Ideal) Cert.ReferenceIdeal.dot_S100000x128_S128x128_S100000x128_1_0_0_1_n_n none .single a w
        (ValueIdx.ix2 i j)
      = ∑ k : Fin 128, a (ValueIdx.ix2 i k) * w (ValueIdx.ix2 k j) :=
  r_dot128 a w i j

theorem r_dot40_ops (a : FVec Ideal Cert.ReferenceIdeal.S100000x128 .f32) (w : FVec Ideal Cert.ReferenceIdeal.S128x40 .f32)
    (i : Fin 100000) (j : Fin 40) :
    FloatOps.dotGeneral (F := Ideal) Cert.ReferenceIdeal.dot_S100000x128_S128x40_S100000x40_1_0_0_1_n_n none .single a w
        (ValueIdx.ix2 i j)
      = ∑ k : Fin 128, a (ValueIdx.ix2 i k) * w (ValueIdx.ix2 k j) :=
  r_dot40 a w i j

end Cert.Sage.MatmulAt

end
-- ==== Proof.KReg12.lean ====
/-
  The second and third tiled steps of the network, each read off its block-by-block run as one function of the arrays it
  starts from.

  Both steps walk the 100000 rows in 25 blocks of 4000. At block t the normalisation step holds rows 4000 t … 4000 t + 3999
  of the hidden array together with the whole mean, variance, scale and shift rows, and leaves in the output block, at row p and
  column q, max (scale q · (h(4000 t + p, q) − mean q) · rsqrt (variance q + ε) + shift q, 0). The second linear step holds the
  same rows of the neighbour-mean array and of the normalised array with both 128 x 40 weight matrices and the bias row whole, and
  leaves Σ_k a(4000 t + p, k) · Wl(k, j) + Σ_k x(4000 t + p, k) · Wr(k, j) + b j. Every block is written back, row i belongs to
  block i / 4000, so the arrays end holding the specification's `bnRelu` and `lin` of the entry contents at every index.
-/
import proofs.«149974_j25357486915627_1_alg».proof.Proof.KernelIdealFrame
import proofs.«149974_j25357486915627_1_alg».proof.Proof.SageSpec
import proofs.«149974_j25357486915627_1_alg».proof.Proof.MatmulAt
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

namespace Cert.KernelIdeal.Reg12

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.GenP Cert.Sage

variable (V : (c : Dev nD) → (b : Ref sig .tc) → Buf (Elt Ideal) ((c : Thread nD τ).loc b))

/-- The zero offset of a whole-block load or store. -/
theorem hz : (![0, 0] : Fin 2 → Nat) = fun _ => 0 := funext fun a => by fin_cases a <;> rfl

/-! ## The normalisation step -/

/-- A 1 x 128 row broadcast down 4000 rows reads, at row p and column q, the row's entry q. -/
theorem bcastRow_apply (x : S1x128.Idx → EReal) (p : Fin 4000) (q : Fin 128) :
    broadcastTo S4000x128 x broadcasts_S1x128_S4000x128 (ix2 p q) = x (ix2 (0 : Fin 1) q) := by
  refine broadcastTo_apply x _ _ _ fun a => ?_
  match a with
  | ⟨0, _⟩ => rfl
  | ⟨1, _⟩ => rfl

/-- The normalise-and-rectify body at row p, column q of a block: the scale row times the centred entry times the
    reciprocal root of the variance row plus ε, plus the shift row, cut off below at 0. -/
theorem pay1_apply (h : Vec Ideal S4000x128 .f32) (var gam mu bet : Vec Ideal S1x128 .f32) (p : Fin 4000) (q : Fin 128) :
    k1_pay1 (F := Ideal) h var gam mu bet (ix2 p q)
      = max (gam (ix2 (0 : Fin 1) q) * (h (ix2 p q) - mu (ix2 (0 : Fin 1) q)) * Ideal.rsqrt (var (ix2 (0 : Fin 1) q) + litEps) + bet (ix2 (0 : Fin 1) q)) 0 := by
  unfold k1_pay1
  simp only [shapeCast_self]
  rw [maximumf_apply, addf_apply, mulf_apply, mulf_apply, subf_apply, broadcast_apply]
  rw [bcastRow_apply, bcastRow_apply, bcastRow_apply, bcastRow_apply]
  show max (_ * _ * Ideal.rsqrt (var (ix2 (0 : Fin 1) q) + Ideal.ofBits .f32 0x3727C5AC#32) + _) (Ideal.ofBits .f32 0x00000000#32) = _
  rw [Ideal.ofBits_zero_f32]

/-- The same entry as the specification's function of the whole arrays, once each block entry is known as an array entry. -/
theorem blockValue1 (x0 : Vec Ideal S4000x128 .f32) (x1 x2 x3 x4 : Vec Ideal S1x128 .f32)
    (H : Arr2 100000 128) (mu var gam bet : Arr2 1 128) (p : Fin 4000) (q : Fin 128) (i : Fin 100000) (q' : Fin 128)
    (hq : q' = q) (h0 : x0 (ix2 p q) = H (ix2 i q'))
    (h1 : x1 (ix2 (0 : Fin 1) q) = mu (ix2 (0 : Fin 1) q)) (h2 : x2 (ix2 (0 : Fin 1) q) = var (ix2 (0 : Fin 1) q))
    (h3 : x3 (ix2 (0 : Fin 1) q) = gam (ix2 (0 : Fin 1) q)) (h4 : x4 (ix2 (0 : Fin 1) q) = bet (ix2 (0 : Fin 1) q)) :
    k1_pay1 (F := Ideal) x0 x2 x3 x1 x4 (ix2 p q)
      = bnRelu H (fun j => mu (ix2 (0 : Fin 1) j)) (fun j => var (ix2 (0 : Fin 1) j)) (rowOf gam) (rowOf bet) i q' := by
  subst hq
  rw [pay1_apply, h0, h1, h2, h3, h4]
  rfl

/-- The printed index maps over the 25 grid points: the hidden block and the output block are block t of the rows;
    the four statistic rows are whole at every point. -/
theorem idx_facts1 : ∀ t : Fin cfg1.N, win1_5.index t (0 : Fin 2) = t.val ∧ win1_5.index t (1 : Fin 2) = 0
    ∧ win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0 :=
  (by decide +kernel : ∀ t : Fin grid1.N, _)

/-- What the normalised array holds: the specification's function of the hidden array and the four rows as the step finds them. -/
abbrev G1 (c : Dev nD) : Arr2 100000 128 :=
  ofFn2 (bnRelu (V c main_v26_0) (fun j => V c main_v28 (ix2 (0 : Fin 1) j)) (fun j => V c main_v32 (ix2 (0 : Fin 1) j))
        (rowOf (V c main_v33)) (rowOf (V c main_v34)))

/-- What point t writes back is block t of that function. -/
theorem flushed1_eq (c : Dev nD) (t : Fin cfg1.N) :
    (dat1 (F := Ideal) V c).flushed 5 t = ((cfg1.win 5).blk t).view.read (Elt Ideal) (G1 V c) := by
  show (cfg1.win 5).cut (grid1.coords t) ((dat1 V c).after 5 t) = _
  rw [after1_5]
  unfold out1_5
  rw [View.canon_unit_zero hz]
  simp only [View.ld_unit_zero (S := S4000x128) hz, View.ld_unit_zero (S := S1x128) hz]
  obtain ⟨e50, e51, e00, e01, e10, e11, e20, e21, e30, e31, e40, e41⟩ := idx_facts1 t
  funext j
  obtain ⟨p, q, rfl⟩ : ∃ (p : Fin 4000) (q : Fin 128), j = ix2 p q := ⟨j 0, j 1, eq_ix2 j⟩
  show k1_pay1 (F := Ideal) (iblk1 V c 0 t) (iblk1 V c 2 t) (iblk1 V c 3 t) (iblk1 V c 1 t) (iblk1 V c 4 t) (ix2 p q)
    = bnRelu (V c main_v26_0) (fun j => V c main_v28 (ix2 (0 : Fin 1) j)) (fun j => V c main_v32 (ix2 (0 : Fin 1) j))
        (rowOf (V c main_v33)) (rowOf (V c main_v34)) ((((cfg1.win 5).blk t).view.emb (ix2 p q)) 0) ((((cfg1.win 5).blk t).view.emb (ix2 p q)) 1)
  refine blockValue1 (iblk1 V c 0 t) (iblk1 V c 1 t) (iblk1 V c 2 t) (iblk1 V c 3 t) (iblk1 V c 4 t)
    (V c main_v26_0) (V c main_v28) (V c main_v32) (V c main_v33) (V c main_v34) p q
    ((((cfg1.win 5).blk t).view.emb (ix2 p q)) 0) ((((cfg1.win 5).blk t).view.emb (ix2 p q)) 1) ?_ ?_ ?_ ?_ ?_ ?_
  · apply Fin.ext
    show win1_5.index t (1 : Fin 2) * 128 + 1 * q.val = q.val
    omega
  · unfold iblk1
    rw [View.read_apply]
    show V c main_v26_0 (((cfg1.win 0).blk t).view.emb (ix2 p q)) = V c main_v26_0 _
    refine congrArg _ (funext fun a => Fin.ext ?_)
    match a with
    | ⟨0, _⟩ => show win1_0.index t (0 : Fin 2) * 4000 + 1 * p.val = win1_5.index t (0 : Fin 2) * 4000 + 1 * p.val; omega
    | ⟨1, _⟩ => show win1_0.index t (1 : Fin 2) * 128 + 1 * q.val = win1_5.index t (1 : Fin 2) * 128 + 1 * q.val; omega
  · unfold iblk1
    rw [View.read_apply]
    show V c main_v28 (((cfg1.win 1).blk t).view.emb (ix2 (0 : Fin 1) q)) = V c main_v28 _
    refine congrArg _ (funext fun a => Fin.ext ?_)
    match a with
    | ⟨0, _⟩ => show win1_1.index t (0 : Fin 2) * 1 + 1 * 0 = 0; omega
    | ⟨1, _⟩ => show win1_1.index t (1 : Fin 2) * 128 + 1 * q.val = q.val; omega
  · unfold iblk1
    rw [View.read_apply]
    show V c main_v32 (((cfg1.win 2).blk t).view.emb (ix2 (0 : Fin 1) q)) = V c main_v32 _
    refine congrArg _ (funext fun a => Fin.ext ?_)
    match a with
    | ⟨0, _⟩ => show win1_2.index t (0 : Fin 2) * 1 + 1 * 0 = 0; omega
    | ⟨1, _⟩ => show win1_2.index t (1 : Fin 2) * 128 + 1 * q.val = q.val; omega
  · unfold iblk1
    rw [View.read_apply]
    show V c main_v33 (((cfg1.win 3).blk t).view.emb (ix2 (0 : Fin 1) q)) = V c main_v33 _
    refine congrArg _ (funext fun a => Fin.ext ?_)
    match a with
    | ⟨0, _⟩ => show win1_3.index t (0 : Fin 2) * 1 + 1 * 0 = 0; omega
    | ⟨1, _⟩ => show win1_3.index t (1 : Fin 2) * 128 + 1 * q.val = q.val; omega
  · unfold iblk1
    rw [View.read_apply]
    show V c main_v34 (((cfg1.win 4).blk t).view.emb (ix2 (0 : Fin 1) q)) = V c main_v34 _
    refine congrArg _ (funext fun a => Fin.ext ?_)
    match a with
    | ⟨0, _⟩ => show win1_4.index t (0 : Fin 2) * 1 + 1 * 0 = 0; omega
    | ⟨1, _⟩ => show win1_4.index t (1 : Fin 2) * 128 + 1 * q.val = q.val; omega

/-- Row i of the normalised array lies in the block of point i / 4000, and every point writes its block back. -/
theorem cover1 (i : S100000x128.Idx) :
    ∃ t : Fin cfg1.N, (cfg1.win 5).flush t = true ∧ i ∈ ((cfg1.win 5).blk t).view.set := by
  have hi0 : (i 0).val < 100000 := (i 0).isLt
  have hi1 : (i 1).val < 128 := (i 1).isLt
  have ht : (i 0).val / 4000 < cfg1.N := by show _ < 25; omega
  obtain ⟨e50, e51, -⟩ := idx_facts1 ⟨(i 0).val / 4000, ht⟩
  refine ⟨⟨(i 0).val / 4000, ht⟩, flush1_5 _, ?_⟩
  show i ∈ ((View.whole main_v35).slice (win1_5.rect ⟨(i 0).val / 4000, ht⟩)).set
  rw [View.set_slice_whole, Rect.mem_set_unit]
  intro a
  match a with
  | ⟨0, _⟩ =>
    show win1_5.index ⟨(i 0).val / 4000, ht⟩ (0 : Fin 2) * 4000 ≤ (i 0).val ∧ (i 0).val < win1_5.index ⟨(i 0).val / 4000, ht⟩ (0 : Fin 2) * 4000 + 4000
    rw [e50]; show (i 0).val / 4000 * 4000 ≤ (i 0).val ∧ (i 0).val < (i 0).val / 4000 * 4000 + 4000; omega
  | ⟨1, _⟩ =>
    show win1_5.index ⟨(i 0).val / 4000, ht⟩ (1 : Fin 2) * 128 ≤ (i 1).val ∧ (i 1).val < win1_5.index ⟨(i 0).val / 4000, ht⟩ (1 : Fin 2) * 128 + 128
    rw [e51]; omega

/-- The normalised array after the 25 points. -/
theorem final1 (c : Dev nD) : (dat1 (F := Ideal) V c).arrAt 5 cfg1.N
    = ofFn2 (bnRelu (V c main_v26_0) (fun j => V c main_v28 (ix2 (0 : Fin 1) j)) (fun j => V c main_v32 (ix2 (0 : Fin 1) j))
        (rowOf (V c main_v33)) (rowOf (V c main_v34))) :=
  (dat1 (F := Ideal) V c).arrAt_eq_of_cover 5 (G1 V c) (fun t _ => flushed1_eq V c t) cover1

/-! ## The second linear step -/

/-- A 1 x 40 row broadcast down 4000 rows reads, at row p and column j, the row's entry j. -/
theorem bcastRow40_apply (x : S1x40.Idx → EReal) (p : Fin 4000) (j : Fin 40) :
    broadcastTo S4000x40 x broadcasts_S1x40_S4000x40 (ix2 p j) = x (ix2 (0 : Fin 1) j) := by
  refine broadcastTo_apply x _ _ _ fun a => ?_
  match a with
  | ⟨0, _⟩ => rfl
  | ⟨1, _⟩ => rfl

/-- The second layer's body at row p, column j of a block: row p of the neighbour-mean block against column j of the first
    weight matrix, plus row p of the feature block against column j of the second, plus the bias row's entry j. -/
theorem pay2_apply (a x : Vec Ideal S4000x128 .f32) (wl wr : Vec Ideal S128x40 .f32) (b : Vec Ideal S1x40 .f32) (p : Fin 4000) (j : Fin 40) :
    k2_pay1 (F := Ideal) a x wl wr b (ix2 p j)
      = (∑ k : Fin 128, a (ix2 p k) * wl (ix2 k j)) + (∑ k : Fin 128, x (ix2 p k) * wr (ix2 k j)) + b (ix2 (0 : Fin 1) j) := by
  unfold k2_pay1
  simp only [shapeCast_self]
  rw [addf_apply, addf_apply, bcastRow40_apply, Cert.Sage.MatmulAt.k_mm40, Cert.Sage.MatmulAt.k_mm40]
  rfl

/-- The same entry as the specification's linear layer on the whole arrays, once each block entry is known as an array entry. -/
theorem blockValue2 (x0 x1 : Vec Ideal S4000x128 .f32) (x2 x3 : Vec Ideal S128x40 .f32) (x4 : Vec Ideal S1x40 .f32)
    (A X : Arr2 100000 128) (Wl Wr : Arr2 128 40) (B : Arr2 1 40) (p : Fin 4000) (j : Fin 40) (i : Fin 100000) (j' : Fin 40)
    (hj : j' = j)
    (h0 : ∀ k : Fin 128, x0 (ix2 p k) = A (ix2 i k)) (h1 : ∀ k : Fin 128, x1 (ix2 p k) = X (ix2 i k))
    (h2 : ∀ k : Fin 128, x2 (ix2 k j) = Wl (ix2 k j)) (h3 : ∀ k : Fin 128, x3 (ix2 k j) = Wr (ix2 k j))
    (h4 : x4 (ix2 (0 : Fin 1) j) = B (ix2 (0 : Fin 1) j)) :
    k2_pay1 (F := Ideal) x0 x1 x2 x3 x4 (ix2 p j) = lin A X Wl Wr (rowOf B) i j' := by
  subst hj
  rw [pay2_apply, h4]
  simp only [h0, h1, h2, h3]
  rfl

/-- The printed index maps over the 25 grid points: the two feature blocks and the output block are block t of the rows;
    the two weight matrices and the bias row are whole at every point. -/
theorem idx_facts2 : ∀ t : Fin cfg2.N, win2_5.index t (0 : Fin 2) = t.val ∧ win2_5.index t (1 : Fin 2) = 0
    ∧ win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0 :=
  (by decide +kernel : ∀ t : Fin grid2.N, _)

/-- What the result array holds: the specification's linear layer of the neighbour-mean array, the normalised array, the two
    weight matrices and the bias row as the step finds them. -/
abbrev G2 (c : Dev nD) : Arr2 100000 40 :=
  ofFn2 (lin (V c main_v47) (V c main_v35) (V c main_arg7) (V c main_arg8) (rowOf (V c main_v48)))

/-- What point t writes back is block t of that function. -/
theorem flushed2_eq (c : Dev nD) (t : Fin cfg2.N) :
    (dat2 (F := Ideal) V c).flushed 5 t = ((cfg2.win 5).blk t).view.read (Elt Ideal) (G2 V c) := by
  show (cfg2.win 5).cut (grid2.coords t) ((dat2 V c).after 5 t) = _
  rw [after2_5]
  unfold out2_5
  rw [View.canon_unit_zero hz]
  simp only [View.ld_unit_zero (S := S4000x128) hz, View.ld_unit_zero (S := S128x40) hz, View.ld_unit_zero (S := S1x40) hz]
  obtain ⟨e50, e51, e00, e01, e10, e11, e20, e21, e30, e31, e40, e41⟩ := idx_facts2 t
  funext y
  obtain ⟨p, j, rfl⟩ : ∃ (p : Fin 4000) (j : Fin 40), y = ix2 p j := ⟨y 0, y 1, eq_ix2 y⟩
  show k2_pay1 (F := Ideal) (iblk2 V c 0 t) (iblk2 V c 1 t) (iblk2 V c 2 t) (iblk2 V c 3 t) (iblk2 V c 4 t) (ix2 p j)
    = lin (V c main_v47) (V c main_v35) (V c main_arg7) (V c main_arg8) (rowOf (V c main_v48))
        ((((cfg2.win 5).blk t).view.emb (ix2 p j)) 0) ((((cfg2.win 5).blk t).view.emb (ix2 p j)) 1)
  refine blockValue2 (iblk2 V c 0 t) (iblk2 V c 1 t) (iblk2 V c 2 t) (iblk2 V c 3 t) (iblk2 V c 4 t)
    (V c main_v47) (V c main_v35) (V c main_arg7) (V c main_arg8) (V c main_v48) p j
    ((((cfg2.win 5).blk t).view.emb (ix2 p j)) 0) ((((cfg2.win 5).blk t).view.emb (ix2 p j)) 1) ?_ ?_ ?_ ?_ ?_ ?_
  · apply Fin.ext
    show win2_5.index t (1 : Fin 2) * 40 + 1 * j.val = j.val
    omega
  · intro k
    unfold iblk2
    rw [View.read_apply]
    show V c main_v47 (((cfg2.win 0).blk t).view.emb (ix2 p k)) = V c main_v47 _
    refine congrArg _ (funext fun a => Fin.ext ?_)
    match a with
    | ⟨0, _⟩ => show win2_0.index t (0 : Fin 2) * 4000 + 1 * p.val = win2_5.index t (0 : Fin 2) * 4000 + 1 * p.val; omega
    | ⟨1, _⟩ => show win2_0.index t (1 : Fin 2) * 128 + 1 * k.val = k.val; omega
  · intro k
    unfold iblk2
    rw [View.read_apply]
    show V c main_v35 (((cfg2.win 1).blk t).view.emb (ix2 p k)) = V c main_v35 _
    refine congrArg _ (funext fun a => Fin.ext ?_)
    match a with
    | ⟨0, _⟩ => show win2_1.index t (0 : Fin 2) * 4000 + 1 * p.val = win2_5.index t (0 : Fin 2) * 4000 + 1 * p.val; omega
    | ⟨1, _⟩ => show win2_1.index t (1 : Fin 2) * 128 + 1 * k.val = k.val; omega
  · intro k
    unfold iblk2
    rw [View.read_apply]
    show V c main_arg7 (((cfg2.win 2).blk t).view.emb (ix2 k j)) = V c main_arg7 _
    refine congrArg _ (funext fun a => Fin.ext ?_)
    match a with
    | ⟨0, _⟩ => show win2_2.index t (0 : Fin 2) * 128 + 1 * k.val = k.val; omega
    | ⟨1, _⟩ => show win2_2.index t (1 : Fin 2) * 40 + 1 * j.val = j.val; omega
  · intro k
    unfold iblk2
    rw [View.read_apply]
    show V c main_arg8 (((cfg2.win 3).blk t).view.emb (ix2 k j)) = V c main_arg8 _
    refine congrArg _ (funext fun a => Fin.ext ?_)
    match a with
    | ⟨0, _⟩ => show win2_3.index t (0 : Fin 2) * 128 + 1 * k.val = k.val; omega
    | ⟨1, _⟩ => show win2_3.index t (1 : Fin 2) * 40 + 1 * j.val = j.val; omega
  ·
    unfold iblk2
    rw [View.read_apply]
    show V c main_v48 (((cfg2.win 4).blk t).view.emb (ix2 (0 : Fin 1) j)) = V c main_v48 _
    refine congrArg _ (funext fun a => Fin.ext ?_)
    match a with
    | ⟨0, _⟩ => show win2_4.index t (0 : Fin 2) * 1 + 1 * 0 = 0; omega
    | ⟨1, _⟩ => show win2_4.index t (1 : Fin 2) * 40 + 1 * j.val = j.val; omega

/-- Row i of the result array lies in the block of point i / 4000, and every point writes its block back. -/
theorem cover2 (i : S100000x40.Idx) :
    ∃ t : Fin cfg2.N, (cfg2.win 5).flush t = true ∧ i ∈ ((cfg2.win 5).blk t).view.set := by
  have hi0 : (i 0).val < 100000 := (i 0).isLt
  have hi1 : (i 1).val < 40 := (i 1).isLt
  have ht : (i 0).val / 4000 < cfg2.N := by show _ < 25; omega
  obtain ⟨e50, e51, -⟩ := idx_facts2 ⟨(i 0).val / 4000, ht⟩
  refine ⟨⟨(i 0).val / 4000, ht⟩, flush2_5 _, ?_⟩
  show i ∈ ((View.whole main_v49).slice (win2_5.rect ⟨(i 0).val / 4000, ht⟩)).set
  rw [View.set_slice_whole, Rect.mem_set_unit]
  intro a
  match a with
  | ⟨0, _⟩ =>
    show win2_5.index ⟨(i 0).val / 4000, ht⟩ (0 : Fin 2) * 4000 ≤ (i 0).val ∧ (i 0).val < win2_5.index ⟨(i 0).val / 4000, ht⟩ (0 : Fin 2) * 4000 + 4000
    rw [e50]; show (i 0).val / 4000 * 4000 ≤ (i 0).val ∧ (i 0).val < (i 0).val / 4000 * 4000 + 4000; omega
  | ⟨1, _⟩ =>
    show win2_5.index ⟨(i 0).val / 4000, ht⟩ (1 : Fin 2) * 40 ≤ (i 1).val ∧ (i 1).val < win2_5.index ⟨(i 0).val / 4000, ht⟩ (1 : Fin 2) * 40 + 40
    rw [e51]; omega

/-- The result array after the 25 points. -/
theorem final2 (c : Dev nD) : (dat2 (F := Ideal) V c).arrAt 5 cfg2.N
    = ofFn2 (lin (V c main_v47) (V c main_v35) (V c main_arg7) (V c main_arg8) (rowOf (V c main_v48))) :=
  (dat2 (F := Ideal) V c).arrAt_eq_of_cover 5 (G2 V c) (fun t _ => flushed2_eq V c t) cover2

end Cert.KernelIdeal.Reg12

end
-- ==== Proof.KHost.lean ====
/-
  The kernel program's host operations around its three calls, read as values.

  Before the first call the host computes, from the edge list, the neighbour sum of the input features (the rows
  gathered at the edge sources, added at the edge targets), the number of edges arriving at each node (at least one)
  and its reciprocal as a column, and multiplies the two: the neighbour mean in product form. Between the first and the
  second call it divides the column sums of the hidden array and of its square by the node count and forms the variance
  as mean of squares minus squared mean. Before the third call it forms the neighbour mean of the normalised, rectified
  hidden array in the same way. Each call's result array is a function of the arrays the call is entered with;
  composing the three with the host's values gives the network's first arrangement `outK` of the argument arrays.
-/
import proofs.«149974_j25357486915627_1_alg».proof.Proof.KernelIdealFrame
import proofs.«149974_j25357486915627_1_alg».proof.Proof.SageSpec
import proofs.«149974_j25357486915627_1_alg».proof.Proof.SageGraph
import proofs.«149974_j25357486915627_1_alg».proof.Proof.KReg0
import proofs.«149974_j25357486915627_1_alg».proof.Proof.KReg12
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws
import Idealize.ShloMosaic.Lib.Tactic

set_option maxRecDepth 16384

noncomputable section

namespace Cert.KernelIdeal.HostChain

open Idealize.ShloMosaic Idealize.ShloMosaic.TcCoe Idealize.ShloMosaic.ValueIdx Idealize.SL.Sem
open Cert.KernelIdeal Cert.KernelIdeal.Gen Cert.KernelIdeal.GenP Cert.Sage

variable (m : (ℓ : Loc nD τ sig) → Buf (Elt Ideal) ℓ) (ρ : Dev nD → PrngReg)

/-! ## What the host operations compute, as functions of the arrays they read -/

/-- The edge targets as given. -/
def colRaw (ei : IVec S2x1600000 32) : IVec S1600000 32 :=
  shapeCast S1600000 (extractStridedSlice S1x1600000 ![1, 0] ei slices_S2x1600000_S1x1600000_1_0) shapeCasts_S1x1600000_S1600000

/-- The reciprocals 1 / d(i) of a vector of denominators, as a column. -/
def recipCol (d : FVec Ideal S100000 .f32) : FVec Ideal S100000x1 .f32 :=
  broadcastInDim S100000x1 ![0] bcast_S100000_S100000x1_0
    (Host.divf (broadcastInDim S100000 ![] bcast_S_S100000 (constant (F := Ideal) S_ .f32 0x3F800000#32)) d)

/-- An array times the reciprocal column spread over the features. -/
def aggHost (S : FVec Ideal S100000x128 .f32) (d : FVec Ideal S100000 .f32) : FVec Ideal S100000x128 .f32 :=
  mulf S (broadcastInDim S100000x128 ![0, 1] bcast_S100000x1_S100000x128_0_1 (recipCol d))

/-- A column spread over the features reads, at (i, k), the column at i. -/
theorem spread_entry (x : FVec Ideal S100000x1 .f32) (i : Fin 100000) (k : Fin 128) :
    (broadcastInDim S100000x128 ![0, 1] bcast_S100000x1_S100000x128_0_1 x : FVec Ideal S100000x128 .f32) (ix2 i k)
      = x (ix2 i (0 : Fin 1)) := by
  refine broadcastInDim_apply ![0, 1] bcast_S100000x1_S100000x128_0_1 x (ix2 i k) (ix2 i (0 : Fin 1)) (fun a => ?_)
  match a with
  | ⟨0, _⟩ => exact (if_neg (show ¬ ((100000 : ℕ) = 1) by omega)).symm
  | ⟨1, _⟩ => exact (if_pos (show (1 : ℕ) = 1 from rfl)).symm

/-- A vector laid out as a column reads, at (i, 0), the vector at i. -/
theorem column_entry (x : FVec Ideal S100000 .f32) (i : Fin 100000) :
    (broadcastInDim S100000x1 ![0] bcast_S100000_S100000x1_0 x : FVec Ideal S100000x1 .f32) (ix2 i (0 : Fin 1))
      = x (ix1 i) := by
  refine broadcastInDim_apply ![0] bcast_S100000_S100000x1_0 x (ix2 i (0 : Fin 1)) (ix1 i) (fun a => ?_)
  match a with
  | ⟨0, _⟩ => exact (if_neg (show ¬ ((100000 : ℕ) = 1) by omega)).symm

/-- The quotient of the constant one by a vector, read at i. -/
theorem one_over_entry (d : FVec Ideal S100000 .f32) (i : Fin 100000) :
    (Host.divf (broadcastInDim S100000 ![] bcast_S_S100000 (constant (F := Ideal) S_ .f32 0x3F800000#32)) d : FVec Ideal S100000 .f32) (ix1 i)
      = Ideal.div litOne (d (ix1 i)) := rfl

/-- The spread reciprocal column at node i is one over the node's denominator. -/
theorem recip_entry (d : FVec Ideal S100000 .f32) (i : Fin 100000) (k : Fin 128) :
    (broadcastInDim S100000x128 ![0, 1] bcast_S100000x1_S100000x128_0_1 (recipCol d) : FVec Ideal S100000x128 .f32) (ix2 i k)
      = Ideal.div litOne (d (ix1 i)) := by
  rw [spread_entry]
  unfold recipCol
  rw [column_entry, one_over_entry]

/-- The product with the spread reciprocal column is the neighbour mean in product form. -/
theorem aggHost_eq (S : FVec Ideal S100000x128 .f32) (d : FVec Ideal S100000 .f32) : aggHost S d = aggMul S d := by
  funext p
  obtain ⟨i, k, rfl⟩ : ∃ (i : Fin 100000) (k : Fin 128), p = ix2 i k := ⟨p 0, p 1, eq_ix2 p⟩
  unfold aggHost aggMul
  rw [mulf_apply, recip_entry]
  rfl

/-- A vector reshaped to one row and read back as a vector is the vector. -/
theorem rowOf_reshape {a : ℕ} (x : (⟨1, ![a]⟩ : Shape).Idx → EReal) (h : (⟨1, ![a]⟩ : Shape).ShapeCasts ⟨2, ![1, a]⟩) :
    rowOf (shapeCast ⟨2, ![1, a]⟩ x h) = x := by
  funext q
  obtain ⟨i, rfl⟩ : ∃ i : Fin a, q = ix1 i := ⟨q 0, eq_ix1 q⟩
  exact shapeCast_a_1a_apply x h 0 i

section Stretches

variable (W : Valuation τ sig (Elt Ideal))

/-! ### The first stretch: the edge list's two rows, the reciprocal column, the first layer's neighbour mean and bias row -/

theorem ops0_v1 :
    (StableHlo.after (hostOps0 (F := Ideal)) W (Proc.devRef .tc main_v1) : IVec S1600000 32)
      = Graph.rowRaw (W (Proc.devRef .tc main_arg1)) := by
  unfold Graph.rowRaw
  after_results_simp
  rfl

theorem ops0_v3 :
    (StableHlo.after (hostOps0 (F := Ideal)) W (Proc.devRef .tc main_v3) : IVec S1600000 32)
      = colRaw (W (Proc.devRef .tc main_arg1)) := by
  unfold colRaw
  after_results_simp
  rfl

theorem ops0_v12 :
    (StableHlo.after (hostOps0 (F := Ideal)) W (Proc.devRef .tc main_v12) : FVec Ideal S100000x1 .f32)
      = recipCol (Graph.den (W (Proc.devRef .tc main_arg1))) := by
  unfold recipCol Graph.den Graph.colIdx
  after_results_simp
  rfl

theorem ops0_v24 :
    (StableHlo.after (hostOps0 (F := Ideal)) W (Proc.devRef .tc main_v24) : FVec Ideal S100000x128 .f32)
      = aggHost (Graph.gs (W (Proc.devRef .tc main_arg1)) (W (Proc.devRef .tc main_arg0))) (Graph.den (W (Proc.devRef .tc main_arg1))) := by
  unfold aggHost recipCol Graph.gs Graph.den Graph.colIdx Graph.rowIdx Graph.rowRaw
  after_results_simp
  rfl

theorem ops0_v25 :
    (StableHlo.after (hostOps0 (F := Ideal)) W (Proc.devRef .tc main_v25) : FVec Ideal S1x128 .f32)
      = shapeCast S1x128 (W (Proc.devRef .tc main_arg4)) shapeCasts_S128_S1x128 := by
  after_results_simp
  rfl

theorem ops0_arg0 : StableHlo.after (hostOps0 (F := Ideal)) W (Proc.devRef .tc main_arg0) = W (Proc.devRef .tc main_arg0) := by
  after_results_simp
theorem ops0_arg2 : StableHlo.after (hostOps0 (F := Ideal)) W (Proc.devRef .tc main_arg2) = W (Proc.devRef .tc main_arg2) := by
  after_results_simp
theorem ops0_arg3 : StableHlo.after (hostOps0 (F := Ideal)) W (Proc.devRef .tc main_arg3) = W (Proc.devRef .tc main_arg3) := by
  after_results_simp
theorem ops0_arg5 : StableHlo.after (hostOps0 (F := Ideal)) W (Proc.devRef .tc main_arg5) = W (Proc.devRef .tc main_arg5) := by
  after_results_simp
theorem ops0_arg6 : StableHlo.after (hostOps0 (F := Ideal)) W (Proc.devRef .tc main_arg6) = W (Proc.devRef .tc main_arg6) := by
  after_results_simp
theorem ops0_arg7 : StableHlo.after (hostOps0 (F := Ideal)) W (Proc.devRef .tc main_arg7) = W (Proc.devRef .tc main_arg7) := by
  after_results_simp
theorem ops0_arg8 : StableHlo.after (hostOps0 (F := Ideal)) W (Proc.devRef .tc main_arg8) = W (Proc.devRef .tc main_arg8) := by
  after_results_simp
theorem ops0_arg9 : StableHlo.after (hostOps0 (F := Ideal)) W (Proc.devRef .tc main_arg9) = W (Proc.devRef .tc main_arg9) := by
  after_results_simp

/-! ### The second stretch: the column sums over the node count, and the scale and shift rows -/

theorem ops1_v28 (j : Fin 128) :
    (StableHlo.after (hostOps1 (F := Ideal)) W (Proc.devRef .tc main_v28) : FVec Ideal S1x128 .f32) (ix2 (0 : Fin 1) j)
      = Ideal.div ((W (Proc.devRef .tc main_v26_1) : FVec Ideal S1x128 .f32) (ix2 (0 : Fin 1) j)) litN := by
  after_results_simp
  rfl

theorem ops1_v32 (j : Fin 128) :
    (StableHlo.after (hostOps1 (F := Ideal)) W (Proc.devRef .tc main_v32) : FVec Ideal S1x128 .f32) (ix2 (0 : Fin 1) j)
      = Ideal.div ((W (Proc.devRef .tc main_v26_2) : FVec Ideal S1x128 .f32) (ix2 (0 : Fin 1) j)) litN
        - Ideal.div ((W (Proc.devRef .tc main_v26_1) : FVec Ideal S1x128 .f32) (ix2 (0 : Fin 1) j)) litN
          * Ideal.div ((W (Proc.devRef .tc main_v26_1) : FVec Ideal S1x128 .f32) (ix2 (0 : Fin 1) j)) litN := by
  after_results_simp
  rfl

theorem ops1_v33 :
    (StableHlo.after (hostOps1 (F := Ideal)) W (Proc.devRef .tc main_v33) : FVec Ideal S1x128 .f32)
      = shapeCast S1x128 (W (Proc.devRef .tc main_arg5)) shapeCasts_S128_S1x128 := by
  after_results_simp
  rfl

theorem ops1_v34 :
    (StableHlo.after (hostOps1 (F := Ideal)) W (Proc.devRef .tc main_v34) : FVec Ideal S1x128 .f32)
      = shapeCast S1x128 (W (Proc.devRef .tc main_arg6)) shapeCasts_S128_S1x128 := by
  after_results_simp
  rfl

theorem ops1_v26_0 : StableHlo.after (hostOps1 (F := Ideal)) W (Proc.devRef .tc main_v26_0) = W (Proc.devRef .tc main_v26_0) := by
  after_results_simp
theorem ops1_v1 : StableHlo.after (hostOps1 (F := Ideal)) W (Proc.devRef .tc main_v1) = W (Proc.devRef .tc main_v1) := by
  after_results_simp
theorem ops1_v3 : StableHlo.after (hostOps1 (F := Ideal)) W (Proc.devRef .tc main_v3) = W (Proc.devRef .tc main_v3) := by
  after_results_simp
theorem ops1_v12 : StableHlo.after (hostOps1 (F := Ideal)) W (Proc.devRef .tc main_v12) = W (Proc.devRef .tc main_v12) := by
  after_results_simp
theorem ops1_arg7 : StableHlo.after (hostOps1 (F := Ideal)) W (Proc.devRef .tc main_arg7) = W (Proc.devRef .tc main_arg7) := by
  after_results_simp
theorem ops1_arg8 : StableHlo.after (hostOps1 (F := Ideal)) W (Proc.devRef .tc main_arg8) = W (Proc.devRef .tc main_arg8) := by
  after_results_simp
theorem ops1_arg9 : StableHlo.after (hostOps1 (F := Ideal)) W (Proc.devRef .tc main_arg9) = W (Proc.devRef .tc main_arg9) := by
  after_results_simp

/-! ### The third stretch: the second layer's neighbour mean and bias row -/

theorem ops2_v47 (ei : IVec S2x1600000 32) (h1 : W (Proc.devRef .tc main_v1) = Graph.rowRaw ei)
    (h3 : W (Proc.devRef .tc main_v3) = colRaw ei) (h12 : W (Proc.devRef .tc main_v12) = recipCol (Graph.den ei)) :
    (StableHlo.after (hostOps2 (F := Ideal)) W (Proc.devRef .tc main_v47) : FVec Ideal S100000x128 .f32)
      = aggHost (Graph.gs ei (W (Proc.devRef .tc main_v35))) (Graph.den ei) := by
  unfold aggHost Graph.gs Graph.colIdx Graph.rowIdx
  after_results_simp
  rw [h1, h3, h12]
  rfl

theorem ops2_v48 :
    (StableHlo.after (hostOps2 (F := Ideal)) W (Proc.devRef .tc main_v48) : FVec Ideal S1x40 .f32)
      = shapeCast S1x40 (W (Proc.devRef .tc main_arg9)) shapeCasts_S40_S1x40 := by
  after_results_simp
  rfl

theorem ops2_v35 : StableHlo.after (hostOps2 (F := Ideal)) W (Proc.devRef .tc main_v35) = W (Proc.devRef .tc main_v35) := by
  after_results_simp
theorem ops2_arg7 : StableHlo.after (hostOps2 (F := Ideal)) W (Proc.devRef .tc main_arg7) = W (Proc.devRef .tc main_arg7) := by
  after_results_simp
theorem ops2_arg8 : StableHlo.after (hostOps2 (F := Ideal)) W (Proc.devRef .tc main_arg8) = W (Proc.devRef .tc main_arg8) := by
  after_results_simp

end Stretches

/-! ## The network's pieces, over variables -/

theorem mean_of_sum (H : Arr2 100000 128) (j : Fin 128) : Ideal.div (colSum H j) litN = mean H j := rfl

theorem var_of_sums (H : Arr2 100000 128) (j : Fin 128) :
    Ideal.div (colSum (fun p => H p * H p) j) litN - Ideal.div (colSum H j) litN * Ideal.div (colSum H j) litN
      = varOfSquares H j := rfl

theorem layerK_def (gs : Arr2 100000 128 → Arr2 100000 128) (den : Arr1 100000) (feat : Arr2 100000 128)
    (Wl Wr : Arr2 128 128) (b : Arr1 128) :
    ofFn2 (lin (aggMul (gs feat) den) feat Wl Wr b) = layerK gs den feat Wl Wr b := rfl

theorem hiddenK_def (H : Arr2 100000 128) (gamma beta : Arr1 128) :
    ofFn2 (bnRelu H (mean H) (varOfSquares H) gamma beta) = hiddenK H gamma beta := rfl

theorem outK_def (gs : Arr2 100000 128 → Arr2 100000 128) (den : Arr1 100000) (x : Arr2 100000 128)
    (W1l W1r : Arr2 128 128) (b1 gamma beta : Arr1 128) (W2l W2r : Arr2 128 40) (b2 : Arr1 40) :
    ofFn2 (lin (aggMul (gs (hiddenK (layerK gs den x W1l W1r b1) gamma beta)) den)
        (hiddenK (layerK gs den x W1l W1r b1) gamma beta) W2l W2r b2)
      = outK gs den x W1l W1r b1 gamma beta W2l W2r b2 := rfl

/-! ## The run's buffer contents, boundary by boundary -/

section Chain

variable (c : Dev nD)

/-- The edge list the program is launched with. -/
abbrev edges : IVec S2x1600000 32 := m ((c : Thread nD τ).loc main_arg1)

/-- The first layer of the network on the launch arrays. -/
abbrev layer1 : Arr2 100000 128 :=
  layerK (Graph.gs (edges m c)) (Graph.den (edges m c)) (m ((c : Thread nD τ).loc main_arg0)) (m ((c : Thread nD τ).loc main_arg2)) (m ((c : Thread nD τ).loc main_arg3)) (m ((c : Thread nD τ).loc main_arg4))

/-- The normalised, rectified first layer. -/
abbrev hidden1 : Arr2 100000 128 := hiddenK (layer1 m c) (m ((c : Thread nD τ).loc main_arg5)) (m ((c : Thread nD τ).loc main_arg6))

/-! ### The launch memory at the arguments -/

theorem W0_arg0 : W0 m ρ c (Proc.devRef .tc main_arg0) = m ((c : Thread nD τ).loc main_arg0) := rfl
theorem W0_arg1 : W0 m ρ c (Proc.devRef .tc main_arg1) = m ((c : Thread nD τ).loc main_arg1) := rfl
theorem W0_arg2 : W0 m ρ c (Proc.devRef .tc main_arg2) = m ((c : Thread nD τ).loc main_arg2) := rfl
theorem W0_arg3 : W0 m ρ c (Proc.devRef .tc main_arg3) = m ((c : Thread nD τ).loc main_arg3) := rfl
theorem W0_arg4 : W0 m ρ c (Proc.devRef .tc main_arg4) = m ((c : Thread nD τ).loc main_arg4) := rfl
theorem W0_arg5 : W0 m ρ c (Proc.devRef .tc main_arg5) = m ((c : Thread nD τ).loc main_arg5) := rfl
theorem W0_arg6 : W0 m ρ c (Proc.devRef .tc main_arg6) = m ((c : Thread nD τ).loc main_arg6) := rfl
theorem W0_arg7 : W0 m ρ c (Proc.devRef .tc main_arg7) = m ((c : Thread nD τ).loc main_arg7) := rfl
theorem W0_arg8 : W0 m ρ c (Proc.devRef .tc main_arg8) = m ((c : Thread nD τ).loc main_arg8) := rfl
theorem W0_arg9 : W0 m ρ c (Proc.devRef .tc main_arg9) = m ((c : Thread nD τ).loc main_arg9) := rfl

/-! ### Entering the first call -/

theorem V1_v24 :
    (V1 m ρ c main_v24 : Arr2 100000 128)
      = aggMul (Graph.gs (edges m c) (m ((c : Thread nD τ).loc main_arg0))) (Graph.den (edges m c)) := by
  have h := ops0_v24 (W0 m ρ c)
  rw [W0_arg1 m ρ c, W0_arg0 m ρ c, aggHost_eq] at h
  exact h

theorem V1_arg0 : V1 m ρ c main_arg0 = m ((c : Thread nD τ).loc main_arg0) := (ops0_arg0 (W0 m ρ c)).trans (W0_arg0 m ρ c)
theorem V1_arg2 : V1 m ρ c main_arg2 = m ((c : Thread nD τ).loc main_arg2) := (ops0_arg2 (W0 m ρ c)).trans (W0_arg2 m ρ c)
theorem V1_arg3 : V1 m ρ c main_arg3 = m ((c : Thread nD τ).loc main_arg3) := (ops0_arg3 (W0 m ρ c)).trans (W0_arg3 m ρ c)

theorem V1_v25 : rowOf (V1 m ρ c main_v25 : Arr2 1 128) = m ((c : Thread nD τ).loc main_arg4) :=
  ((congrArg (rowOf (D := 128)) (ops0_v25 (W0 m ρ c))).trans (rowOf_reshape _ _)).trans (W0_arg4 m ρ c)

/-- The first call's hidden array is the first layer of the network. -/
theorem hid_eq : Reg0.hid (V1 m ρ) c = layer1 m c := by
  unfold Reg0.hid
  rw [V1_v24 m ρ c, V1_arg0 m ρ c, V1_arg2 m ρ c, V1_arg3 m ρ c, V1_v25 m ρ c]
  exact layerK_def (Graph.gs (edges m c)) _ _ _ _ _

/-! ### After the first call -/

theorem W2_v26_0 : (W2 m ρ c (Proc.devRef .tc main_v26_0) : Arr2 100000 128) = layer1 m c :=
  (W2_arr m ρ c 5).trans ((Reg0.final_h (V1 m ρ) c).trans (hid_eq m ρ c))

theorem W2_v26_1 : (W2 m ρ c (Proc.devRef .tc main_v26_1) : Arr2 1 128) = asRow (colSum (layer1 m c)) := by
  refine (W2_arr m ρ c 6).trans ((Reg0.final_sum (V1 m ρ) c).trans ?_)
  rw [hid_eq m ρ c]

theorem W2_v26_2 :
    (W2 m ρ c (Proc.devRef .tc main_v26_2) : Arr2 1 128) = asRow (colSum (fun p => layer1 m c p * layer1 m c p)) := by
  refine (W2_arr m ρ c 7).trans ((Reg0.final_sumsq (V1 m ρ) c).trans ?_)
  rw [hid_eq m ρ c]

theorem W2_arg5 : W2 m ρ c (Proc.devRef .tc main_arg5) = m ((c : Thread nD τ).loc main_arg5) :=
  (W2_of_ne m ρ c main_arg5 (by decide)).trans ((ops0_arg5 (W0 m ρ c)).trans (W0_arg5 m ρ c))
theorem W2_arg6 : W2 m ρ c (Proc.devRef .tc main_arg6) = m ((c : Thread nD τ).loc main_arg6) :=
  (W2_of_ne m ρ c main_arg6 (by decide)).trans ((ops0_arg6 (W0 m ρ c)).trans (W0_arg6 m ρ c))

/-! ### Entering the second call -/

theorem V3_v26_0 : (V3 m ρ c main_v26_0 : Arr2 100000 128) = layer1 m c :=
  (ops1_v26_0 (W2 m ρ c)).trans (W2_v26_0 m ρ c)

theorem V3_v28 : (fun j : Fin 128 => (V3 m ρ c main_v28 : Arr2 1 128) (ix2 (0 : Fin 1) j)) = mean (layer1 m c) := by
  funext j
  refine (ops1_v28 (W2 m ρ c) j).trans ?_
  rw [W2_v26_1 m ρ c, asRow_ix2]
  exact mean_of_sum _ _

theorem V3_v32 :
    (fun j : Fin 128 => (V3 m ρ c main_v32 : Arr2 1 128) (ix2 (0 : Fin 1) j)) = varOfSquares (layer1 m c) := by
  funext j
  refine (ops1_v32 (W2 m ρ c) j).trans ?_
  rw [W2_v26_1 m ρ c, W2_v26_2 m ρ c, asRow_ix2, asRow_ix2]
  exact var_of_sums _ _

theorem V3_v33 : rowOf (V3 m ρ c main_v33 : Arr2 1 128) = m ((c : Thread nD τ).loc main_arg5) :=
  ((congrArg (rowOf (D := 128)) (ops1_v33 (W2 m ρ c))).trans (rowOf_reshape _ _)).trans (W2_arg5 m ρ c)
theorem V3_v34 : rowOf (V3 m ρ c main_v34 : Arr2 1 128) = m ((c : Thread nD τ).loc main_arg6) :=
  ((congrArg (rowOf (D := 128)) (ops1_v34 (W2 m ρ c))).trans (rowOf_reshape _ _)).trans (W2_arg6 m ρ c)

/-! ### After the second call -/

theorem W4_v35 : (W4 m ρ c (Proc.devRef .tc main_v35) : Arr2 100000 128) = hidden1 m c := by
  refine (W4_arr m ρ c 5).trans ((Reg12.final1 (V3 m ρ) c).trans ?_)
  rw [V3_v26_0 m ρ c, V3_v28 m ρ c, V3_v32 m ρ c, V3_v33 m ρ c, V3_v34 m ρ c]
  exact hiddenK_def _ _ _

theorem W4_v1 : W4 m ρ c (Proc.devRef .tc main_v1) = Graph.rowRaw (edges m c) :=
  (W4_of_ne m ρ c main_v1 (by decide)).trans ((ops1_v1 (W2 m ρ c)).trans ((W2_of_ne m ρ c main_v1 (by decide)).trans
    ((ops0_v1 (W0 m ρ c)).trans (congrArg Graph.rowRaw (W0_arg1 m ρ c)))))
theorem W4_v3 : W4 m ρ c (Proc.devRef .tc main_v3) = colRaw (edges m c) :=
  (W4_of_ne m ρ c main_v3 (by decide)).trans ((ops1_v3 (W2 m ρ c)).trans ((W2_of_ne m ρ c main_v3 (by decide)).trans
    ((ops0_v3 (W0 m ρ c)).trans (congrArg colRaw (W0_arg1 m ρ c)))))
theorem W4_v12 : W4 m ρ c (Proc.devRef .tc main_v12) = recipCol (Graph.den (edges m c)) :=
  (W4_of_ne m ρ c main_v12 (by decide)).trans ((ops1_v12 (W2 m ρ c)).trans ((W2_of_ne m ρ c main_v12 (by decide)).trans
    ((ops0_v12 (W0 m ρ c)).trans (congrArg (fun e => recipCol (Graph.den e)) (W0_arg1 m ρ c)))))
theorem W4_arg7 : W4 m ρ c (Proc.devRef .tc main_arg7) = m ((c : Thread nD τ).loc main_arg7) :=
  (W4_of_ne m ρ c main_arg7 (by decide)).trans ((ops1_arg7 (W2 m ρ c)).trans ((W2_of_ne m ρ c main_arg7 (by decide)).trans
    ((ops0_arg7 (W0 m ρ c)).trans (W0_arg7 m ρ c))))
theorem W4_arg8 : W4 m ρ c (Proc.devRef .tc main_arg8) = m ((c : Thread nD τ).loc main_arg8) :=
  (W4_of_ne m ρ c main_arg8 (by decide)).trans ((ops1_arg8 (W2 m ρ c)).trans ((W2_of_ne m ρ c main_arg8 (by decide)).trans
    ((ops0_arg8 (W0 m ρ c)).trans (W0_arg8 m ρ c))))
theorem W4_arg9 : W4 m ρ c (Proc.devRef .tc main_arg9) = m ((c : Thread nD τ).loc main_arg9) :=
  (W4_of_ne m ρ c main_arg9 (by decide)).trans ((ops1_arg9 (W2 m ρ c)).trans ((W2_of_ne m ρ c main_arg9 (by decide)).trans
    ((ops0_arg9 (W0 m ρ c)).trans (W0_arg9 m ρ c))))

/-! ### Entering the third call -/

theorem V5_v47 :
    (V5 m ρ c main_v47 : Arr2 100000 128) = aggMul (Graph.gs (edges m c) (hidden1 m c)) (Graph.den (edges m c)) := by
  have h := ops2_v47 (W4 m ρ c) (edges m c) (W4_v1 m ρ c) (W4_v3 m ρ c) (W4_v12 m ρ c)
  rw [W4_v35 m ρ c, aggHost_eq] at h
  exact h

theorem V5_v35 : (V5 m ρ c main_v35 : Arr2 100000 128) = hidden1 m c := (ops2_v35 (W4 m ρ c)).trans (W4_v35 m ρ c)
theorem V5_arg7 : V5 m ρ c main_arg7 = m ((c : Thread nD τ).loc main_arg7) := (ops2_arg7 (W4 m ρ c)).trans (W4_arg7 m ρ c)
theorem V5_arg8 : V5 m ρ c main_arg8 = m ((c : Thread nD τ).loc main_arg8) := (ops2_arg8 (W4 m ρ c)).trans (W4_arg8 m ρ c)
theorem V5_v48 : rowOf (V5 m ρ c main_v48 : Arr2 1 40) = m ((c : Thread nD τ).loc main_arg9) :=
  ((congrArg (rowOf (D := 40)) (ops2_v48 (W4 m ρ c))).trans (rowOf_reshape _ _)).trans (W4_arg9 m ρ c)

end Chain

/-- The result array after the last call, as the network's first arrangement of the argument arrays. -/
theorem result_eq (c : Dev nD) :
    W6 (F := Ideal) m ρ c (Proc.devRef .tc main_v49)
      = outK (Graph.gs (m ((c : Thread nD τ).loc main_arg1))) (Graph.den (m ((c : Thread nD τ).loc main_arg1)))
          (m ((c : Thread nD τ).loc main_arg0)) (m ((c : Thread nD τ).loc main_arg2)) (m ((c : Thread nD τ).loc main_arg3))
          (m ((c : Thread nD τ).loc main_arg4)) (m ((c : Thread nD τ).loc main_arg5)) (m ((c : Thread nD τ).loc main_arg6))
          (m ((c : Thread nD τ).loc main_arg7)) (m ((c : Thread nD τ).loc main_arg8)) (m ((c : Thread nD τ).loc main_arg9)) := by
  refine (W6_arr m ρ c 5).trans ((Reg12.final2 (V5 m ρ) c).trans ?_)
  rw [V5_v47 m ρ c, V5_v35 m ρ c, V5_arg7 m ρ c, V5_arg8 m ρ c, V5_v48 m ρ c]
  exact outK_def (Graph.gs (m ((c : Thread nD τ).loc main_arg1))) _ _ _ _ _ _ _ _ _ _

end Cert.KernelIdeal.HostChain

end
-- ==== Proof.RefOps.lean ====
/-
  The reference network's host program as one straight line of array operations.

  The program computes, over the node features, the edge table and the two layers' weights: the neighbour sum of
  the features (a gather along the edges' source column, a scatter-add along the destination column) divided by
  the in-degree taken at least one; the first linear layer; the batch statistics of the hidden array over the
  nodes (the column mean, and the centred variance, which is spelt inside a function of its own that in turn
  calls a three-line selection); the normalisation with the learned scale and shift, and the rectification
  (again a function of its own); then the neighbour mean of the rectified array and the second linear layer.

  A call means the callee's lines at the call site over the call's own record of arrays, so the whole program is
  a list: the caller's lines up to the call, the callee's lines (its arguments the caller's arrays, its values the
  record's), the caller's remaining lines. The list is cut into three stretches, concatenated: the first neighbour
  mean and linear layer with the column mean (`ops0`), the variance, normalisation and rectification (`ops1`), the
  second neighbour mean and linear layer (`ops2`).
-/
import proofs.«149974_j25357486915627_1_alg».proof.ReferenceIdeal
import proofs.«149974_j25357486915627_1_alg».proof.Proof.Gen.ReferenceIdeal
import Idealize.ShloMosaic.Lib.StableHlo.Run

noncomputable section

namespace Cert.ReferenceIdeal.RefRun

open Cert.ReferenceIdeal Idealize.ShloMosaic Idealize.ShloMosaic.TcCoe Idealize.SL.Sem Idealize.ShloMosaic.StableHlo

variable {F : FTy → Type} [FloatOps F]
variable [Facts]
open Facts₀ Facts

/-- The edge columns, the wrapped source index, the first neighbour sum and in-degree, their quotient, the first
    linear layer with its bias, the hidden array's column sums over the nodes and the column mean, and the integer
    zero the variance takes as its correction: forty-one operations. -/
abbrev ops0 : List (HloOp τ sig (Elt F)) :=
  [ StableHlo.unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    StableHlo.reshape main_v0 main_v1 rfl shapeCasts_S1x1600000_S1600000,
    StableHlo.unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    StableHlo.reshape main_v2 main_v3 rfl shapeCasts_S1x1600000_S1600000,
    StableHlo.nullary main_c (constantI S_ 32 0#32),
    StableHlo.unary main_c main_v4 (broadcastInDim S1600000 ![] bcast_S_S1600000 : (⟨S_, .i32⟩ : BufTy).Contents (Elt F) → (⟨S1600000, .i32⟩ : BufTy).Contents (Elt F)),
    StableHlo.binary main_v1 main_v4 main_v5 (cmpi .slt : (⟨S1600000, .i32⟩ : BufTy).Contents (Elt F) → (⟨S1600000, .i32⟩ : BufTy).Contents (Elt F) → (⟨S1600000, .i1⟩ : BufTy).Contents (Elt F)),
    StableHlo.nullary main_c_0 (constantI S_ 32 100000#32),
    StableHlo.unary main_c_0 main_v6 (broadcastInDim S1600000 ![] bcast_S_S1600000 : (⟨S_, .i32⟩ : BufTy).Contents (Elt F) → (⟨S1600000, .i32⟩ : BufTy).Contents (Elt F)),
    StableHlo.binary main_v1 main_v6 main_v7 (addi : (⟨S1600000, .i32⟩ : BufTy).Contents (Elt F) → (⟨S1600000, .i32⟩ : BufTy).Contents (Elt F) → (⟨S1600000, .i32⟩ : BufTy).Contents (Elt F)),
    StableHlo.ternary main_v5 main_v7 main_v1 main_v8 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v8 main_v9 (broadcastInDim S1600000x1 ![0] bcast_S1600000_S1600000x1_0 : (⟨S1600000, .i32⟩ : BufTy).Contents (Elt F) → (⟨S1600000x1, .i32⟩ : BufTy).Contents (Elt F)),
    StableHlo.binary main_arg0 main_v9 main_v10 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    StableHlo.nullary main_cst (constant S_ .f32 0x00000000#32),
    StableHlo.unary main_cst main_v11 (broadcastInDim S100000x128 ![] bcast_S_S100000x128 : (⟨S_, .f32⟩ : BufTy).Contents (Elt F) → (⟨S100000x128, .f32⟩ : BufTy).Contents (Elt F)),
    StableHlo.unary main_v3 main_v12 (broadcastInDim S1600000x1 ![0] bcast_S1600000_S1600000x1_0 : (⟨S1600000, .i32⟩ : BufTy).Contents (Elt F) → (⟨S1600000x1, .i32⟩ : BufTy).Contents (Elt F)),
    StableHlo.ternary main_v11 main_v12 main_v10 main_v13 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    StableHlo.nullary main_cst_1 (constant S_ .f32 0x3F800000#32),
    StableHlo.unary main_cst_1 main_v14 (broadcastInDim S1600000 ![] bcast_S_S1600000 : (⟨S_, .f32⟩ : BufTy).Contents (Elt F) → (⟨S1600000, .f32⟩ : BufTy).Contents (Elt F)),
    StableHlo.nullary main_cst_2 (constant S_ .f32 0x00000000#32),
    StableHlo.unary main_cst_2 main_v15 (broadcastInDim S100000 ![] bcast_S_S100000 : (⟨S_, .f32⟩ : BufTy).Contents (Elt F) → (⟨S100000, .f32⟩ : BufTy).Contents (Elt F)),
    StableHlo.unary main_v3 main_v16 (broadcastInDim S1600000x1 ![0] bcast_S1600000_S1600000x1_0 : (⟨S1600000, .i32⟩ : BufTy).Contents (Elt F) → (⟨S1600000x1, .i32⟩ : BufTy).Contents (Elt F)),
    StableHlo.ternary main_v15 main_v16 main_v14 main_v17 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    StableHlo.nullary main_cst_3 (constant S_ .f32 0x3F800000#32),
    StableHlo.unary main_cst_3 main_v18 (broadcastInDim S100000 ![] bcast_S_S100000 : (⟨S_, .f32⟩ : BufTy).Contents (Elt F) → (⟨S100000, .f32⟩ : BufTy).Contents (Elt F)),
    StableHlo.binary main_v17 main_v18 main_v19 (maximumf : (⟨S100000, .f32⟩ : BufTy).Contents (Elt F) → (⟨S100000, .f32⟩ : BufTy).Contents (Elt F) → (⟨S100000, .f32⟩ : BufTy).Contents (Elt F)),
    StableHlo.unary main_v19 main_v20 (broadcastInDim S100000x1 ![0] bcast_S100000_S100000x1_0 : (⟨S100000, .f32⟩ : BufTy).Contents (Elt F) → (⟨S100000x1, .f32⟩ : BufTy).Contents (Elt F)),
    StableHlo.unary main_v20 main_v21 (broadcastInDim S100000x128 ![0, 1] bcast_S100000x1_S100000x128_0_1 : (⟨S100000x1, .f32⟩ : BufTy).Contents (Elt F) → (⟨S100000x128, .f32⟩ : BufTy).Contents (Elt F)),
    StableHlo.binary main_v13 main_v21 main_v22 (Host.divf : (⟨S100000x128, .f32⟩ : BufTy).Contents (Elt F) → (⟨S100000x128, .f32⟩ : BufTy).Contents (Elt F) → (⟨S100000x128, .f32⟩ : BufTy).Contents (Elt F)),
    StableHlo.binary main_v22 main_arg2 main_v23 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.binary main_arg0 main_arg3 main_v24 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.binary main_v23 main_v24 main_v25 (addf : (⟨S100000x128, .f32⟩ : BufTy).Contents (Elt F) → (⟨S100000x128, .f32⟩ : BufTy).Contents (Elt F) → (⟨S100000x128, .f32⟩ : BufTy).Contents (Elt F)),
    StableHlo.unary main_arg4 main_v26 (broadcastInDim S1x128 ![1] bcast_S128_S1x128_1 : (⟨S128, .f32⟩ : BufTy).Contents (Elt F) → (⟨S1x128, .f32⟩ : BufTy).Contents (Elt F)),
    StableHlo.unary main_v26 main_v27 (broadcastInDim S100000x128 ![0, 1] bcast_S1x128_S100000x128_0_1 : (⟨S1x128, .f32⟩ : BufTy).Contents (Elt F) → (⟨S100000x128, .f32⟩ : BufTy).Contents (Elt F)),
    StableHlo.binary main_v25 main_v27 main_v28 (addf : (⟨S100000x128, .f32⟩ : BufTy).Contents (Elt F) → (⟨S100000x128, .f32⟩ : BufTy).Contents (Elt F) → (⟨S100000x128, .f32⟩ : BufTy).Contents (Elt F)),
    StableHlo.nullary main_cst_4 (constant S_ .f32 0x00000000#32),
    StableHlo.binary main_v28 main_cst_4 main_v29 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_5 (constant S_ .f32 0x47C35000#32),
    StableHlo.unary main_cst_5 main_v30 (broadcastInDim S128 ![] bcast_S_S128 : (⟨S_, .f32⟩ : BufTy).Contents (Elt F) → (⟨S128, .f32⟩ : BufTy).Contents (Elt F)),
    StableHlo.binary main_v29 main_v30 main_v31 (Host.divf : (⟨S128, .f32⟩ : BufTy).Contents (Elt F) → (⟨S128, .f32⟩ : BufTy).Contents (Elt F) → (⟨S128, .f32⟩ : BufTy).Contents (Elt F)),
    StableHlo.nullary main_c_6 (constantI S_ 32 0#32) ]

/-- The centred variance (the mean again, the centred squares' column sums, their quotient by the node count less
    the converted correction, selected against a not-a-number constant on that count being positive), then the
    normalisation by the reciprocal root of the variance plus ε with scale and shift, the rectification against
    zero, and the integer zero of the second index wrap: forty-two operations. -/
abbrev ops1 : List (HloOp τ sig (Elt F)) :=
  [ StableHlo.TRef.nullary main_call0.cst (constant S_ .f32 0x00000000#32),
    StableHlo.TRef.binary (.of main_v28) main_call0.cst main_call0.v0 (fun x v => Host.reduceAdd x v reducesTo_S100000x128_S128_d0 h_S_),
    StableHlo.TRef.unary main_call0.v0 main_call0.v1 (broadcastInDim S1x128 ![1] bcast_S128_S1x128_1),
    StableHlo.TRef.nullary main_call0.cst_0 (constant S_ .f32 0x47C35000#32),
    StableHlo.TRef.unary main_call0.cst_0 main_call0.v2 (broadcastInDim S1x128 ![] bcast_S_S1x128),
    StableHlo.TRef.binary main_call0.v1 main_call0.v2 main_call0.v3 Host.divf,
    StableHlo.TRef.unary main_call0.v3 main_call0.v4 (broadcastInDim S100000x128 ![0, 1] bcast_S1x128_S100000x128_0_1),
    StableHlo.TRef.binary (.of main_v28) main_call0.v4 main_call0.v5 subf,
    StableHlo.TRef.binary main_call0.v5 main_call0.v5 main_call0.v6 mulf,
    StableHlo.TRef.unary (.of main_c_6) main_call0.v7 (sitofp (F := F) .f32),
    StableHlo.TRef.nullary main_call0.cst_1 (constant S_ .f32 0x47C35000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S100000x128_S128_d0 h_S_),
    StableHlo.TRef.unary main_call0.v8 main_call0.v10 (broadcastInDim S128 ![] bcast_S_S128),
    StableHlo.TRef.binary main_call0.v9 main_call0.v10 main_call0.v11 Host.divf,
    StableHlo.TRef.nullary main_call0.cst_3 (constant S_ .f32 0x00000000#32),
    StableHlo.TRef.binary main_call0.v8 main_call0.cst_3 main_call0.v12 (cmpf (F := F) .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S128 ![] bcast_S_S128),
    StableHlo.TRef.ternary main_call0.v12 main_call0.v11 main_call0.call0.v1 main_call0.call0.v2 (fun p a b => select (broadcastInDim S128 ![] bcast_S_S128 p) a b),
    StableHlo.unary main_v31 main_v33 (broadcastInDim S1x128 ![1] bcast_S128_S1x128_1 : (⟨S128, .f32⟩ : BufTy).Contents (Elt F) → (⟨S1x128, .f32⟩ : BufTy).Contents (Elt F)),
    StableHlo.unary main_v33 main_v34 (broadcastInDim S100000x128 ![0, 1] bcast_S1x128_S100000x128_0_1 : (⟨S1x128, .f32⟩ : BufTy).Contents (Elt F) → (⟨S100000x128, .f32⟩ : BufTy).Contents (Elt F)),
    StableHlo.binary main_v28 main_v34 main_v35 (subf : (⟨S100000x128, .f32⟩ : BufTy).Contents (Elt F) → (⟨S100000x128, .f32⟩ : BufTy).Contents (Elt F) → (⟨S100000x128, .f32⟩ : BufTy).Contents (Elt F)),
    StableHlo.unary main_arg5 main_v36 (broadcastInDim S1x128 ![1] bcast_S128_S1x128_1 : (⟨S128, .f32⟩ : BufTy).Contents (Elt F) → (⟨S1x128, .f32⟩ : BufTy).Contents (Elt F)),
    StableHlo.unary main_v36 main_v37 (broadcastInDim S100000x128 ![0, 1] bcast_S1x128_S100000x128_0_1 : (⟨S1x128, .f32⟩ : BufTy).Contents (Elt F) → (⟨S100000x128, .f32⟩ : BufTy).Contents (Elt F)),
    StableHlo.binary main_v37 main_v35 main_v38 (mulf : (⟨S100000x128, .f32⟩ : BufTy).Contents (Elt F) → (⟨S100000x128, .f32⟩ : BufTy).Contents (Elt F) → (⟨S100000x128, .f32⟩ : BufTy).Contents (Elt F)),
    StableHlo.nullary main_cst_7 (constant S_ .f32 0x3727C5AC#32),
    StableHlo.unary main_cst_7 main_v39 (broadcastInDim S128 ![] bcast_S_S128 : (⟨S_, .f32⟩ : BufTy).Contents (Elt F) → (⟨S128, .f32⟩ : BufTy).Contents (Elt F)),
    StableHlo.binary main_v32 main_v39 main_v40 (addf : (⟨S128, .f32⟩ : BufTy).Contents (Elt F) → (⟨S128, .f32⟩ : BufTy).Contents (Elt F) → (⟨S128, .f32⟩ : BufTy).Contents (Elt F)),
    StableHlo.unary main_v40 main_v41 (Host.rsqrt : (⟨S128, .f32⟩ : BufTy).Contents (Elt F) → (⟨S128, .f32⟩ : BufTy).Contents (Elt F)),
    StableHlo.unary main_v41 main_v42 (broadcastInDim S1x128 ![1] bcast_S128_S1x128_1 : (⟨S128, .f32⟩ : BufTy).Contents (Elt F) → (⟨S1x128, .f32⟩ : BufTy).Contents (Elt F)),
    StableHlo.unary main_v42 main_v43 (broadcastInDim S100000x128 ![0, 1] bcast_S1x128_S100000x128_0_1 : (⟨S1x128, .f32⟩ : BufTy).Contents (Elt F) → (⟨S100000x128, .f32⟩ : BufTy).Contents (Elt F)),
    StableHlo.binary main_v38 main_v43 main_v44 (mulf : (⟨S100000x128, .f32⟩ : BufTy).Contents (Elt F) → (⟨S100000x128, .f32⟩ : BufTy).Contents (Elt F) → (⟨S100000x128, .f32⟩ : BufTy).Contents (Elt F)),
    StableHlo.unary main_arg6 main_v45 (broadcastInDim S1x128 ![1] bcast_S128_S1x128_1 : (⟨S128, .f32⟩ : BufTy).Contents (Elt F) → (⟨S1x128, .f32⟩ : BufTy).Contents (Elt F)),
    StableHlo.unary main_v45 main_v46 (broadcastInDim S100000x128 ![0, 1] bcast_S1x128_S100000x128_0_1 : (⟨S1x128, .f32⟩ : BufTy).Contents (Elt F) → (⟨S100000x128, .f32⟩ : BufTy).Contents (Elt F)),
    StableHlo.binary main_v44 main_v46 main_v47 (addf : (⟨S100000x128, .f32⟩ : BufTy).Contents (Elt F) → (⟨S100000x128, .f32⟩ : BufTy).Contents (Elt F) → (⟨S100000x128, .f32⟩ : BufTy).Contents (Elt F)),
    StableHlo.TRef.nullary main_call1.cst (constant S_ .f32 0x00000000#32),
    StableHlo.TRef.unary main_call1.cst main_call1.v0 (broadcastInDim S100000x128 ![] bcast_S_S100000x128),
    StableHlo.TRef.binary (.of main_v47) main_call1.v0 main_call1.v1 maximumf,
    StableHlo.nullary main_c_8 (constantI S_ 32 0#32) ]

/-- The wrapped source index again, the neighbour sum of the rectified array and the in-degree, their quotient, and
    the second linear layer with its bias: thirty operations. -/
abbrev ops2 : List (HloOp τ sig (Elt F)) :=
  [ StableHlo.unary main_c_8 main_v49 (broadcastInDim S1600000 ![] bcast_S_S1600000 : (⟨S_, .i32⟩ : BufTy).Contents (Elt F) → (⟨S1600000, .i32⟩ : BufTy).Contents (Elt F)),
    StableHlo.binary main_v1 main_v49 main_v50 (cmpi .slt : (⟨S1600000, .i32⟩ : BufTy).Contents (Elt F) → (⟨S1600000, .i32⟩ : BufTy).Contents (Elt F) → (⟨S1600000, .i1⟩ : BufTy).Contents (Elt F)),
    StableHlo.nullary main_c_9 (constantI S_ 32 100000#32),
    StableHlo.unary main_c_9 main_v51 (broadcastInDim S1600000 ![] bcast_S_S1600000 : (⟨S_, .i32⟩ : BufTy).Contents (Elt F) → (⟨S1600000, .i32⟩ : BufTy).Contents (Elt F)),
    StableHlo.binary main_v1 main_v51 main_v52 (addi : (⟨S1600000, .i32⟩ : BufTy).Contents (Elt F) → (⟨S1600000, .i32⟩ : BufTy).Contents (Elt F) → (⟨S1600000, .i32⟩ : BufTy).Contents (Elt F)),
    StableHlo.ternary main_v50 main_v52 main_v1 main_v53 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v53 main_v54 (broadcastInDim S1600000x1 ![0] bcast_S1600000_S1600000x1_0 : (⟨S1600000, .i32⟩ : BufTy).Contents (Elt F) → (⟨S1600000x1, .i32⟩ : BufTy).Contents (Elt F)),
    StableHlo.binary main_v48 main_v54 main_v55 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    StableHlo.nullary main_cst_10 (constant S_ .f32 0x00000000#32),
    StableHlo.unary main_cst_10 main_v56 (broadcastInDim S100000x128 ![] bcast_S_S100000x128 : (⟨S_, .f32⟩ : BufTy).Contents (Elt F) → (⟨S100000x128, .f32⟩ : BufTy).Contents (Elt F)),
    StableHlo.unary main_v3 main_v57 (broadcastInDim S1600000x1 ![0] bcast_S1600000_S1600000x1_0 : (⟨S1600000, .i32⟩ : BufTy).Contents (Elt F) → (⟨S1600000x1, .i32⟩ : BufTy).Contents (Elt F)),
    StableHlo.ternary main_v56 main_v57 main_v55 main_v58 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    StableHlo.nullary main_cst_11 (constant S_ .f32 0x3F800000#32),
    StableHlo.unary main_cst_11 main_v59 (broadcastInDim S1600000 ![] bcast_S_S1600000 : (⟨S_, .f32⟩ : BufTy).Contents (Elt F) → (⟨S1600000, .f32⟩ : BufTy).Contents (Elt F)),
    StableHlo.nullary main_cst_12 (constant S_ .f32 0x00000000#32),
    StableHlo.unary main_cst_12 main_v60 (broadcastInDim S100000 ![] bcast_S_S100000 : (⟨S_, .f32⟩ : BufTy).Contents (Elt F) → (⟨S100000, .f32⟩ : BufTy).Contents (Elt F)),
    StableHlo.unary main_v3 main_v61 (broadcastInDim S1600000x1 ![0] bcast_S1600000_S1600000x1_0 : (⟨S1600000, .i32⟩ : BufTy).Contents (Elt F) → (⟨S1600000x1, .i32⟩ : BufTy).Contents (Elt F)),
    StableHlo.ternary main_v60 main_v61 main_v59 main_v62 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    StableHlo.nullary main_cst_13 (constant S_ .f32 0x3F800000#32),
    StableHlo.unary main_cst_13 main_v63 (broadcastInDim S100000 ![] bcast_S_S100000 : (⟨S_, .f32⟩ : BufTy).Contents (Elt F) → (⟨S100000, .f32⟩ : BufTy).Contents (Elt F)),
    StableHlo.binary main_v62 main_v63 main_v64 (maximumf : (⟨S100000, .f32⟩ : BufTy).Contents (Elt F) → (⟨S100000, .f32⟩ : BufTy).Contents (Elt F) → (⟨S100000, .f32⟩ : BufTy).Contents (Elt F)),
    StableHlo.unary main_v64 main_v65 (broadcastInDim S100000x1 ![0] bcast_S100000_S100000x1_0 : (⟨S100000, .f32⟩ : BufTy).Contents (Elt F) → (⟨S100000x1, .f32⟩ : BufTy).Contents (Elt F)),
    StableHlo.unary main_v65 main_v66 (broadcastInDim S100000x128 ![0, 1] bcast_S100000x1_S100000x128_0_1 : (⟨S100000x1, .f32⟩ : BufTy).Contents (Elt F) → (⟨S100000x128, .f32⟩ : BufTy).Contents (Elt F)),
    StableHlo.binary main_v58 main_v66 main_v67 (Host.divf : (⟨S100000x128, .f32⟩ : BufTy).Contents (Elt F) → (⟨S100000x128, .f32⟩ : BufTy).Contents (Elt F) → (⟨S100000x128, .f32⟩ : BufTy).Contents (Elt F)),
    StableHlo.binary main_v67 main_arg7 main_v68 ((fun l r => Host.dotGeneral dot_S100000x128_S128x40_S100000x40_1_0_0_1_n_n none l r) : (⟨S100000x128, .f32⟩ : BufTy).Contents (Elt F) → (⟨S128x40, .f32⟩ : BufTy).Contents (Elt F) → (⟨S100000x40, .f32⟩ : BufTy).Contents (Elt F)),
    StableHlo.binary main_v48 main_arg8 main_v69 ((fun l r => Host.dotGeneral dot_S100000x128_S128x40_S100000x40_1_0_0_1_n_n none l r) : (⟨S100000x128, .f32⟩ : BufTy).Contents (Elt F) → (⟨S128x40, .f32⟩ : BufTy).Contents (Elt F) → (⟨S100000x40, .f32⟩ : BufTy).Contents (Elt F)),
    StableHlo.binary main_v68 main_v69 main_v70 (addf : (⟨S100000x40, .f32⟩ : BufTy).Contents (Elt F) → (⟨S100000x40, .f32⟩ : BufTy).Contents (Elt F) → (⟨S100000x40, .f32⟩ : BufTy).Contents (Elt F)),
    StableHlo.unary main_arg9 main_v71 (broadcastInDim S1x40 ![1] bcast_S40_S1x40_1 : (⟨S40, .f32⟩ : BufTy).Contents (Elt F) → (⟨S1x40, .f32⟩ : BufTy).Contents (Elt F)),
    StableHlo.unary main_v71 main_v72 (broadcastInDim S100000x40 ![0, 1] bcast_S1x40_S100000x40_0_1 : (⟨S1x40, .f32⟩ : BufTy).Contents (Elt F) → (⟨S100000x40, .f32⟩ : BufTy).Contents (Elt F)),
    StableHlo.binary main_v70 main_v72 main_v73 (addf : (⟨S100000x40, .f32⟩ : BufTy).Contents (Elt F) → (⟨S100000x40, .f32⟩ : BufTy).Contents (Elt F) → (⟨S100000x40, .f32⟩ : BufTy).Contents (Elt F)) ]

/-- The whole program: the three stretches in order, one hundred and thirteen operations. -/
abbrev ops : List (HloOp τ sig (Elt F)) := ops0 ++ ops1 ++ ops2

end Cert.ReferenceIdeal.RefRun

end
-- ==== Proof.RefRun.lean ====
/-
  The reference network's host program runs as its list of operations.

  The program's text is that list run in order: unfolding the three functions at their calls and re-associating the
  sequencing leaves, on both sides, one chain of single operations (`main_part0_eq`, `main_part1_eq`, and from the
  two `main_eq`). Every operation touches only arrays of the one core's table (`ops_sub`) and determines what it
  writes (`ops_fresh`); both are read off stretch by stretch and joined along the concatenation. The library's theorem
  for a straight line then gives the run: from any memory, every fair execution ends, and each array ends at the fold of
  the operations' results over the contents at launch (`run_main`).
-/
import proofs.«149974_j25357486915627_1_alg».proof.Proof.RefOps

noncomputable section

namespace Cert.ReferenceIdeal.RefRun

open Cert.ReferenceIdeal Idealize.ShloMosaic Idealize.ShloMosaic.TcCoe Idealize.SL.Sem Idealize.ShloMosaic.StableHlo

variable {F : FTy → Type} [FloatOps F]
variable [Facts]
open Facts₀ Facts

set_option maxRecDepth 8192 in
set_option maxHeartbeats 4000000 in
/-- The first sixty statements are the first two stretches: the variance's function (and the selection it calls)
    and the rectification's unfold at their calls, each ending in a return that the sequencing absorbs. -/
theorem main_part0_eq (c : Dev nD) : main_part0 (F := F) c = seq (ops0 ++ ops1) := by
  rw [seq_append]
  simp only [main_part0, fn_var.body, fn_where.body, fn_relu.body, seq, bind_assoc, pure_bind]
  rfl

set_option maxRecDepth 4096 in
set_option maxHeartbeats 1000000 in
/-- The remaining statements are the third stretch. -/
theorem main_part1_eq (c : Dev nD) : main_part1 (F := F) c = seq ops2 := by
  simp only [main_part1, seq, bind_assoc, pure_bind]

/-- The program is its list of operations, run in order. -/
theorem main_eq (c : Dev nD) : main (F := F) c = seq ops := by
  show (main_part0 c >>= fun _ => main_part1 c) = seq (ops0 ++ ops1 ++ ops2)
  rw [main_part0_eq, main_part1_eq, ← seq_append]

theorem scopedRefs_eq : (Finset.univ.filter fun b : Ref sig .tc => b.isScoped) = ∅ := by decide
theorem scopedSems_eq : (Finset.univ.filter fun sm : SemLoc sig => sm.isScoped .tc) = ∅ := by decide

theorem ops0_sub : (ops0 : List (HloOp τ sig (Elt F))).Forall fun op => op.bufs ⊆ tcRefs τ sig :=
  ⟨unary_bufs_sub .., reshape_bufs_sub .., unary_bufs_sub .., reshape_bufs_sub .., nullary_bufs_sub .., unary_bufs_sub ..,
    binary_bufs_sub .., nullary_bufs_sub .., unary_bufs_sub .., binary_bufs_sub .., ternary_bufs_sub .., unary_bufs_sub ..,
    binary_bufs_sub .., nullary_bufs_sub .., unary_bufs_sub .., unary_bufs_sub .., ternary_bufs_sub .., nullary_bufs_sub ..,
    unary_bufs_sub .., nullary_bufs_sub .., unary_bufs_sub .., unary_bufs_sub .., ternary_bufs_sub .., nullary_bufs_sub ..,
    unary_bufs_sub .., binary_bufs_sub .., unary_bufs_sub .., unary_bufs_sub .., binary_bufs_sub .., binary_bufs_sub ..,
    binary_bufs_sub .., binary_bufs_sub .., unary_bufs_sub .., unary_bufs_sub .., binary_bufs_sub .., nullary_bufs_sub ..,
    binary_bufs_sub .., nullary_bufs_sub .., unary_bufs_sub .., binary_bufs_sub .., nullary_bufs_sub ..⟩

theorem ops1_sub : (ops1 : List (HloOp τ sig (Elt F))).Forall fun op => op.bufs ⊆ tcRefs τ sig :=
  ⟨nullary_bufs_sub .., binary_bufs_sub .., unary_bufs_sub .., nullary_bufs_sub .., unary_bufs_sub .., binary_bufs_sub ..,
    unary_bufs_sub .., binary_bufs_sub .., binary_bufs_sub .., unary_bufs_sub .., nullary_bufs_sub .., binary_bufs_sub ..,
    nullary_bufs_sub .., binary_bufs_sub .., unary_bufs_sub .., binary_bufs_sub .., nullary_bufs_sub .., binary_bufs_sub ..,
    nullary_bufs_sub .., unary_bufs_sub .., unary_bufs_sub .., ternary_bufs_sub .., unary_bufs_sub .., unary_bufs_sub ..,
    binary_bufs_sub .., unary_bufs_sub .., unary_bufs_sub .., binary_bufs_sub .., nullary_bufs_sub .., unary_bufs_sub ..,
    binary_bufs_sub .., unary_bufs_sub .., unary_bufs_sub .., unary_bufs_sub .., binary_bufs_sub .., unary_bufs_sub ..,
    unary_bufs_sub .., binary_bufs_sub .., nullary_bufs_sub .., unary_bufs_sub .., binary_bufs_sub .., nullary_bufs_sub ..⟩

theorem ops2_sub : (ops2 : List (HloOp τ sig (Elt F))).Forall fun op => op.bufs ⊆ tcRefs τ sig :=
  ⟨unary_bufs_sub .., binary_bufs_sub .., nullary_bufs_sub .., unary_bufs_sub .., binary_bufs_sub .., ternary_bufs_sub ..,
    unary_bufs_sub .., binary_bufs_sub .., nullary_bufs_sub .., unary_bufs_sub .., unary_bufs_sub .., ternary_bufs_sub ..,
    nullary_bufs_sub .., unary_bufs_sub .., nullary_bufs_sub .., unary_bufs_sub .., unary_bufs_sub .., ternary_bufs_sub ..,
    nullary_bufs_sub .., unary_bufs_sub .., binary_bufs_sub .., unary_bufs_sub .., unary_bufs_sub .., binary_bufs_sub ..,
    binary_bufs_sub .., binary_bufs_sub .., binary_bufs_sub .., unary_bufs_sub .., unary_bufs_sub .., binary_bufs_sub ..⟩

/-- Every operation's arrays are arrays of the core's table. -/
theorem ops_sub : (ops : List (HloOp τ sig (Elt F))).Forall fun op => op.bufs ⊆ tcRefs τ sig :=
  List.forall_append.2 ⟨List.forall_append.2 ⟨ops0_sub, ops1_sub⟩, ops2_sub⟩

theorem ops0_fresh : (ops0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl⟩

theorem ops1_fresh : (ops1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl⟩

theorem ops2_fresh : (ops2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl,
    rfl, rfl, rfl, rfl, rfl, rfl, rfl, rfl, rfl⟩

/-- Every operation determines the contents it writes: none leaves an array at contents the machine picks. -/
theorem ops_fresh : ∀ op ∈ (ops : List (HloOp τ sig (Elt F))), op.fresh = ∅ :=
  List.forall_iff_forall_mem.1 (List.forall_append.2 ⟨List.forall_append.2 ⟨ops0_fresh, ops1_fresh⟩, ops2_fresh⟩)

/-- At the compiled mesh, for any float values, from any memory with zero counters: every weakly fair execution of the
    program on the core terminates, and every final state has each array at the operations' fold over the contents at
    launch. -/
theorem run_main (m : (ℓ : Loc nD τ sig) → Buf (Elt F) ℓ) (ρ : Dev nD → PrngReg) :
    θ_run defs (onTc (τ := τ) (main (F := F))) ⟨m, fun _ => 0, ρ⟩ fun r => ∀ (c : Dev nD) (b : Ref sig .tc),
      r.2.mem ((c.tc : Thread nD τ).loc b) = StableHlo.after ops (StableHlo.launchContents m c) (b : DevRef τ sig) :=
  run_seq scopedRefs_eq scopedSems_eq defs main (fun _ => ops) main_eq (fun _ => ops_sub) m ρ (fun _ => ops_fresh)

end Cert.ReferenceIdeal.RefRun

end
-- ==== Proof.RefRead.lean ====
/-
  What the reference network's host program leaves in its result buffer: the network of the specification in its
  second arrangement (the neighbour mean as a quotient, the variance as the mean of centred squares), over the
  argument arrays; and every argument array as it was.

  Each stage is first written as the array term the program spells, a function of the arrays it reads, and then read
  at an index:

  * the edge table's two rows are the sources and the targets; the neighbour sum (the rows of a feature array gathered
    at the sources, a negative source counted from the end, added into the zero array at the targets) and the in-degree
    taken at least one are the specification's graph part, term for term;
  * the neighbour sum over the in-degree copied along the features is the neighbour mean in quotient form;
  * a product with a weight matrix, read at (i, j), is the sum over the 128 features of the products of the entries;
    two such products and the bias copied down the rows are one layer's linear part;
  * the sum over the nodes from +0.0 is the column sum, and that over 100000.0 the column mean;
  * the variance function takes the mean again, sums the centred squares over the nodes and divides by 100000.0 minus
    the converted integer zero; that divisor is 100000, which is positive, so the selection against the not-a-number
    constant keeps the quotient: the centred variance;
  * scale times centred value times the reciprocal root of variance plus ε, plus shift, against zero, is the normalised,
    rectified hidden array;
  * the second layer is the first over 40 classes.

  The program runs as three stretches in order. The first leaves the hidden array, its column mean, the two edge rows
  and the integer zero the variance takes; the second leaves the rectified array and the integer zero of the second
  index wrap and keeps the edge rows; the third leaves the result. No stretch writes an argument buffer.
-/
import proofs.«149974_j25357486915627_1_alg».proof.KernelIdeal
import proofs.«149974_j25357486915627_1_alg».proof.ReferenceIdeal
import proofs.«149974_j25357486915627_1_alg».proof.Proof.SageSpec
import proofs.«149974_j25357486915627_1_alg».proof.Proof.SageGraph
import proofs.«149974_j25357486915627_1_alg».proof.Proof.SageConsts
import Idealize.ShloMosaic.PureOps.Ideal.Laws
import Idealize.ShloMosaic.Lib.ValueIdx
import Idealize.ShloMosaic.Lib.IdealHost
import Idealize.ShloMosaic.Lib.KernelVsHost
import Idealize.ShloMosaic.Lib.StackMember
import Idealize.ShloMosaic.Lib.Pipeline.Value
import Idealize.ShloMosaic.Lib.Pipeline.Frame
import Idealize.ShloMosaic.Lib.StableHlo.Run
import proofs.«149974_j25357486915627_1_alg».proof.Proof.RefOps

set_option maxRecDepth 16384

noncomputable section

namespace Cert.ReferenceIdeal.RefRead

open Idealize.ShloMosaic Idealize.ShloMosaic.ValueIdx Cert.Sage Cert.ReferenceIdeal
open Idealize.ShloMosaic.TcCoe Idealize.ShloMosaic.StableHlo
open scoped BigOperators

variable [Cert.ReferenceIdeal.Facts] [Cert.KernelIdeal.Facts]
open Cert.ReferenceIdeal.Facts₀ Cert.ReferenceIdeal.Facts

section Broadcasts
variable {α : Type}

/-- A vector laid out as one row and copied down the rows reads, at (i, j), the vector at j. -/
theorem rowBroadcast_apply {m n : Nat} (h1 : (⟨1, ![n]⟩ : Shape).BroadcastsInDim ⟨2, ![1, n]⟩ ![1])
    (h2 : (⟨2, ![1, n]⟩ : Shape).BroadcastsInDim ⟨2, ![m, n]⟩ ![0, 1]) (v : (⟨1, ![n]⟩ : Shape).Idx → α) (i : Fin m) (j : Fin n) :
    broadcastInDim ⟨2, ![m, n]⟩ ![0, 1] h2 (broadcastInDim ⟨2, ![1, n]⟩ ![1] h1 v) (ix2 i j) = v (ix1 j) := by
  rw [broadcastInDim_oneRow_apply]
  refine broadcastInDim_apply ![1] h1 v (ix2 (0 : Fin 1) j) (ix1 j) ?_
  intro a
  fin_cases a
  show j.val = if n = 1 then 0 else j.val
  split_ifs with hn
  · have := j.isLt; omega
  · rfl

/-- A vector laid out as one column and copied along the columns reads, at (i, k), the vector at i. -/
theorem colBroadcast_apply {m n : Nat} (h1 : (⟨1, ![m]⟩ : Shape).BroadcastsInDim ⟨2, ![m, 1]⟩ ![0])
    (h2 : (⟨2, ![m, 1]⟩ : Shape).BroadcastsInDim ⟨2, ![m, n]⟩ ![0, 1]) (v : (⟨1, ![m]⟩ : Shape).Idx → α) (i : Fin m) (k : Fin n) :
    broadcastInDim ⟨2, ![m, n]⟩ ![0, 1] h2 (broadcastInDim ⟨2, ![m, 1]⟩ ![0] h1 v) (ix2 i k) = v (ix1 i) := by
  have e1 : broadcastInDim ⟨2, ![m, n]⟩ ![0, 1] h2 (broadcastInDim ⟨2, ![m, 1]⟩ ![0] h1 v) (ix2 i k)
      = broadcastInDim ⟨2, ![m, 1]⟩ ![0] h1 v (ix2 i (0 : Fin 1)) := by
    refine broadcastInDim_apply ![0, 1] h2 _ (ix2 i k) (ix2 i (0 : Fin 1)) ?_
    intro a
    fin_cases a
    · show i.val = if m = 1 then 0 else i.val
      split_ifs with hm
      · have := i.isLt; omega
      · rfl
    · show (0 : ℕ) = if (1 : ℕ) = 1 then 0 else _
      simp
  rw [e1]
  refine broadcastInDim_apply ![0] h1 v (ix2 i (0 : Fin 1)) (ix1 i) ?_
  intro a
  fin_cases a
  show i.val = if m = 1 then 0 else i.val
  split_ifs with hm
  · have := i.isLt; omega
  · rfl

end Broadcasts

/-- The scatter of rows into a 100000 x 128 array has the same dimension numbers in both programs. -/
theorem scatter2_eq : scatter_S100000x128_S1600000x1_S1600000x128_1_0_0_1
    = Cert.KernelIdeal.scatter_S100000x128_S1600000x1_S1600000x128_1_0_0_1 := rfl
/-- The scatter of scalars into a 100000 vector has the same dimension numbers in both programs. -/
theorem scatter1_eq : scatter_S100000_S1600000x1_S1600000_n_0_0_1
    = Cert.KernelIdeal.scatter_S100000_S1600000x1_S1600000_n_0_0_1 := rfl
/-- The gather of rows of a 100000 x 128 array has the same dimension numbers in both programs. -/
theorem gather2_eq : gather_S100000x128_S1600000x1_S1600000x128_1_0_n_n_0_1_1128
    = Cert.KernelIdeal.gather_S100000x128_S1600000x1_S1600000x128_1_0_n_n_0_1_1128 := rfl
/-- The first layer's product is the plain one: 100000 x 128 by 128 x 128, the left operand's columns against the right operand's rows. -/
theorem dot128_eq : dot_S100000x128_S128x128_S100000x128_1_0_0_1_n_n = DotDims.plain 100000 128 128 := rfl
/-- The second layer's product is the plain one: 100000 x 128 by 128 x 40. -/
theorem dot40_eq : dot_S100000x128_S128x40_S100000x40_1_0_0_1_n_n = DotDims.plain 100000 128 40 := rfl

/-- Row 0 of the edge table: the sources, one per edge. -/
def rowR (ei : IVec S2x1600000 32) : IVec S1600000 32 :=
  shapeCast S1600000 (extractStridedSlice S1x1600000 ![0, 0] ei slices_S2x1600000_S1x1600000_0_0) shapeCasts_S1x1600000_S1600000

/-- Row 1 of the edge table: the targets, one per edge. -/
def colR (ei : IVec S2x1600000 32) : IVec S1600000 32 :=
  shapeCast S1600000 (extractStridedSlice S1x1600000 ![1, 0] ei slices_S2x1600000_S1x1600000_1_0) shapeCasts_S1x1600000_S1600000

/-- The neighbour sum as the program spells it, over the integer zero `z` it compares the sources with, the sources `r`, the targets `c` and a feature array: the rows gathered at the sources (100000 added to a source below `z`), added into the zero array at the targets. -/
def gsR (z : IVec S_ 32) (r c : IVec S1600000 32) (feat : FVec Ideal S100000x128 .f32) : FVec Ideal S100000x128 .f32 :=
  Host.scatterAdd scatter_S100000x128_S1600000x1_S1600000x128_1_0_0_1
    (broadcastInDim S100000x128 ![] bcast_S_S100000x128 (constant S_ .f32 0x00000000#32))
    (broadcastInDim S1600000x1 ![0] bcast_S1600000_S1600000x1_0 c)
    (Host.gather gather_S100000x128_S1600000x1_S1600000x128_1_0_n_n_0_1_1128 feat
      (broadcastInDim S1600000x1 ![0] bcast_S1600000_S1600000x1_0
        (select (cmpi .slt r (broadcastInDim S1600000 ![] bcast_S_S1600000 z))
          (addi r (broadcastInDim S1600000 ![] bcast_S_S1600000 (constantI S_ 32 100000#32)))
          r)))

/-- The in-degree as the program spells it, over the targets: ones added into the zero vector at the targets, then the maximum with one. -/
def denR (c : IVec S1600000 32) : FVec Ideal S100000 .f32 :=
  maximumf
    (Host.scatterAdd scatter_S100000_S1600000x1_S1600000_n_0_0_1
      (broadcastInDim S100000 ![] bcast_S_S100000 (constant S_ .f32 0x00000000#32))
      (broadcastInDim S1600000x1 ![0] bcast_S1600000_S1600000x1_0 c)
      (broadcastInDim S1600000 ![] bcast_S_S1600000 (constant S_ .f32 0x3F800000#32)))
    (broadcastInDim S100000 ![] bcast_S_S100000 (constant S_ .f32 0x3F800000#32))

/-- With the integer zero and the edge table's two rows it is the specification's neighbour sum, term for term. -/
theorem gsR_eq (ei : IVec S2x1600000 32) (feat : FVec Ideal S100000x128 .f32) :
    gsR (constantI S_ 32 0#32) (rowR ei) (colR ei) feat = Graph.gs ei feat := rfl

/-- With the edge table's second row it is the specification's denominator, term for term. -/
theorem denR_eq (ei : IVec S2x1600000 32) : denR (colR ei) = Graph.den ei := rfl

/-- An array over a per-node vector copied along the features, entry by entry, is the neighbour mean in quotient form. -/
theorem aggDiv_read (S : FVec Ideal S100000x128 .f32) (d : FVec Ideal S100000 .f32) :
    Host.divf S (broadcastInDim S100000x128 ![0, 1] bcast_S100000x1_S100000x128_0_1
        (broadcastInDim S100000x1 ![0] bcast_S100000_S100000x1_0 d)) = aggDiv S d := by
  funext p
  obtain ⟨i, k, rfl⟩ : ∃ i k, p = ix2 i k := ⟨p 0, p 1, eq_ix2 p⟩
  rw [hostDivf_apply, colBroadcast_apply]
  rfl

/-- A vector laid out as one row reads, at (0, j), the vector at j. -/
theorem asRowBroadcast_apply {α : Type} {n : Nat} (h1 : (⟨1, ![n]⟩ : Shape).BroadcastsInDim ⟨2, ![1, n]⟩ ![1])
    (v : (⟨1, ![n]⟩ : Shape).Idx → α) (j : Fin n) :
    broadcastInDim ⟨2, ![1, n]⟩ ![1] h1 v (ix2 (0 : Fin 1) j) = v (ix1 j) := by
  refine broadcastInDim_apply ![1] h1 v (ix2 (0 : Fin 1) j) (ix1 j) ?_
  intro a
  fin_cases a
  show j.val = if n = 1 then 0 else j.val
  split_ifs with hn
  · have := j.isLt; omega
  · rfl

/-- The host's sum over the nodes from +0.0, read at feature j, is the column sum. -/
theorem colReduce_apply (x : FVec Ideal S100000x128 .f32) (j : Fin 128) :
    Host.reduceAdd x (constant S_ .f32 0x00000000#32) reducesTo_S100000x128_S128_d0 h_S_ (ix1 j) = colSum x j := by
  have hR : Shape.Reduces S100000x128 [0] S128 := by decide
  rw [hostReduceAdd_apply, Ideal.hostReduceAdd_single reducesTo_S100000x128_S128_d0 hR, constant_apply, litZero_eq, zero_add]
  unfold colSum
  refine Finset.sum_congr rfl fun k _ => congrArg x (funext fun c => ?_)
  match c with
  | ⟨0, _⟩ => exact Fin.ext rfl
  | ⟨1, _⟩ => exact Fin.ext rfl

/-- The column mean as the program spells it: the sum over the nodes from +0.0, over 100000.0. -/
def meanR (h : FVec Ideal S100000x128 .f32) : FVec Ideal S128 .f32 :=
  Host.divf (Host.reduceAdd h (constant S_ .f32 0x00000000#32) reducesTo_S100000x128_S128_d0 h_S_)
    (broadcastInDim S128 ![] bcast_S_S128 (constant S_ .f32 0x47C35000#32))

/-- Read at feature j it is the specification's column mean. -/
theorem meanR_apply (h : FVec Ideal S100000x128 .f32) (j : Fin 128) : meanR h (ix1 j) = mean h j := by
  unfold meanR
  rw [hostDivf_apply, colReduce_apply, broadcastInDim_scalar_apply, constant_apply]
  rfl

/-- The centred array as the variance function spells it: the array minus its column mean, the mean computed on one row and copied down the rows. -/
def cenR (h : FVec Ideal S100000x128 .f32) : FVec Ideal S100000x128 .f32 :=
  subf h (broadcastInDim S100000x128 ![0, 1] bcast_S1x128_S100000x128_0_1
    (Host.divf
      (broadcastInDim S1x128 ![1] bcast_S128_S1x128_1
        (Host.reduceAdd h (constant S_ .f32 0x00000000#32) reducesTo_S100000x128_S128_d0 h_S_))
      (broadcastInDim S1x128 ![] bcast_S_S1x128 (constant S_ .f32 0x47C35000#32))))

/-- Read at (i, j) it is the entry minus the column mean. -/
theorem cenR_apply (h : FVec Ideal S100000x128 .f32) (i : Fin 100000) (j : Fin 128) :
    cenR h (ix2 i j) = h (ix2 i j) - mean h j := by
  unfold cenR
  rw [subf_apply, broadcastInDim_oneRow_apply, hostDivf_apply, broadcastInDim_scalar_apply, constant_apply,
    asRowBroadcast_apply, colReduce_apply]
  rfl

/-- The variance's divisor: 100000.0 minus the correction `z` converted to a float. -/
def cntR (z : IVec S_ 32) : FVec Ideal S_ .f32 := subf (constant S_ .f32 0x47C35000#32) (sitofp .f32 z)

/-- At the integer zero the divisor is 100000. -/
theorem cntR_zero : cntR (constantI S_ 32 0#32) ix0 = litN := by
  unfold cntR
  rw [subf_apply, constant_apply, sitofp_apply]
  have hz : (FloatOps.sitofp .f32 (constantI S_ 32 0#32 ix0) : Ideal .f32) = 0 := by
    show ((((0#32 : BitVec 32).toInt : ℤ) : ℝ) : EReal) = 0
    simp
  rw [hz]
  simp

/-- The variance as the program spells it, over the hidden array and the correction: the centred squares' column sums over the divisor where the divisor is positive, a not-a-number constant elsewhere. -/
def varR (h : FVec Ideal S100000x128 .f32) (z : IVec S_ 32) : FVec Ideal S128 .f32 :=
  select (broadcastInDim S128 ![] bcast_S_S128 (cmpf .ogt (cntR z) (constant S_ .f32 0x00000000#32)))
    (Host.divf
      (Host.reduceAdd (mulf (cenR h) (cenR h)) (constant S_ .f32 0x00000000#32) reducesTo_S100000x128_S128_d0 h_S_)
      (broadcastInDim S128 ![] bcast_S_S128 (cntR z)))
    (broadcastInDim S128 ![] bcast_S_S128 (id (constant S_ .f32 0x7FC00000#32)))

/-- 100000 is above zero. -/
theorem cnt_pos : FloatOps.cmpf .ogt (litN : Ideal .f32) (0 : Ideal .f32) = 1#1 := by
  rw [Ideal.cmpf_def, litN_eq]
  unfold Ideal.cmp
  have : (0 : EReal) < ((100000 : ℝ) : EReal) := by exact_mod_cast (by norm_num : (0 : ℝ) < 100000)
  simp [this]

/-- At the integer zero the divisor is 100000, which is positive, so the selection keeps the quotient: read at feature j it is the centred variance. -/
theorem varR_apply (h : FVec Ideal S100000x128 .f32) (j : Fin 128) :
    varR h (constantI S_ 32 0#32) (ix1 j) = varCentered h j := by
  unfold varR
  rw [select_apply, broadcastInDim_scalar_apply, cmpf_apply, cntR_zero, constant_apply, litZero_eq, cnt_pos, select_one,
    hostDivf_apply, colReduce_apply, broadcastInDim_scalar_apply, cntR_zero]
  unfold varCentered colSum
  refine congrArg (fun s => Ideal.div s litN) (Finset.sum_congr rfl fun i _ => ?_)
  rw [mulf_apply, cenR_apply]

/-- Normalisation and rectification as the program spells them, over the hidden array, its column mean and variance, the scale and the shift, each vector copied down the rows: the maximum with zero of scale times centred value times the reciprocal root of variance plus ε, plus shift. -/
def bnR (h : FVec Ideal S100000x128 .f32) (mu var gamma beta : FVec Ideal S128 .f32) : FVec Ideal S100000x128 .f32 :=
  maximumf
    (addf
      (mulf
        (mulf (broadcastInDim S100000x128 ![0, 1] bcast_S1x128_S100000x128_0_1 (broadcastInDim S1x128 ![1] bcast_S128_S1x128_1 gamma))
          (subf h (broadcastInDim S100000x128 ![0, 1] bcast_S1x128_S100000x128_0_1 (broadcastInDim S1x128 ![1] bcast_S128_S1x128_1 mu))))
        (broadcastInDim S100000x128 ![0, 1] bcast_S1x128_S100000x128_0_1 (broadcastInDim S1x128 ![1] bcast_S128_S1x128_1
          (Host.rsqrt (addf var (broadcastInDim S128 ![] bcast_S_S128 (constant S_ .f32 0x3727C5AC#32)))))))
      (broadcastInDim S100000x128 ![0, 1] bcast_S1x128_S100000x128_0_1 (broadcastInDim S1x128 ![1] bcast_S128_S1x128_1 beta)))
    (broadcastInDim S100000x128 ![] bcast_S_S100000x128 (constant S_ .f32 0x00000000#32))

/-- With the column mean and the centred variance of the hidden array it is the specification's normalised, rectified array. -/
theorem bnR_eq (h : FVec Ideal S100000x128 .f32) (gamma beta : FVec Ideal S128 .f32) :
    bnR h (meanR h) (varR h (constantI S_ 32 0#32)) gamma beta = hiddenR h gamma beta := by
  funext p
  obtain ⟨i, j, rfl⟩ : ∃ i j, p = ix2 i j := ⟨p 0, p 1, eq_ix2 p⟩
  unfold bnR
  rw [maximumf_apply, addf_apply, mulf_apply, mulf_apply, subf_apply, rowBroadcast_apply, rowBroadcast_apply, rowBroadcast_apply,
    rowBroadcast_apply, broadcastInDim_scalar_apply, constant_apply, litZero_eq, meanR_apply]
  show max (gamma (ix1 j) * (h (ix2 i j) - mean h j)
      * Ideal.rsqrt (varR h (constantI S_ 32 0#32) (ix1 j) + Ideal.ofBits .f32 0x3727C5AC#32) + beta (ix1 j)) 0 = _
  rw [varR_apply]
  rfl

/-- One layer's linear part as the host spells it: two products with the weight matrices, their sum, the bias copied down the rows. -/
theorem lin_read {D : Nat} (h1 : (⟨1, ![D]⟩ : Shape).BroadcastsInDim ⟨2, ![1, D]⟩ ![1])
    (h2 : (⟨2, ![1, D]⟩ : Shape).BroadcastsInDim ⟨2, ![100000, D]⟩ ![0, 1])
    (agg x : FVec Ideal ⟨2, ![100000, 128]⟩ .f32) (Wl Wr : FVec Ideal ⟨2, ![128, D]⟩ .f32) (b : FVec Ideal ⟨1, ![D]⟩ .f32) :
    addf (addf (Host.dotGeneral (DotDims.plain 100000 128 D) none agg Wl) (Host.dotGeneral (DotDims.plain 100000 128 D) none x Wr))
      (broadcastInDim ⟨2, ![100000, D]⟩ ![0, 1] h2 (broadcastInDim ⟨2, ![1, D]⟩ ![1] h1 b)) = ofFn2 (lin agg x Wl Wr b) := by
  funext p
  obtain ⟨i, j, rfl⟩ : ∃ i j, p = ix2 i j := ⟨p 0, p 1, eq_ix2 p⟩
  rw [addf_apply, addf_apply, StackMember.dotGeneral_plain_apply, StackMember.dotGeneral_plain_apply, rowBroadcast_apply]
  rfl

/-- The neighbour mean as the program spells it: the neighbour sum over the in-degree copied along the features. -/
def aggR (z : IVec S_ 32) (r c : IVec S1600000 32) (feat : FVec Ideal S100000x128 .f32) : FVec Ideal S100000x128 .f32 :=
  Host.divf (gsR z r c feat)
    (broadcastInDim S100000x128 ![0, 1] bcast_S100000x1_S100000x128_0_1 (broadcastInDim S100000x1 ![0] bcast_S100000_S100000x1_0 (denR c)))

/-- The first layer as the program spells it: the neighbour mean's product with one weight matrix plus the features' product with the other plus the bias copied down the rows. -/
def layer1R (z : IVec S_ 32) (r c : IVec S1600000 32) (x : FVec Ideal S100000x128 .f32) (Wl Wr : FVec Ideal S128x128 .f32) (b : FVec Ideal S128 .f32) :
    FVec Ideal S100000x128 .f32 :=
  addf
    (addf (Host.dotGeneral dot_S100000x128_S128x128_S100000x128_1_0_0_1_n_n none (aggR z r c x) Wl)
      (Host.dotGeneral dot_S100000x128_S128x128_S100000x128_1_0_0_1_n_n none x Wr))
    (broadcastInDim S100000x128 ![0, 1] bcast_S1x128_S100000x128_0_1 (broadcastInDim S1x128 ![1] bcast_S128_S1x128_1 b))

/-- The second layer likewise, over the 40 classes. -/
def layer2R (z : IVec S_ 32) (r c : IVec S1600000 32) (x : FVec Ideal S100000x128 .f32) (Wl Wr : FVec Ideal S128x40 .f32) (b : FVec Ideal S40 .f32) :
    FVec Ideal S100000x40 .f32 :=
  addf
    (addf (Host.dotGeneral dot_S100000x128_S128x40_S100000x40_1_0_0_1_n_n none (aggR z r c x) Wl)
      (Host.dotGeneral dot_S100000x128_S128x40_S100000x40_1_0_0_1_n_n none x Wr))
    (broadcastInDim S100000x40 ![0, 1] bcast_S1x40_S100000x40_0_1 (broadcastInDim S1x40 ![1] bcast_S40_S1x40_1 b))

/-- With the integer zero and the edge table's rows the first layer is the specification's layer in quotient form. -/
theorem layer1R_eq (ei : IVec S2x1600000 32) (x : FVec Ideal S100000x128 .f32) (Wl Wr : FVec Ideal S128x128 .f32) (b : FVec Ideal S128 .f32) :
    layer1R (constantI S_ 32 0#32) (rowR ei) (colR ei) x Wl Wr b = layerR (Graph.gs ei) (Graph.den ei) x Wl Wr b := by
  unfold layer1R aggR
  rw [gsR_eq, denR_eq, aggDiv_read, dot128_eq]
  exact lin_read _ _ _ _ _ _ _

/-- … and so is the second. -/
theorem layer2R_eq (ei : IVec S2x1600000 32) (x : FVec Ideal S100000x128 .f32) (Wl Wr : FVec Ideal S128x40 .f32) (b : FVec Ideal S40 .f32) :
    layer2R (constantI S_ 32 0#32) (rowR ei) (colR ei) x Wl Wr b = layerR (Graph.gs ei) (Graph.den ei) x Wl Wr b := by
  unfold layer2R aggR
  rw [gsR_eq, denR_eq, aggDiv_read, dot40_eq]
  exact lin_read _ _ _ _ _ _ _

/-- The whole network as the host spells it, over the edge table and the weights. -/
def netR (ei : IVec S2x1600000 32) (x : FVec Ideal S100000x128 .f32) (W1l W1r : FVec Ideal S128x128 .f32) (b1 gamma beta : FVec Ideal S128 .f32)
    (W2l W2r : FVec Ideal S128x40 .f32) (b2 : FVec Ideal S40 .f32) : FVec Ideal S100000x40 .f32 :=
  layer2R (constantI S_ 32 0#32) (rowR ei) (colR ei)
    (bnR (layer1R (constantI S_ 32 0#32) (rowR ei) (colR ei) x W1l W1r b1)
      (meanR (layer1R (constantI S_ 32 0#32) (rowR ei) (colR ei) x W1l W1r b1))
      (varR (layer1R (constantI S_ 32 0#32) (rowR ei) (colR ei) x W1l W1r b1) (constantI S_ 32 0#32)) gamma beta)
    W2l W2r b2

/-- The network as the program spells it is the specification's network in its second arrangement. -/
theorem netR_eq (ei : IVec S2x1600000 32) (x : FVec Ideal S100000x128 .f32) (W1l W1r : FVec Ideal S128x128 .f32) (b1 gamma beta : FVec Ideal S128 .f32)
    (W2l W2r : FVec Ideal S128x40 .f32) (b2 : FVec Ideal S40 .f32) :
    netR ei x W1l W1r b1 gamma beta W2l W2r b2 = outR (Graph.gs ei) (Graph.den ei) x W1l W1r b1 gamma beta W2l W2r b2 := by
  unfold netR outR
  rw [bnR_eq, layer2R_eq, layer1R_eq]

/-! ## The three stretches read at the buffers that outlive them

The first stretch leaves the hidden array, its column mean, the two edge columns and the integer zero the variance takes;
the second leaves the rectified array and the integer zero of the second index wrap, and keeps the edge columns; the third
leaves the result. None writes an argument. -/

/-- The program's ten argument buffers. -/
def argRefs : List (Ref sig .tc) :=
  [main_arg0, main_arg1, main_arg2, main_arg3, main_arg4, main_arg5, main_arg6, main_arg7, main_arg8, main_arg9]

/-- After the first stretch the hidden array is the first layer of the features. -/
theorem ops0_v28 (V : Valuation τ sig (Elt Ideal)) :
    after RefRun.ops0 V (main_v28 : DevRef τ sig)
      = layer1R (constantI S_ 32 0#32) (rowR (V (main_arg1 : DevRef τ sig))) (colR (V (main_arg1 : DevRef τ sig)))
          (V (main_arg0 : DevRef τ sig)) (V (main_arg2 : DevRef τ sig)) (V (main_arg3 : DevRef τ sig)) (V (main_arg4 : DevRef τ sig)) := by
  after_results_simp
  rfl

/-- … and the mean buffer holds the column mean of that array. -/
theorem ops0_v31 (V : Valuation τ sig (Elt Ideal)) :
    after RefRun.ops0 V (main_v31 : DevRef τ sig)
      = meanR (layer1R (constantI S_ 32 0#32) (rowR (V (main_arg1 : DevRef τ sig))) (colR (V (main_arg1 : DevRef τ sig)))
          (V (main_arg0 : DevRef τ sig)) (V (main_arg2 : DevRef τ sig)) (V (main_arg3 : DevRef τ sig)) (V (main_arg4 : DevRef τ sig))) := by
  after_results_simp
  rfl

/-- The variance's correction is the integer zero. -/
theorem ops0_c6 (V : Valuation τ sig (Elt Ideal)) :
    after RefRun.ops0 V (main_c_6 : DevRef τ sig) = constantI S_ 32 0#32 := by
  after_results_simp

/-- The edge sources. -/
theorem ops0_v1 (V : Valuation τ sig (Elt Ideal)) :
    after RefRun.ops0 V (main_v1 : DevRef τ sig) = rowR (V (main_arg1 : DevRef τ sig)) := by
  after_results_simp
  rfl

/-- The edge targets. -/
theorem ops0_v3 (V : Valuation τ sig (Elt Ideal)) :
    after RefRun.ops0 V (main_v3 : DevRef τ sig) = colR (V (main_arg1 : DevRef τ sig)) := by
  after_results_simp
  rfl

/-- The first stretch writes no argument buffer. -/
theorem ops0_keep (V : Valuation τ sig (Elt Ideal)) (r : Ref sig .tc) (hr : r ∈ argRefs) :
    after RefRun.ops0 V (Proc.devRef .tc r : DevRef τ sig) = V (Proc.devRef .tc r) := by
  simp only [argRefs, List.mem_cons, List.not_mem_nil, or_false] at hr
  rcases hr with rfl | rfl | rfl | rfl | rfl | rfl | rfl | rfl | rfl | rfl <;> (simp only [after_cons, after_nil]; rfl)

/-- After the second stretch the rectified array is the normalised hidden array, the statistics those the first stretch left. -/
theorem ops1_v48 (W : Valuation τ sig (Elt Ideal)) :
    after RefRun.ops1 W (main_v48 : DevRef τ sig)
      = bnR (W (main_v28 : DevRef τ sig)) (W (main_v31 : DevRef τ sig))
          (varR (W (main_v28 : DevRef τ sig)) (W (main_c_6 : DevRef τ sig)))
          (W (main_arg5 : DevRef τ sig)) (W (main_arg6 : DevRef τ sig)) := by
  after_results_simp
  rfl

/-- The second index wrap's zero is the integer zero. -/
theorem ops1_c8 (W : Valuation τ sig (Elt Ideal)) :
    after RefRun.ops1 W (main_c_8 : DevRef τ sig) = constantI S_ 32 0#32 := by
  after_results_simp

/-- The second stretch keeps the edge sources. -/
theorem ops1_v1 (W : Valuation τ sig (Elt Ideal)) :
    after RefRun.ops1 W (main_v1 : DevRef τ sig) = W (main_v1 : DevRef τ sig) := by
  simp only [after_cons, after_nil]
  rfl

/-- The second stretch keeps the edge targets. -/
theorem ops1_v3 (W : Valuation τ sig (Elt Ideal)) :
    after RefRun.ops1 W (main_v3 : DevRef τ sig) = W (main_v3 : DevRef τ sig) := by
  simp only [after_cons, after_nil]
  rfl

/-- The second stretch writes no argument buffer. -/
theorem ops1_keep (W : Valuation τ sig (Elt Ideal)) (r : Ref sig .tc) (hr : r ∈ argRefs) :
    after RefRun.ops1 W (Proc.devRef .tc r : DevRef τ sig) = W (Proc.devRef .tc r) := by
  simp only [argRefs, List.mem_cons, List.not_mem_nil, or_false] at hr
  rcases hr with rfl | rfl | rfl | rfl | rfl | rfl | rfl | rfl | rfl | rfl <;> (simp only [after_cons, after_nil]; rfl)

/-- After the third stretch the result is the second layer of the rectified array. -/
theorem ops2_v73 (W : Valuation τ sig (Elt Ideal)) :
    after RefRun.ops2 W (main_v73 : DevRef τ sig)
      = layer2R (W (main_c_8 : DevRef τ sig)) (W (main_v1 : DevRef τ sig)) (W (main_v3 : DevRef τ sig)) (W (main_v48 : DevRef τ sig))
          (W (main_arg7 : DevRef τ sig)) (W (main_arg8 : DevRef τ sig)) (W (main_arg9 : DevRef τ sig)) := by
  after_results_simp
  rfl

/-- The third stretch writes no argument buffer. -/
theorem ops2_keep (W : Valuation τ sig (Elt Ideal)) (r : Ref sig .tc) (hr : r ∈ argRefs) :
    after RefRun.ops2 W (Proc.devRef .tc r : DevRef τ sig) = W (Proc.devRef .tc r) := by
  simp only [argRefs, List.mem_cons, List.not_mem_nil, or_false] at hr
  rcases hr with rfl | rfl | rfl | rfl | rfl | rfl | rfl | rfl | rfl | rfl <;> (simp only [after_cons, after_nil]; rfl)

/-! ## The whole program -/

/-- The program's run is the three stretches' runs in order. -/
theorem ops_split (V : Valuation τ sig (Elt Ideal)) :
    after RefRun.ops V = after RefRun.ops2 (after RefRun.ops1 (after RefRun.ops0 V)) := by
  show after (RefRun.ops0 ++ RefRun.ops1 ++ RefRun.ops2) V = _
  rw [StableHlo.after_append, StableHlo.after_append]

/-- No argument buffer is written. -/
theorem ops_keep (V : Valuation τ sig (Elt Ideal)) (r : Ref sig .tc) (hr : r ∈ argRefs) :
    after RefRun.ops V (Proc.devRef .tc r : DevRef τ sig) = V (Proc.devRef .tc r) := by
  rw [ops_split, ops2_keep _ r hr, ops1_keep _ r hr, ops0_keep _ r hr]

/-- The result buffer holds the network of the specification, in its second arrangement, over the argument arrays. -/
theorem out_eq (V : Valuation τ sig (Elt Ideal)) :
    after RefRun.ops V (main_v73 : DevRef τ sig)
      = Cert.Sage.outR (Cert.Sage.Graph.gs (V (main_arg1 : DevRef τ sig))) (Cert.Sage.Graph.den (V (main_arg1 : DevRef τ sig)))
          (V (main_arg0 : DevRef τ sig)) (V (main_arg2 : DevRef τ sig)) (V (main_arg3 : DevRef τ sig)) (V (main_arg4 : DevRef τ sig))
          (V (main_arg5 : DevRef τ sig)) (V (main_arg6 : DevRef τ sig)) (V (main_arg7 : DevRef τ sig)) (V (main_arg8 : DevRef τ sig))
          (V (main_arg9 : DevRef τ sig)) := by
  rw [ops_split, ops2_v73, ops1_c8, ops1_v1, ops1_v3, ops1_v48,
    ops1_keep _ main_arg7 (by decide), ops1_keep _ main_arg8 (by decide), ops1_keep _ main_arg9 (by decide),
    ops0_v28, ops0_v31, ops0_c6, ops0_v1, ops0_v3,
    ops0_keep _ main_arg5 (by decide), ops0_keep _ main_arg6 (by decide), ops0_keep _ main_arg7 (by decide),
    ops0_keep _ main_arg8 (by decide), ops0_keep _ main_arg9 (by decide)]
  exact netR_eq _ _ _ _ _ _ _ _ _ _

/-- The node features are as they were. -/
theorem arg0_eq (V : Valuation τ sig (Elt Ideal)) :
    after RefRun.ops V (main_arg0 : DevRef τ sig) = V (main_arg0 : DevRef τ sig) := ops_keep V main_arg0 (by decide)
/-- The edge table is as it was. -/
theorem arg1_eq (V : Valuation τ sig (Elt Ideal)) :
    after RefRun.ops V (main_arg1 : DevRef τ sig) = V (main_arg1 : DevRef τ sig) := ops_keep V main_arg1 (by decide)
/-- The first layer's neighbour weights are as they were. -/
theorem arg2_eq (V : Valuation τ sig (Elt Ideal)) :
    after RefRun.ops V (main_arg2 : DevRef τ sig) = V (main_arg2 : DevRef τ sig) := ops_keep V main_arg2 (by decide)
/-- The first layer's own weights are as they were. -/
theorem arg3_eq (V : Valuation τ sig (Elt Ideal)) :
    after RefRun.ops V (main_arg3 : DevRef τ sig) = V (main_arg3 : DevRef τ sig) := ops_keep V main_arg3 (by decide)
/-- The first layer's bias is as it was. -/
theorem arg4_eq (V : Valuation τ sig (Elt Ideal)) :
    after RefRun.ops V (main_arg4 : DevRef τ sig) = V (main_arg4 : DevRef τ sig) := ops_keep V main_arg4 (by decide)
/-- The normalisation's scale is as it was. -/
theorem arg5_eq (V : Valuation τ sig (Elt Ideal)) :
    after RefRun.ops V (main_arg5 : DevRef τ sig) = V (main_arg5 : DevRef τ sig) := ops_keep V main_arg5 (by decide)
/-- The normalisation's shift is as it was. -/
theorem arg6_eq (V : Valuation τ sig (Elt Ideal)) :
    after RefRun.ops V (main_arg6 : DevRef τ sig) = V (main_arg6 : DevRef τ sig) := ops_keep V main_arg6 (by decide)
/-- The second layer's neighbour weights are as they were. -/
theorem arg7_eq (V : Valuation τ sig (Elt Ideal)) :
    after RefRun.ops V (main_arg7 : DevRef τ sig) = V (main_arg7 : DevRef τ sig) := ops_keep V main_arg7 (by decide)
/-- The second layer's own weights are as they were. -/
theorem arg8_eq (V : Valuation τ sig (Elt Ideal)) :
    after RefRun.ops V (main_arg8 : DevRef τ sig) = V (main_arg8 : DevRef τ sig) := ops_keep V main_arg8 (by decide)
/-- The second layer's bias is as it was. -/
theorem arg9_eq (V : Valuation τ sig (Elt Ideal)) :
    after RefRun.ops V (main_arg9 : DevRef τ sig) = V (main_arg9 : DevRef τ sig) := ops_keep V main_arg9 (by decide)

end Cert.ReferenceIdeal.RefRead

end
-- ==== Proof.PreReal.lean ====
/-
  Three facts about the arrays both arrangements of the network are applied to.

  The precondition says, of every float argument x, all(|x| < +inf). At the extended reals |x| is max(x, -x) and the
  pattern of +inf denotes the top element, so each entry is neither top nor bottom: it is a real number. The
  conjunction is split argument by argument and each all(...) read entry by entry.

  The neighbour sum of a feature array is, at each entry, 0 plus a finite sum of entries of the feature array (the
  gathered rows that the scatter adds there); a finite sum of reals is a real, whatever the index arrays are.

  The denominator at a node is the maximum of a count and 1, so it is at least 1 and is not 0.
-/
import proofs.«149974_j25357486915627_1_alg».proof.Defs
import proofs.«149974_j25357486915627_1_alg».proof.Proof.Gen.KernelIdeal
import proofs.«149974_j25357486915627_1_alg».proof.Proof.Gen.Pre_finite_inputs
import proofs.«149974_j25357486915627_1_alg».proof.Proof.SageSpec
import proofs.«149974_j25357486915627_1_alg».proof.Proof.SageGraph
import proofs.«149974_j25357486915627_1_alg».proof.Proof.SageConsts
import Idealize.ShloMosaic.Lib.ReduceAll

noncomputable section

namespace Cert.Sage.PreReal

open Idealize.ShloMosaic Idealize.ShloMosaic.ValueIdx

variable [Cert.KernelIdeal.Facts] [Cert.Pre_finite_inputs.Facts]

/-! ## Real numbers among the extended reals -/

/-- The sum of two reals is a real. -/
theorem isReal_add {a b : EReal} (ha : IsReal a) (hb : IsReal b) : IsReal (a + b) := by
  obtain ⟨r, rfl⟩ := ha
  obtain ⟨q, rfl⟩ := hb
  exact ⟨r + q, (EReal.coe_add r q).symm⟩

/-- A finite sum of reals is a real. -/
theorem isReal_sum {ι : Type} (s : Finset ι) (f : ι → EReal) (h : ∀ i ∈ s, IsReal (f i)) : IsReal (∑ i ∈ s, f i) := by
  classical
  induction s using Finset.induction_on with
  | empty => exact ⟨0, by simp⟩
  | insert a s ha ih =>
    rw [Finset.sum_insert ha]
    exact isReal_add (h a (Finset.mem_insert_self a s)) (ih fun i hi => h i (Finset.mem_insert_of_mem hi))

/-- An extended real whose absolute value max(x, -x) is below the top element is a real. -/
theorem isReal_of_abs_lt_top (x : EReal) (h : max x (-x) < ⊤) : IsReal x := by
  induction x using EReal.rec with
  | bot => simp at h
  | coe r => exact ⟨r, rfl⟩
  | top => simp at h

/-! ## The precondition, entry by entry -/

/-- The pattern of +inf denotes the top element. -/
theorem litInf_eq : Ideal.ofBits .f32 0x7F800000#32 = ⊤ := by
  simp [Ideal.ofBits, Ideal.ieee]

/-- The result of a reduction over all axes has one index. -/
local instance : Subsingleton Cert.Pre_finite_inputs.S_.Idx := ⟨fun a b => funext fun d => d.elim0⟩

theorem ofBool_eq_one (b : Bool) : BitVec.ofBool b = 1#1 ↔ b = true := by cases b <;> decide

/-- One entry: where |x| < +inf compares true, the entry is a real. -/
theorem entry_real {s : Shape} (hb : Cert.Pre_finite_inputs.S_.BroadcastsInDim s (![] : Fin 0 → Fin s.rank))
    (x : FVec Ideal s .f32) (i : s.Idx)
    (h : cmpf .olt (Host.absf x) (broadcastInDim s ![] hb (constant Cert.Pre_finite_inputs.S_ .f32 0x7F800000#32)) i = 1#1) :
    IsReal (x i) := by
  have h' : BitVec.ofBool (decide (max (x i) (-(x i)) < Ideal.ofBits .f32 0x7F800000#32)) = 1#1 := h
  rw [ofBool_eq_one, decide_eq_true_eq, litInf_eq] at h'
  exact isReal_of_abs_lt_top _ h'

/-- One argument: where all(|x| < +inf) is true, every entry is a real. -/
theorem all_real {s : Shape} {axes : List (Fin s.rank)}
    (hb : Cert.Pre_finite_inputs.S_.BroadcastsInDim s (![] : Fin 0 → Fin s.rank))
    (hr : s.ReducesTo axes Cert.Pre_finite_inputs.S_) (hu : 0 < Cert.Pre_finite_inputs.S_.numel)
    (x : FVec Ideal s .f32)
    (h : Host.reduce IntOp.andi
      (cmpf .olt (Host.absf x) (broadcastInDim s ![] hb (constant Cert.Pre_finite_inputs.S_ .f32 0x7F800000#32)))
      (constantI Cert.Pre_finite_inputs.S_ 1 1#1) hr hu ix0 = 1#1) :
    ∀ i, IsReal (x i) := fun i =>
  entry_real hb x i (Host.reduce_andi_all _ _ hr hu ix0 h i)

section Arguments

variable (m : (ℓ : Loc Cert.KernelIdeal.nD Cert.KernelIdeal.τ Cert.KernelIdeal.sig) → Buf (Elt Ideal) ℓ)
  (h : Cert.Pre_KernelIdeal m) (c : Dev Cert.KernelIdeal.nD)

include h

/-- The precondition on one device: every float argument has only real entries. -/
theorem args_real :
    (∀ p, IsReal (m ((c.tc : Thread Cert.KernelIdeal.nD Cert.KernelIdeal.τ).loc Cert.KernelIdeal.main_arg0) p))
    ∧ (∀ p, IsReal (m ((c.tc : Thread Cert.KernelIdeal.nD Cert.KernelIdeal.τ).loc Cert.KernelIdeal.main_arg2) p))
    ∧ (∀ p, IsReal (m ((c.tc : Thread Cert.KernelIdeal.nD Cert.KernelIdeal.τ).loc Cert.KernelIdeal.main_arg3) p))
    ∧ (∀ p, IsReal (m ((c.tc : Thread Cert.KernelIdeal.nD Cert.KernelIdeal.τ).loc Cert.KernelIdeal.main_arg4) p))
    ∧ (∀ p, IsReal (m ((c.tc : Thread Cert.KernelIdeal.nD Cert.KernelIdeal.τ).loc Cert.KernelIdeal.main_arg5) p))
    ∧ (∀ p, IsReal (m ((c.tc : Thread Cert.KernelIdeal.nD Cert.KernelIdeal.τ).loc Cert.KernelIdeal.main_arg6) p))
    ∧ (∀ p, IsReal (m ((c.tc : Thread Cert.KernelIdeal.nD Cert.KernelIdeal.τ).loc Cert.KernelIdeal.main_arg7) p))
    ∧ (∀ p, IsReal (m ((c.tc : Thread Cert.KernelIdeal.nD Cert.KernelIdeal.τ).loc Cert.KernelIdeal.main_arg8) p))
    ∧ (∀ p, IsReal (m ((c.tc : Thread Cert.KernelIdeal.nD Cert.KernelIdeal.τ).loc Cert.KernelIdeal.main_arg9) p)) := by
  have e := congrFun (h c) ix0
  dsimp only [Cert.Pre_finite_inputs.fn, Cert.Pre_finite_inputs.fn_part1, Cert.Pre_finite_inputs.fn_part2] at e
  simp only [andi, IntOp.andi_eq_one] at e
  obtain ⟨⟨⟨⟨⟨⟨⟨⟨e0, e2⟩, e3⟩, e4⟩, e5⟩, e6⟩, e7⟩, e8⟩, e9⟩ := e
  exact ⟨all_real _ _ _ _ e0, all_real _ _ _ _ e2, all_real _ _ _ _ e3, all_real _ _ _ _ e4, all_real _ _ _ _ e5,
    all_real _ _ _ _ e6, all_real _ _ _ _ e7, all_real _ _ _ _ e8, all_real _ _ _ _ e9⟩

/-- The node features are real. -/
theorem x_real : ∀ p, Cert.Sage.IsReal (m ((c.tc : Thread Cert.KernelIdeal.nD Cert.KernelIdeal.τ).loc Cert.KernelIdeal.main_arg0) p) :=
  (args_real m h c).1

/-- The first layer's neighbour weights are real. -/
theorem w1l_real : ∀ p, Cert.Sage.IsReal (m ((c.tc : Thread Cert.KernelIdeal.nD Cert.KernelIdeal.τ).loc Cert.KernelIdeal.main_arg2) p) :=
  (args_real m h c).2.1

/-- The first layer's own-feature weights are real. -/
theorem w1r_real : ∀ p, Cert.Sage.IsReal (m ((c.tc : Thread Cert.KernelIdeal.nD Cert.KernelIdeal.τ).loc Cert.KernelIdeal.main_arg3) p) :=
  (args_real m h c).2.2.1

/-- The first layer's bias is real. -/
theorem b1_real : ∀ p, Cert.Sage.IsReal (m ((c.tc : Thread Cert.KernelIdeal.nD Cert.KernelIdeal.τ).loc Cert.KernelIdeal.main_arg4) p) :=
  (args_real m h c).2.2.2.1

/-- The normalisation's scale is real. -/
theorem gamma_real : ∀ p, Cert.Sage.IsReal (m ((c.tc : Thread Cert.KernelIdeal.nD Cert.KernelIdeal.τ).loc Cert.KernelIdeal.main_arg5) p) :=
  (args_real m h c).2.2.2.2.1

/-- The normalisation's shift is real. -/
theorem beta_real : ∀ p, Cert.Sage.IsReal (m ((c.tc : Thread Cert.KernelIdeal.nD Cert.KernelIdeal.τ).loc Cert.KernelIdeal.main_arg6) p) :=
  (args_real m h c).2.2.2.2.2.1

/-- The second layer's neighbour weights are real. -/
theorem w2l_real : ∀ p, Cert.Sage.IsReal (m ((c.tc : Thread Cert.KernelIdeal.nD Cert.KernelIdeal.τ).loc Cert.KernelIdeal.main_arg7) p) :=
  (args_real m h c).2.2.2.2.2.2.1

/-- The second layer's own-feature weights are real. -/
theorem w2r_real : ∀ p, Cert.Sage.IsReal (m ((c.tc : Thread Cert.KernelIdeal.nD Cert.KernelIdeal.τ).loc Cert.KernelIdeal.main_arg8) p) :=
  (args_real m h c).2.2.2.2.2.2.2.1

/-- The second layer's bias is real. -/
theorem b2_real : ∀ p, Cert.Sage.IsReal (m ((c.tc : Thread Cert.KernelIdeal.nD Cert.KernelIdeal.τ).loc Cert.KernelIdeal.main_arg9) p) :=
  (args_real m h c).2.2.2.2.2.2.2.2

end Arguments

/-! ## The neighbour sum and the denominator -/

/-- An accumulating scatter of reals into reals gives reals: each entry is the operand's entry plus a finite sum of
    update entries, whatever the indices are. -/
theorem scatterAdd_real {s si su : Shape} {w : Nat} (d : ScatterDims s si su) (x : FVec Ideal s .f32) (idx : IVec si w)
    (upd : FVec Ideal su .f32) (hx : ∀ i, IsReal (x i)) (hu : ∀ j, IsReal (upd j)) :
    ∀ i, IsReal (Host.scatterAdd d x idx upd i) := by
  intro i
  show IsReal (Ideal.hostScatterAdd d x idx upd i)
  unfold Ideal.hostScatterAdd
  exact isReal_add (hx i) (isReal_sum _ _ fun j _ => hu j)

/-- The elementwise maximum at an entry. -/
theorem maximumf_apply {s : Shape} (x y : FVec Ideal s .f32) (i : s.Idx) : maximumf x y i = max (x i) (y i) := rfl

/-- The neighbour sum of an array of reals is an array of reals: each entry is 0 plus a finite sum of entries
    of the array. -/
theorem gs_real (ei : IVec Cert.KernelIdeal.S2x1600000 32) (feat : FVec Ideal Cert.KernelIdeal.S100000x128 .f32)
    (h : ∀ p, Cert.Sage.IsReal (feat p)) : ∀ p, Cert.Sage.IsReal (Cert.Sage.Graph.gs ei feat p) := by
  unfold Cert.Sage.Graph.gs
  exact scatterAdd_real _ _ _ _ (fun _ => ⟨0, litZero_eq⟩) (fun _ => h _)

/-- The denominator is the maximum of a count and 1: it is not 0. -/
theorem den_ne_zero (ei : IVec Cert.KernelIdeal.S2x1600000 32) : ∀ q, Cert.Sage.Graph.den ei q ≠ 0 := by
  intro q
  unfold Cert.Sage.Graph.den
  rw [maximumf_apply]
  refine ne_of_gt (lt_of_lt_of_le zero_lt_one (le_max_of_le_right (le_of_eq ?_)))
  exact litOne_eq.symm

end Cert.Sage.PreReal

end
-- ==== Proof.lean ====
/-
  A two-layer mean-aggregation graph network with batch normalisation between the layers: the Pallas program (three
  calls tiled over the 100000 nodes in 25 blocks of 4000 rows, the neighbour sums by a gather and a scatter-add on the
  host) against the plain reference, over the extended reals.

  Both programs compute, from the same neighbour sums S = gs(features) and the same in-degrees den (at least 1):
  the neighbour mean, the linear layer mean·W_l + x·W_r + b, the column mean and variance of the hidden array over
  the nodes, the normalised and rectified hidden array, and the second layer. They differ in two places. The kernel
  multiplies S by the reciprocal 1/den where the reference divides by den: the same extended real, den being nonzero.
  The kernel takes the variance as the mean of squares minus the squared mean, its sums accumulated block by block
  over the grid, where the reference takes the mean of the centred squares: the same when the hidden array is real,
  which the finite inputs give (the neighbour sum of a real array is real; the reciprocal of a nonzero extended real
  is real).

  The kernel's result array is read off its frame run: each call's result array as a function of the arrays the call
  is entered with (Reg0, Reg12), chained through the three stretches of host operations (HostChain). The reference's
  run is its list of host operations (RefRun), read stage by stage (RefRead). The two arrangements agree (Sage).
-/
import proofs.«149974_j25357486915627_1_alg».proof.Defs
import proofs.«149974_j25357486915627_1_alg».proof.Proof.Gen.Kernel
import proofs.«149974_j25357486915627_1_alg».proof.Proof.Gen.KernelIdeal
import proofs.«149974_j25357486915627_1_alg».proof.Proof.Gen.ReferenceIdeal
import proofs.«149974_j25357486915627_1_alg».proof.Proof.Gen.Pre_finite_inputs
import proofs.«149974_j25357486915627_1_alg».proof.Proof.KernelFrame
import proofs.«149974_j25357486915627_1_alg».proof.Proof.KernelIdealFrame
import proofs.«149974_j25357486915627_1_alg».proof.Proof.KRun
import proofs.«149974_j25357486915627_1_alg».proof.Proof.KHost
import proofs.«149974_j25357486915627_1_alg».proof.Proof.RefRun
import proofs.«149974_j25357486915627_1_alg».proof.Proof.RefRead
import proofs.«149974_j25357486915627_1_alg».proof.Proof.SageAlgebra
import proofs.«149974_j25357486915627_1_alg».proof.Proof.PreReal
import Idealize.ShloMosaic.Adequacy
import Idealize.ShloMosaic.Init

noncomputable section

namespace Cert.Proof

open Idealize.ShloMosaic Idealize.SL.Sem

/-- The word-level kernel's frame. -/
theorem frame_k : Cert.frame_Kernel := fun m ρ _ => Cert.Kernel.GenP.frame m ρ

/-- The idealized kernel's frame. -/
theorem frame_ki : Cert.frame_KernelIdeal := fun m ρ _ => Cert.KernelIdeal.GenP.frame m ρ

/-- The reference's frame: its run, each argument buffer read back through the operations. -/
theorem frame_ri : Cert.frame_ReferenceIdeal := fun m ρ _ =>
  (θ_run Cert.ReferenceIdeal.defs _ _).mono (fun r h c =>
    ⟨(h c Cert.ReferenceIdeal.main_arg0).trans (Cert.ReferenceIdeal.RefRead.arg0_eq _),
     (h c Cert.ReferenceIdeal.main_arg1).trans (Cert.ReferenceIdeal.RefRead.arg1_eq _),
     (h c Cert.ReferenceIdeal.main_arg2).trans (Cert.ReferenceIdeal.RefRead.arg2_eq _),
     (h c Cert.ReferenceIdeal.main_arg3).trans (Cert.ReferenceIdeal.RefRead.arg3_eq _),
     (h c Cert.ReferenceIdeal.main_arg4).trans (Cert.ReferenceIdeal.RefRead.arg4_eq _),
     (h c Cert.ReferenceIdeal.main_arg5).trans (Cert.ReferenceIdeal.RefRead.arg5_eq _),
     (h c Cert.ReferenceIdeal.main_arg6).trans (Cert.ReferenceIdeal.RefRead.arg6_eq _),
     (h c Cert.ReferenceIdeal.main_arg7).trans (Cert.ReferenceIdeal.RefRead.arg7_eq _),
     (h c Cert.ReferenceIdeal.main_arg8).trans (Cert.ReferenceIdeal.RefRead.arg8_eq _),
     (h c Cert.ReferenceIdeal.main_arg9).trans (Cert.ReferenceIdeal.RefRead.arg9_eq _)⟩)
    (Cert.ReferenceIdeal.RefRun.run_main (F := Ideal) m ρ)

/-- The two programs end with equal result arrays: the kernel's run ends at the first arrangement of the arguments,
    the reference's at the second, of arguments that agree, and the arrangements agree on real first-layer inputs. -/
theorem algebraic : Cert.algebraic_KernelIdeal_ReferenceIdeal := by
  intro m ρ m' ρ' hpre hagree
  refine ⟨fun c => Cert.Sage.outK
      (Cert.Sage.Graph.gs (m ((c.tc : Thread Cert.KernelIdeal.nD Cert.KernelIdeal.τ).loc Cert.KernelIdeal.main_arg1)))
      (Cert.Sage.Graph.den (m ((c.tc : Thread Cert.KernelIdeal.nD Cert.KernelIdeal.τ).loc Cert.KernelIdeal.main_arg1)))
      (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)), ?_, ?_⟩
  · exact (θ_run Cert.KernelIdeal.defs _ _).mono
      (fun r h c => ⟨(h c).1.trans (Cert.KernelIdeal.HostChain.result_eq m ρ c), (h c).2⟩)
      (Cert.KernelIdeal.GenP.run_named (F := Ideal) m ρ)
  · refine (θ_run Cert.ReferenceIdeal.defs _ _).mono (fun r h c => ⟨?_,
      (h c Cert.ReferenceIdeal.main_arg0).trans (Cert.ReferenceIdeal.RefRead.arg0_eq _),
      (h c Cert.ReferenceIdeal.main_arg1).trans (Cert.ReferenceIdeal.RefRead.arg1_eq _),
      (h c Cert.ReferenceIdeal.main_arg2).trans (Cert.ReferenceIdeal.RefRead.arg2_eq _),
      (h c Cert.ReferenceIdeal.main_arg3).trans (Cert.ReferenceIdeal.RefRead.arg3_eq _),
      (h c Cert.ReferenceIdeal.main_arg4).trans (Cert.ReferenceIdeal.RefRead.arg4_eq _),
      (h c Cert.ReferenceIdeal.main_arg5).trans (Cert.ReferenceIdeal.RefRead.arg5_eq _),
      (h c Cert.ReferenceIdeal.main_arg6).trans (Cert.ReferenceIdeal.RefRead.arg6_eq _),
      (h c Cert.ReferenceIdeal.main_arg7).trans (Cert.ReferenceIdeal.RefRead.arg7_eq _),
      (h c Cert.ReferenceIdeal.main_arg8).trans (Cert.ReferenceIdeal.RefRead.arg8_eq _),
      (h c Cert.ReferenceIdeal.main_arg9).trans (Cert.ReferenceIdeal.RefRead.arg9_eq _)⟩)
      (Cert.ReferenceIdeal.RefRun.run_main (F := Ideal) m' ρ')
    refine (h c Cert.ReferenceIdeal.main_v73).trans ((Cert.ReferenceIdeal.RefRead.out_eq _).trans ?_)
    obtain ⟨h0, h1, h2, h3, h4, h5, h6, h7, h8, h9⟩ := hagree c
    show Cert.Sage.outR
      (Cert.Sage.Graph.gs (m' ((c.tc : Thread Cert.ReferenceIdeal.nD Cert.ReferenceIdeal.τ).loc Cert.ReferenceIdeal.main_arg1)))
      (Cert.Sage.Graph.den (m' ((c.tc : Thread Cert.ReferenceIdeal.nD Cert.ReferenceIdeal.τ).loc Cert.ReferenceIdeal.main_arg1)))
      (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) = _
    rw [h0, h1, h2, h3, h4, h5, h6, h7, h8, h9]
    exact (Cert.Sage.outK_eq_outR _ _
      (Cert.Sage.PreReal.gs_real _) (Cert.Sage.PreReal.den_ne_zero _) _ _ _ _ _ _ _ _ _
      (Cert.Sage.PreReal.x_real m hpre c) (Cert.Sage.PreReal.w1l_real m hpre c) (Cert.Sage.PreReal.w1r_real m hpre c)
      (Cert.Sage.PreReal.b1_real m hpre c)).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
